-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256000 : Shape := ⟨2, ![64, 256000]⟩
abbrev S256x32000 : Shape := ⟨2, ![256, 32000]⟩
abbrev S256 : Shape := ⟨1, ![256]⟩
abbrev S32000x256 : Shape := ⟨2, ![32000, 256]⟩
abbrev S32000 : Shape := ⟨1, ![32000]⟩
abbrev S_ : Shape := ⟨0, ![]⟩

class Facts : Prop where
  bcast_S_S64x256000 : S_.BroadcastsInDim S64x256000 (![] : Fin 0 → Fin S64x256000.rank)
  reducesTo_S64x256000_S_d0_1 : S64x256000.ReducesTo [0, 1] S_
  h_S_ : 0 < S_.numel
  bcast_S_S256x32000 : S_.BroadcastsInDim S256x32000 (![] : Fin 0 → Fin S256x32000.rank)
  reducesTo_S256x32000_S_d0_1 : S256x32000.ReducesTo [0, 1] S_
  bcast_S_S256 : S_.BroadcastsInDim S256 (![] : Fin 0 → Fin S256.rank)
  reducesTo_S256_S_d0 : S256.ReducesTo [0] S_
  bcast_S_S32000x256 : S_.BroadcastsInDim S32000x256 (![] : Fin 0 → Fin S32000x256.rank)
  reducesTo_S32000x256_S_d0_1 : S32000x256.ReducesTo [0, 1] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg4 : FVec F S32000 .f32) (main_v13 : IVec S_ 1) (main_v16 : IVec S32000x256 1) : IVec S_ 1 :=
  let main_c_5 : IVec S_ 1 := constantI S_ 1 1#1
  let main_v17 : IVec S_ 1 := (fun x v => Host.reduce IntOp.andi x v reducesTo_S32000x256_S_d0_1 h_S_) main_v16 main_c_5
  let main_v18 : IVec S_ 1 := andi main_v13 main_v17
  let main_v19 : FVec F S32000 .f32 := Host.absf main_arg4
  let main_cst_6 : FVec F S_ .f32 := constant S_ .f32 0x7F800000#32
  let main_v20 : FVec F S32000 .f32 := broadcastInDim S32000 ![] bcast_S_S32000 main_cst_6
  let main_v21 : IVec S32000 1 := cmpf .olt main_v19 main_v20
  let main_c_7 : IVec S_ 1 := constantI S_ 1 1#1
  let main_v22 : IVec S_ 1 := (fun x v => Host.reduce IntOp.andi x v reducesTo_S32000_S_d0 h_S_) main_v21 main_c_7
  let main_v23 : IVec S_ 1 := andi main_v18 main_v22
  main_v23

def fn {F : FTy → Type} [FloatOps F] (main_arg0 : FVec F S64x256000 .f32) (main_arg1 : FVec F S256x32000 .f32) (main_arg2 : FVec F S256 .f32) (main_arg3 : FVec F S32000x256 .f32) (main_arg4 : FVec F S32000 .f32) : IVec S_ 1 :=
  let main_v0 : FVec F S64x256000 .f32 := Host.absf main_arg0
  let main_cst : FVec F S_ .f32 := constant S_ .f32 0x7F800000#32
  let main_v1 : FVec F S64x256000 .f32 := broadcastInDim S64x256000 ![] bcast_S_S64x256000 main_cst
  let main_v2 : IVec S64x256000 1 := cmpf .olt main_v0 main_v1
  let main_c : IVec S_ 1 := constantI S_ 1 1#1
  let main_v3 : IVec S_ 1 := (fun x v => Host.reduce IntOp.andi x v reducesTo_S64x256000_S_d0_1 h_S_) main_v2 main_c
  let main_v4 : FVec F S256x32000 .f32 := Host.absf main_arg1
  let main_cst_0 : FVec F S_ .f32 := constant S_ .f32 0x7F800000#32
  let main_v5 : FVec F S256x32000 .f32 := broadcastInDim S256x32000 ![] bcast_S_S256x32000 main_cst_0
  let main_v6 : IVec S256x32000 1 := cmpf .olt main_v4 main_v5
  let main_c_1 : IVec S_ 1 := constantI S_ 1 1#1
  let main_v7 : IVec S_ 1 := (fun x v => Host.reduce IntOp.andi x v reducesTo_S256x32000_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32000x256 .f32 := Host.absf main_arg3
  let main_cst_4 : FVec F S_ .f32 := constant S_ .f32 0x7F800000#32
  let main_v15 : FVec F S32000x256 .f32 := broadcastInDim S32000x256 ![] bcast_S_S32000x256 main_cst_4
  let main_v16 : IVec S32000x256 1 := cmpf .olt main_v14 main_v15
  fn_part1 (F := F) main_arg4 main_v13 main_v16
-- ==== Kernel.lean ====
abbrev S64x256000 : Shape := ⟨2, ![64, 256000]⟩
abbrev S256x32000 : Shape := ⟨2, ![256, 32000]⟩
abbrev S256 : Shape := ⟨1, ![256]⟩
abbrev S32000x256 : Shape := ⟨2, ![32000, 256]⟩
abbrev S32000 : Shape := ⟨1, ![32000]⟩
abbrev S64x8x32000 : Shape := ⟨3, ![64, 8, 32000]⟩
abbrev S2x64x256 : Shape := ⟨3, ![2, 64, 256]⟩
abbrev S64x8x3200 : Shape := ⟨3, ![64, 8, 3200]⟩
abbrev S256x3200 : Shape := ⟨2, ![256, 3200]⟩
abbrev S1x64x256 : Shape := ⟨3, ![1, 64, 256]⟩
abbrev S64x256 : Shape := ⟨2, ![64, 256]⟩
abbrev S64x3200 : Shape := ⟨2, ![64, 3200]⟩
abbrev S1x256 : Shape := ⟨2, ![1, 256]⟩
abbrev S1x32000 : Shape := ⟨2, ![1, 32000]⟩
abbrev S64x32000 : Shape := ⟨2, ![64, 32000]⟩
abbrev S2x64x1 : Shape := ⟨3, ![2, 64, 1]⟩
abbrev S3200x256 : Shape := ⟨2, ![3200, 256]⟩
abbrev S1x3200 : Shape := ⟨2, ![1, 3200]⟩
abbrev S1x64x1 : Shape := ⟨3, ![1, 64, 1]⟩
abbrev S64x1 : Shape := ⟨2, ![64, 1]⟩
abbrev S64 : Shape := ⟨1, ![64]⟩
abbrev S64x16000 : Shape := ⟨2, ![64, 16000]⟩

abbrev nBuf : Space → Nat
  | .hbm => 38
  | .vmem => 25
  | .smem => 0
  | _ => 0

abbrev bufTy : (tb : Table) → Fin (tcTables nBuf tb) → BufTy
  | .hbm, ⟨0, _⟩ => ⟨S64x256000, .f32⟩
  | .hbm, ⟨1, _⟩ => ⟨S256x32000, .f32⟩
  | .hbm, ⟨2, _⟩ => ⟨S256, .f32⟩
  | .hbm, ⟨3, _⟩ => ⟨S32000x256, .f32⟩
  | .hbm, ⟨4, _⟩ => ⟨S32000, .f32⟩
  | .hbm, ⟨5, _⟩ => ⟨S64x8x32000, .f32⟩
  | .hbm, ⟨6, _⟩ => ⟨S2x64x256, .f32⟩
  | .hbm, ⟨7, _⟩ => ⟨S1x64x256, .f32⟩
  | .hbm, ⟨8, _⟩ => ⟨S64x256, .f32⟩
  | .hbm, ⟨9, _⟩ => ⟨S1x64x256, .f32⟩
  | .hbm, ⟨10, _⟩ => ⟨S64x256, .f32⟩
  | .hbm, ⟨11, _⟩ => ⟨S64x256, .f32⟩
  | .hbm, ⟨12, _⟩ => ⟨S1x256, .f32⟩
  | .hbm, ⟨13, _⟩ => ⟨S64x256, .f32⟩
  | .hbm, ⟨14, _⟩ => ⟨S64x256, .f32⟩
  | .hbm, ⟨15, _⟩ => ⟨S1x32000, .f32⟩
  | .hbm, ⟨16, _⟩ => ⟨S64x32000, .f32⟩
  | .hbm, ⟨17, _⟩ => ⟨S2x64x1, .f32⟩
  | .hbm, ⟨18, _⟩ => ⟨S2x64x1, .f32⟩
  | .hbm, ⟨19, _⟩ => ⟨S1x64x1, .f32⟩
  | .hbm, ⟨20, _⟩ => ⟨S64x1, .f32⟩
  | .hbm, ⟨21, _⟩ => ⟨S1x64x1, .f32⟩
  | .hbm, ⟨22, _⟩ => ⟨S64x1, .f32⟩
  | .hbm, ⟨23, _⟩ => ⟨S1x64x1, .f32⟩
  | .hbm, ⟨24, _⟩ => ⟨S64x1, .f32⟩
  | .hbm, ⟨25, _⟩ => ⟨S1x64x1, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S64x1, .f32⟩
  | .hbm, ⟨35, _⟩ => ⟨S64x1, .f32⟩
  | .hbm, ⟨36, _⟩ => ⟨S64x1, .f32⟩
  | .hbm, ⟨37, _⟩ => ⟨S64x32000, .f32⟩
  | .local _ .vmem, ⟨0, _⟩ => ⟨S64x8x3200, .f32⟩
  | .local _ .vmem, ⟨1, _⟩ => ⟨S64x8x3200, .f32⟩
  | .local _ .vmem, ⟨2, _⟩ => ⟨S256x3200, .f32⟩
  | .local _ .vmem, ⟨3, _⟩ => ⟨S256x3200, .f32⟩
  | .local _ .vmem, ⟨4, _⟩ => ⟨S1x64x256, .f32⟩
  | .local _ .vmem, ⟨5, _⟩ => ⟨S1x64x256, .f32⟩
  | .local _ .vmem, ⟨6, _⟩ => ⟨S64x256, .f32⟩
  | .local _ .vmem, ⟨7, _⟩ => ⟨S64x256, .f32⟩
  | .local _ .vmem, ⟨8, _⟩ => ⟨S3200x256, .f32⟩
  | .local _ .vmem, ⟨9, _⟩ => ⟨S3200x256, .f32⟩
  | .local _ .vmem, ⟨10, _⟩ => ⟨S1x3200, .f32⟩
  | .local _ .vmem, ⟨11, _⟩ => ⟨S1x3200, .f32⟩
  | .local _ .vmem, ⟨12, _⟩ => ⟨S64x3200, .f32⟩
  | .local _ .vmem, ⟨13, _⟩ => ⟨S64x3200, .f32⟩
  | .local _ .vmem, ⟨14, _⟩ => ⟨S1x64x1, .f32⟩
  | .local _ .vmem, ⟨15, _⟩ => ⟨S1x64x1, .f32⟩
  | .local _ .vmem, ⟨16, _⟩ => ⟨S1x64x1, .f32⟩
  | .local _ .vmem, ⟨17, _⟩ => ⟨S1x64x1, .f32⟩
  | .local _ .vmem, ⟨18, _⟩ => ⟨S64x1, .f32⟩
  | .local _ .vmem, ⟨19, _⟩ => ⟨S64x1, .f32⟩
  | .local _ .vmem, ⟨20, _⟩ => ⟨S64x16000, .f32⟩
  | .local _ .vmem, ⟨21, _⟩ => ⟨S64x16000, .f32⟩
  | .local _ .vmem, ⟨22, _⟩ => ⟨S64x1, .f32⟩
  | .local _ .vmem, ⟨23, _⟩ => ⟨S64x16000, .f32⟩
  | .local _ .vmem, ⟨24, _⟩ => ⟨S64x16000, .f32⟩
  | _, _ => ⟨S64x256000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v17 : BitVec 1 := Scalar.cmpi .eq arg1 c4_i32
  let v18 : BitVec 32 := Scalar.extui v17
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 5], ![false, false]⟩

def k1_cond2 (i : grid1.Coords) : BitVec 1 :=
  let arg1 : BitVec 32 := BitVec.ofNat 32 (i 1).val
  let c4_i32 : BitVec 32 := 4#32
  let v35 : BitVec 1 := Scalar.cmpi .eq arg1 c4_i32
  let v36 : BitVec 32 := Scalar.extui v35
  let c0_i32_20 : BitVec 32 := 0#32
  let v37 : BitVec 1 := Scalar.cmpi .ne v36 c0_i32_20
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S64x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S3200x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S64x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x64x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S64x16000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S64x16000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S64x256000_S64x8x32000 : S64x256000.ShapeCasts S64x8x32000
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x8x3200_S64x8x3200_0_0_0 : ∀ a, (![0, 0, 0] : Fin 3 → Nat) a + S64x8x3200.size a ≤ S64x8x3200.size a
  h_S64x8x3200 : 0 < S64x8x3200.numel
  shapeCasts_S64x8x3200_S64x8x3200 : S64x8x3200.ShapeCasts S64x8x3200
  reduces_S64x8x3200_S64x3200 : S64x8x3200.Reduces [1] S64x3200
  bitsLt_bf16_f32 : FTy.bits .bf16 < FTy.bits .f32
  inb_S256x3200_S256x3200_0_0 : ∀ a, (![0, 0] : Fin 2 → Nat) a + S256x3200.size a ≤ S256x3200.size a
  h_S256x3200 : 0 < S256x3200.numel
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  slices_S2x64x256_S1x64x256_0_0_0 : S2x64x256.Slices ![0, 0, 0] S1x64x256
  slices_S2x64x256_S1x64x256_1_0_0 : S2x64x256.Slices ![1, 0, 0] S1x64x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  shapeCasts_S32000_S1x32000 : S32000.ShapeCasts S1x32000
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S3200x256_S3200x256_0_0 : ∀ a, (![0, 0] : Fin 2 → Nat) a + S3200x256.size a ≤ S3200x256.size a
  h_S3200x256 : 0 < S3200x256.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S64x3200 : S1x3200.Broadcasts S64x3200
  inb_S64x3200_S64x3200_0_0 : ∀ a, (![0, 0] : Fin 2 → Nat) a + S64x3200.size a ≤ S64x3200.size a
  h_S64x3200 : 0 < S64x3200.numel
  reduces_S64x3200_S64 : S64x3200.Reduces [1] S64
  shapeCasts_S64_S64x1 : S64.ShapeCasts S64x1
  broadcasts_S64x1_S64x3200 : S64x1.Broadcasts S64x3200
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  slices_S2x64x1_S1x64x1_0_0_0 : S2x64x1.Slices ![0, 0, 0] S1x64x1
  slices_S2x64x1_S1x64x1_1_0_0 : S2x64x1.Slices ![1, 0, 0] S1x64x1
  inb_S64x16000_S64x16000_0_0 : ∀ a, (![0, 0] : Fin 2 → Nat) a + S64x16000.size a ≤ S64x16000.size a
  h_S64x16000 : 0 < S64x16000.numel
  shapeCasts_S64x16000_S64x16000 : S64x16000.ShapeCasts S64x16000
  broadcasts_S64x1_S64x16000 : S64x1.Broadcasts S64x16000
  dot_S64x3200_S256x3200_S64x256_1_1_0_0_n_n_wf : DotDims.WF S64x3200 S256x3200 S64x256 [1] [1] [0] [0] [] []
  dot_S64x256_S3200x256_S64x3200_1_1_0_0_n_n_wf : DotDims.WF S64x256 S3200x256 S64x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x3200.size a ≤ S64x8x32000.size a
  hwx0_0 : ∀ i : grid0.Coords, EltTy.bits .f32 = 32 ∨ (Rect.block (s := S64x8x32000) S64x8x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3200.size a ≤ S256x32000.size a
  hwx0_1 : ∀ i : grid0.Coords, EltTy.bits .f32 = 32 ∨ (Rect.block (s := S256x32000) S256x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S2x64x256.size a
  hwx0_2 : ∀ i : grid0.Coords, EltTy.bits .f32 = 32 ∨ (Rect.block (s := S2x64x256) S1x64x256.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x256.size a ≤ S64x256.size a
  hwx1_0 : ∀ i : grid1.Coords, EltTy.bits .f32 = 32 ∨ (Rect.block (s := S64x256) S64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x256.size a ≤ S32000x256.size a
  hwx1_1 : ∀ i : grid1.Coords, EltTy.bits .f32 = 32 ∨ (Rect.block (s := S32000x256) S3200x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x3200.size a ≤ S64x32000.size a
  hwx1_3 : ∀ i : grid1.Coords, EltTy.bits .f32 = 32 ∨ (Rect.block (s := S64x32000) S64x3200.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x1.size a ≤ S2x64x1.size a
  hwx1_4 : ∀ i : grid1.Coords, EltTy.bits .f32 = 32 ∨ (Rect.block (s := S2x64x1) S1x64x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x1.size a ≤ S2x64x1.size a
  hwx1_5 : ∀ i : grid1.Coords, EltTy.bits .f32 = 32 ∨ (Rect.block (s := S2x64x1) S1x64x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x16000.size a ≤ S64x32000.size a
  hwx2_0 : ∀ i : grid2.Coords, EltTy.bits .f32 = 32 ∨ (Rect.block (s := S64x32000) S64x16000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x16000.size a ≤ S64x32000.size a
  hwx2_2 : ∀ i : grid2.Coords, EltTy.bits .f32 = 32 ∨ (Rect.block (s := S64x32000) S64x16000.size (cc2_transform_2 i) (hinb2_2 i)).WholeWords (EltTy.packing .f32)

variable [Facts₀]

def dot_S64x3200_S256x3200_S64x256_1_1_0_0_n_n : DotDims S64x3200 S256x3200 S64x256 where
  lhsContracting := [1]
  rhsContracting := [1]
  lhsNonContracting := [0]
  rhsNonContracting := [0]
  lhsBatch := []
  rhsBatch := []
  wf := dot_S64x3200_S256x3200_S64x256_1_1_0_0_n_n_wf
def dot_S64x256_S3200x256_S64x3200_1_1_0_0_n_n : DotDims S64x256 S3200x256 S64x3200 where
  lhsContracting := [1]
  rhsContracting := [1]
  lhsNonContracting := [0]
  rhsNonContracting := [0]
  lhsBatch := []
  rhsBatch := []
  wf := dot_S64x256_S3200x256_S64x3200_1_1_0_0_n_n_wf

abbrev win0_0 : Pipeline.Window sig grid0 :=
  Pipeline.Window.ofSpec (Memref.whole main_v0) S64x8x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S64x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S3200x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_0) S64x3200.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_1) S1x64x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11_2) S1x64x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v11_0) S64x16000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S64x16000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64x256000 : Shape := ⟨2, ![64, 256000]⟩
abbrev S256x32000 : Shape := ⟨2, ![256, 32000]⟩
abbrev S256 : Shape := ⟨1, ![256]⟩
abbrev S32000x256 : Shape := ⟨2, ![32000, 256]⟩
abbrev S32000 : Shape := ⟨1, ![32000]⟩
abbrev S64x8x32000 : Shape := ⟨3, ![64, 8, 32000]⟩
abbrev S_ : Shape := ⟨0, ![]⟩
abbrev S64x32000 : Shape := ⟨2, ![64, 32000]⟩
abbrev S64x256 : Shape := ⟨2, ![64, 256]⟩
abbrev S1x256 : Shape := ⟨2, ![1, 256]⟩
abbrev S1x32000 : Shape := ⟨2, ![1, 32000]⟩
abbrev S64 : Shape := ⟨1, ![64]⟩
abbrev S64x1 : Shape := ⟨2, ![64, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x256000, .f32⟩
  | .hbm, ⟨1, _⟩ => ⟨S256x32000, .f32⟩
  | .hbm, ⟨2, _⟩ => ⟨S256, .f32⟩
  | .hbm, ⟨3, _⟩ => ⟨S32000x256, .f32⟩
  | .hbm, ⟨4, _⟩ => ⟨S32000, .f32⟩
  | .hbm, ⟨5, _⟩ => ⟨S64x8x32000, .f32⟩
  | .hbm, ⟨6, _⟩ => ⟨S_, .f32⟩
  | .hbm, ⟨7, _⟩ => ⟨S64x32000, .f32⟩
  | .hbm, ⟨8, _⟩ => ⟨S_, .f32⟩
  | .hbm, ⟨9, _⟩ => ⟨S64x32000, .f32⟩
  | .hbm, ⟨10, _⟩ => ⟨S64x32000, .f32⟩
  | .hbm, ⟨11, _⟩ => ⟨S64x256, .f32⟩
  | .hbm, ⟨12, _⟩ => ⟨S1x256, .f32⟩
  | .hbm, ⟨13, _⟩ => ⟨S64x256, .f32⟩
  | .hbm, ⟨14, _⟩ => ⟨S64x256, .f32⟩
  | .hbm, ⟨15, _⟩ => ⟨S64x32000, .f32⟩
  | .hbm, ⟨16, _⟩ => ⟨S1x32000, .f32⟩
  | .hbm, ⟨17, _⟩ => ⟨S64x32000, .f32⟩
  | .hbm, ⟨18, _⟩ => ⟨S64x32000, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64x1, .f32⟩
  | .hbm, ⟨25, _⟩ => ⟨S64x32000, .f32⟩
  | .hbm, ⟨26, _⟩ => ⟨S64x32000, .f32⟩
  | .hbm, ⟨27, _⟩ => ⟨S64x32000, .f32⟩
  | .hbm, ⟨28, _⟩ => ⟨S_, .f32⟩
  | .hbm, ⟨29, _⟩ => ⟨S64, .f32⟩
  | .hbm, ⟨30, _⟩ => ⟨S64x1, .f32⟩
  | .hbm, ⟨31, _⟩ => ⟨S64x1, .f32⟩
  | .hbm, ⟨32, _⟩ => ⟨S64x32000, .f32⟩
  | .hbm, ⟨33, _⟩ => ⟨S64x32000, .f32⟩
  | _, _ => ⟨S64x256000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  shapeCasts_S64x256000_S64x8x32000 : S64x256000.ShapeCasts S64x8x32000
  reducesTo_S64x8x32000_S64x32000_d1 : S64x8x32000.ReducesTo [1] S64x32000
  h_S_ : 0 < S_.numel
  bcast_S_S64x32000 : S_.BroadcastsInDim S64x32000 (![] : Fin 0 → Fin S64x32000.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S32000_S1x32000_1 : S32000.BroadcastsInDim S1x32000 (![1] : Fin 1 → Fin S1x32000.rank)
  bcast_S1x32000_S64x32000_0_1 : S1x32000.BroadcastsInDim S64x32000 (![0, 1] : Fin 2 → Fin S64x32000.rank)
  reducesTo_S64x32000_S64_d1 : S64x32000.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x32000_0_1 : S64x1.BroadcastsInDim S64x32000 (![0, 1] : Fin 2 → Fin S64x32000.rank)
  dot_S64x32000_S256x32000_S64x256_1_1_0_0_n_n_wf : DotDims.WF S64x32000 S256x32000 S64x256 [1] [1] [0] [0] [] []
  dot_S64x256_S32000x256_S64x32000_1_1_0_0_n_n_wf : DotDims.WF S64x256 S32000x256 S64x32000 [1] [1] [0] [0] [] []

variable [Facts₀]

def dot_S64x32000_S256x32000_S64x256_1_1_0_0_n_n : DotDims S64x32000 S256x32000 S64x256 where
  lhsContracting := [1]
  rhsContracting := [1]
  lhsNonContracting := [0]
  rhsNonContracting := [0]
  lhsBatch := []
  rhsBatch := []
  wf := dot_S64x32000_S256x32000_S64x256_1_1_0_0_n_n_wf
def dot_S64x256_S32000x256_S64x32000_1_1_0_0_n_n : DotDims S64x256 S32000x256 S64x32000 where
  lhsContracting := [1]
  rhsContracting := [1]
  lhsNonContracting := [0]
  rhsNonContracting := [0]
  lhsBatch := []
  rhsBatch := []
  wf := dot_S64x256_S32000x256_S64x32000_1_1_0_0_n_n_wf

class Facts : Prop extends Facts₀ where

variable [Facts]
-- ==== Proof.KI.R0Base.lean ====
/-
  The first pallas_call (the context mean and the first linear layer, accumulated over the five vocabulary tiles of a
  half): what its three control cases share. The body clears its accumulator at the first tile of a half (tile
  coordinate 0), adds the tile's product into it at every tile, and copies it into the output block at the last tile
  (tile coordinate 4); so a point is of case A (first tile), B (a middle tile) or C (last tile), decided from the point's
  position modulo 5. The output block is idle at the points of cases A and B (not stored, not written back).
-/
import proofs.«416662_j60241211293750_3_alg».proof.Proof.Gen.KernelIdeal.Launch
import proofs.«416662_j60241211293750_3_alg».proof.Proof.Gen.KernelIdeal.Skeleton
import proofs.«416662_j60241211293750_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- "This is the first tile of its half": the body's first conditional, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- "This is the last tile of its half": the body's second conditional. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-- One staging buffer of the output window, through which its contents are stated. -/
abbrev VO0_2 : View sig .tc .vmem S1x64x256 .f32 := (Memref.whole cc0_stg2_0 : Memref sig .tc .vmem S1x64x256 .f32).view
abbrev ms0_0 (t : Fin cfg0.N) : Memref sig .tc .vmem S64x8x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x256 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S64x256 .f32 := Memref.whole cc0_scratch0
abbrev VS0_0 : View sig .tc .vmem S64x256 .f32 := scM0_0.view

/-- The scoped buffers no window of this call stages, split at the accumulator. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop(iprop((∃ f : Buf Val ((c : Thread nD τ).loc cc0_scratch0), ((c : Thread nD τ).loc cc0_scratch0) ↦{fullShare} f))
          ∗ Pipeline.scopedRestBut (Ix := Ix) (Name := Name) (U := U) (Lvl := Lvl) (Val := Val) spec0 c [cc0_scratch0]) :=
  Pipeline.scopedRest_split_of_list spec0 c [cc0_scratch0] (by decide) (by decide)

/-- The other scoped buffers, unopened. -/
abbrev rest0 (c : Dev nD) : sProp 𝕄 := Pipeline.scopedRestBut (Ix := Unit) (Name := ℕ) (U := UR sig nD τ) (Lvl := ℕ) (Val := Elt F) spec0 c [cc0_scratch0]

/-- The class invariant with the accumulator as a memref owned at some contents. -/
theorem PhiA0_eq (c : Dev nD) :
    (Pipeline.ΦA spec0 c : sProp 𝕄)
      = iprop(iprop(iprop((∃ d, owns (c : Thread nD τ) scM0_0 fullShare d)) ∗ rest0 c) ∗ (∃ r, prngReg c r)) := by
  unfold Pipeline.ΦA; rw [scopedRest0_split]; simp only [scM0_0, owns_whole]; try rfl

end Cert.KernelIdeal.Gen

end
-- ==== Proof.KI.R0RunA.lean ====
/-
  The first pallas_call's body at a FIRST tile of a half (case A): it clears the accumulator, adds the tile's product into
  it, and leaves the output block alone. The accumulator's final contents are the pieces the run finds.
-/
import proofs.«416662_j60241211293750_3_alg».proof.Proof.KI.R0Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : cond0_0 i) (hc1 : ¬cond0_1 i)
    (x0 : Vec F S64x8x3200 .f32) (x1 : Vec F S256x3200 .f32) :
    Σ' (L2 : List (View.Piece (Elt F) S1x64x256 .f32)), { LS0 : List (View.Piece (Elt F) S64x256 .f32) //
      ∀ (xi2 : Vec F S1x64x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stage1_kernel i arg2 harg2 arg3 harg3 arg4 harg4 arg5 harg5) K } := by
  refine ⟨[], ?_, fun xi2 E K => ?run⟩
  case run =>
    simp only [cc0__stage1_kernel_eq_skeleton]; unfold cc0__stage1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Gen

end
-- ==== Proof.KI.R0RunB.lean ====
/-
  The first pallas_call's body at a MIDDLE tile of a half (case B): it adds the tile's product into the accumulator, which
  it finds at what the point before left, and leaves the output block alone.
-/
import proofs.«416662_j60241211293750_3_alg».proof.Proof.KI.R0RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : ¬cond0_0 i) (hc1 : ¬cond0_1 i)
    (x0 : Vec F S64x8x3200 .f32) (x1 : Vec F S256x3200 .f32) (xs0 : Vec F S64x256 .f32) :
    Σ' (L2 : List (View.Piece (Elt F) S1x64x256 .f32)), { LS0 : List (View.Piece (Elt F) S64x256 .f32) //
      ∀ (xi2 : Vec F S1x64x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stage1_kernel i arg2 harg2 arg3 harg3 arg4 harg4 arg5 harg5) K } := by
  refine ⟨[], ?_, fun xi2 E K => ?run⟩
  case run =>
    simp only [cc0__stage1_kernel_eq_skeleton]; unfold cc0__stage1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Gen

end
-- ==== Proof.KI.R0RunC.lean ====
/-
  The first pallas_call's body at the LAST tile of a half (case C): it adds the tile's product into the accumulator and
  copies the accumulator into the output block.
-/
import proofs.«416662_j60241211293750_3_alg».proof.Proof.KI.R0RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : ¬cond0_0 i) (hc1 : cond0_1 i)
    (x0 : Vec F S64x8x3200 .f32) (x1 : Vec F S256x3200 .f32) (xs0 : Vec F S64x256 .f32) :
    Σ' (L2 : List (View.Piece (Elt F) S1x64x256 .f32)), { LS0 : List (View.Piece (Elt F) S64x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__stage1_kernel i arg2 harg2 arg3 harg3 arg4 harg4 arg5 harg5) K } := by
  refine ⟨?_, ?_, fun E K => ?run⟩
  case run =>
    simp only [cc0__stage1_kernel_eq_skeleton]; unfold cc0__stage1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gen

end
-- ==== Proof.KI.R0.lean ====
/-
  The first pallas_call, point by point. After the body at position n the accumulator holds what the case at n leaves
  over what position n-1 left (a first tile starts it afresh), and the output block holds the accumulator at a last
  tile; the region's invariant carries the accumulator at those contents from point to point, every other scoped buffer
  and the generator register at some state. From this: the proof data, the body obligation at every point, and the
  invariant's two ends.
-/
import proofs.«416662_j60241211293750_3_alg».proof.Proof.KI.R0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the output block: a placeholder nothing consults. -/
def out0_A_2 (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : cond0_0 i) (hc1 : ¬cond0_1 i)
    (x0 : Vec F S64x8x3200 .f32) (x1 : Vec F S256x3200 .f32) : Vec F S1x64x256 .f32 :=
  VO0_2.read (Elt F) (VO0_2.writes (Elt F) VO0_2.junk (kernelRun0_A c i arg2 harg2 arg3 harg3 arg4 harg4 arg5 harg5 hc0 hc1 x0 x1).1)

theorem scover0_A_0 (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : cond0_0 i) (hc1 : ¬cond0_1 i)
    (x0 : Vec F S64x8x3200 .f32) (x1 : Vec F S256x3200 .f32) (y : S64x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S64x256.size (by sl_kernel_rfl) y

/-- What case A leaves in the accumulator. -/
def sout0_A_0 (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : cond0_0 i) (hc1 : ¬cond0_1 i)
    (x0 : Vec F S64x8x3200 .f32) (x1 : Vec F S256x3200 .f32) : Vec F S64x256 .f32 :=
  VS0_0.read (Elt F) (VS0_0.writes (Elt F) VS0_0.junk (kernelRun0_A c i arg2 harg2 arg3 harg3 arg4 harg4 arg5 harg5 hc0 hc1 x0 x1).2.1)

/-- Case B stores nothing into the output block: a placeholder nothing consults. -/
def out0_B_2 (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : ¬cond0_0 i) (hc1 : ¬cond0_1 i)
    (x0 : Vec F S64x8x3200 .f32) (x1 : Vec F S256x3200 .f32) (xs0 : Vec F S64x256 .f32) : Vec F S1x64x256 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : ¬cond0_0 i) (hc1 : ¬cond0_1 i)
    (x0 : Vec F S64x8x3200 .f32) (x1 : Vec F S256x3200 .f32) (xs0 : Vec F S64x256 .f32) (y : S64x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S64x256.size (by sl_kernel_rfl) y

/-- What case B leaves in the accumulator. -/
def sout0_B_0 (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : ¬cond0_0 i) (hc1 : ¬cond0_1 i)
    (x0 : Vec F S64x8x3200 .f32) (x1 : Vec F S256x3200 .f32) (xs0 : Vec F S64x256 .f32) : Vec F S64x256 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : ¬cond0_0 i) (hc1 : cond0_1 i)
    (x0 : Vec F S64x8x3200 .f32) (x1 : Vec F S256x3200 .f32) (xs0 : Vec F S64x256 .f32) (y : S1x64x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x64x256.size (by sl_kernel_rfl) y

/-- What case C leaves in the output block. -/
def out0_C_2 (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : ¬cond0_0 i) (hc1 : cond0_1 i)
    (x0 : Vec F S64x8x3200 .f32) (x1 : Vec F S256x3200 .f32) (xs0 : Vec F S64x256 .f32) : Vec F S1x64x256 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : ¬cond0_0 i) (hc1 : cond0_1 i)
    (x0 : Vec F S64x8x3200 .f32) (x1 : Vec F S256x3200 .f32) (xs0 : Vec F S64x256 .f32) (y : S64x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S64x256.size (by sl_kernel_rfl) y

/-- What case C leaves in the accumulator. -/
def sout0_C_0 (c : Dev nD) (i : grid0.Coords) (arg2 : Memref sig .tc .vmem S64x8x3200 .f32) (harg2 : arg2.IsWhole) (arg3 : Memref sig .tc .vmem S256x3200 .f32) (harg3 : arg3.IsWhole) (arg4 : Memref sig .tc .vmem S1x64x256 .f32) (harg4 : arg4.IsWhole) (arg5 : Memref sig .tc .vmem S64x256 .f32) (harg5 : arg5.IsWhole) (hc0 : ¬cond0_0 i) (hc1 : cond0_1 i)
    (x0 : Vec F S64x8x3200 .f32) (x1 : Vec F S256x3200 .f32) (xs0 : Vec F S64x256 .f32) : Vec F S64x256 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- After the body at position `n`: (the output block, the accumulator). -/
def outsAt0 (c : Dev nD) : (n : ℕ) → n < cfg0.N → Vec F S1x64x256 .f32 × Vec F S64x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 5 = 0 then
      if h1 : (n + 1) % 5 = 4 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 5 = 4 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 5 = 0) (h1 : ¬t.val % 5 = 4) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2)) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2)) ∗ rest0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2)) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 5 = 0
  · by_cases h1 : t.val % 5 = 4
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 5 = 4
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), PhiA0_eq]
  iintro ⟨⟨HS0, HR⟩, Hg⟩
  isplitl [HS0 HR]
  · isplitl [HS0]
    · iexists _; iexact HS0
    iexact HR
  iexact Hg

end Cert.KernelIdeal.Gen

end
-- ==== Proof.KI.R1Base.lean ====
/-
  The second pallas_call (the output layer's logits, tile by tile, with the running maximum and the running sum of
  exponentials of a half kept in two carried buffers): what its three control cases share. The body resets both carried
  buffers at the first tile of a half (tile coordinate 0), stores the tile's logits and folds them into the running
  maximum and the running sum at every tile, and copies the two carried buffers into the maximum block and the sum block
  at the last tile (tile coordinate 4); so a point is of case A (first tile), B (a middle tile) or C (last tile), decided
  from the point's position modulo 5. The maximum block and the sum block are idle at the points of cases A and B (not
  stored, not written back); the logits block is stored and written back at every point.
-/
import proofs.«416662_j60241211293750_3_alg».proof.Proof.KI.R0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point (fetched there or kept from the fetch
    before), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- "This is the first tile of its half": the body's first conditional, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)
/-- "This is the last tile of its half": the body's second conditional. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-- One staging buffer of each output window, through which its contents are stated. -/
abbrev VO1_3 : View sig .tc .vmem S64x3200 .f32 := (Memref.whole cc1_stg3_0 : Memref sig .tc .vmem S64x3200 .f32).view
abbrev VO1_4 : View sig .tc .vmem S1x64x1 .f32 := (Memref.whole cc1_stg4_0 : Memref sig .tc .vmem S1x64x1 .f32).view
abbrev VO1_5 : View sig .tc .vmem S1x64x1 .f32 := (Memref.whole cc1_stg5_0 : Memref sig .tc .vmem S1x64x1 .f32).view
abbrev ms1_0 (t : Fin cfg1.N) : Memref sig .tc .vmem S64x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3200 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x3200 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64x1 .f32 := win1_5.stage (cfg1.slots t 5)
abbrev hs1_5 (t : Fin cfg1.N) : (ms1_5 t).IsWhole := hstage1_5 ((cfg1.slots t 5).cast nbuf1_5)
/-- The running maximum and the running sum: whole scoped buffers of the kernel's own, carried from point to point. -/
abbrev scM1_0 : Memref sig .tc .vmem S64x1 .f32 := Memref.whole cc1_scratch0
abbrev VS1_0 : View sig .tc .vmem S64x1 .f32 := scM1_0.view
abbrev scM1_1 : Memref sig .tc .vmem S64x1 .f32 := Memref.whole cc1_scratch1
abbrev VS1_1 : View sig .tc .vmem S64x1 .f32 := scM1_1.view

/-- The scoped buffers no window of this call stages, split at the two carried buffers. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f))
          ∗ Pipeline.scopedRestBut (Ix := Ix) (Name := Name) (U := U) (Lvl := Lvl) (Val := Val) spec1 c [cc1_scratch0, cc1_scratch1]) :=
  Pipeline.scopedRest_split_of_list spec1 c [cc1_scratch0, cc1_scratch1] (by decide) (by decide)

/-- The other scoped buffers, unopened. -/
abbrev rest1 (c : Dev nD) : sProp 𝕄 := Pipeline.scopedRestBut (Ix := Unit) (Name := ℕ) (U := UR sig nD τ) (Lvl := ℕ) (Val := Elt F) spec1 c [cc1_scratch0, cc1_scratch1]

/-- The class invariant with the two carried buffers as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

end Cert.KernelIdeal.Gen

end
-- ==== Proof.KI.R1RunA.lean ====
/-
  The second pallas_call's body at a FIRST tile of a half (case A): it resets the running maximum and the running sum,
  stores the tile's logits, folds them into both, and leaves the maximum block and the sum block alone. The final contents
  of the logits block and of the two carried buffers are the pieces the run finds.
-/
import proofs.«416662_j60241211293750_3_alg».proof.Proof.KI.R1Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond1_0 i) (hc1 : ¬cond1_1 i)
    (x0 : Vec F S64x256 .f32) (x1 : Vec F S3200x256 .f32) (x2 : Vec F S1x3200 .f32) :
    Σ' (L3 : List (View.Piece (Elt F) S64x3200 .f32)), Σ' (L4 : List (View.Piece (Elt F) S1x64x1 .f32)), Σ' (L5 : List (View.Piece (Elt F) S1x64x1 .f32)), Σ' (LS0 : List (View.Piece (Elt F) S64x1 .f32)), { LS1 : List (View.Piece (Elt F) S64x1 .f32) //
      ∀ (xi4 : Vec F S1x64x1 .f32) (xi5 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9) K } := by
  refine ⟨?_, [], [], ?_, ?_, fun xi4 xi5 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Gen

end
-- ==== Proof.KI.R1RunB.lean ====
/-
  The second pallas_call's body at a MIDDLE tile of a half (case B): it stores the tile's logits and folds them into the
  running maximum and the running sum, which it finds at what the point before left, and leaves the maximum block and the
  sum block alone.
-/
import proofs.«416662_j60241211293750_3_alg».proof.Proof.KI.R1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) :
    Σ' (L3 : List (View.Piece (Elt F) S64x3200 .f32)), Σ' (L4 : List (View.Piece (Elt F) S1x64x1 .f32)), Σ' (L5 : List (View.Piece (Elt F) S1x64x1 .f32)), Σ' (LS0 : List (View.Piece (Elt F) S64x1 .f32)), { LS1 : List (View.Piece (Elt F) S64x1 .f32) //
      ∀ (xi4 : Vec F S1x64x1 .f32) (xi5 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9) K } := by
  refine ⟨?_, [], [], ?_, ?_, fun xi4 xi5 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Gen

end
-- ==== Proof.KI.R1RunC.lean ====
/-
  The second pallas_call's body at the LAST tile of a half (case C): it stores the tile's logits, folds them into the
  running maximum and the running sum, and copies the running maximum into the maximum block and the running sum into the
  sum block.
-/
import proofs.«416662_j60241211293750_3_alg».proof.Proof.KI.R1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) :
    Σ' (L3 : List (View.Piece (Elt F) S64x3200 .f32)), Σ' (L4 : List (View.Piece (Elt F) S1x64x1 .f32)), Σ' (L5 : List (View.Piece (Elt F) S1x64x1 .f32)), Σ' (LS0 : List (View.Piece (Elt F) S64x1 .f32)), { LS1 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Gen

end
-- ==== Proof.KI.R1.lean ====
/-
  The second pallas_call, point by point. After the body at position n the logits block holds the tile's logits, the
  running maximum and the running sum hold what the case at n leaves over what position n-1 left (a first tile starts them
  afresh), and at a last tile the maximum block and the sum block hold the two carried buffers; the region's invariant
  carries the two carried buffers at those contents from point to point, every other scoped buffer and the generator
  register at some state. From this: the proof data, the body obligation at every point, and the invariant's two ends.
-/
import proofs.«416662_j60241211293750_3_alg».proof.Proof.KI.R1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_A_3 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond1_0 i) (hc1 : ¬cond1_1 i)
    (x0 : Vec F S64x256 .f32) (x1 : Vec F S3200x256 .f32) (x2 : Vec F S1x3200 .f32) (y : S64x3200.Idx) :
    ∃ pc ∈ (kernelRun1_A c i arg2 harg2 arg3 harg3 arg4 harg4 arg5 harg5 arg6 harg6 arg7 harg7 arg8 harg8 arg9 harg9 hc0 hc1 x0 x1 x2).1, y ∈ pc.1.set :=
  View.cover_of_tiledL (kernelRun1_A c i arg2 harg2 arg3 harg3 arg4 harg4 arg5 harg5 arg6 harg6 arg7 harg7 arg8 harg8 arg9 harg9 hc0 hc1 x0 x1 x2).1 S64x3200.size (by sl_kernel_rfl) y

/-- What case A leaves in the logits block. -/
def out1_A_3 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond1_0 i) (hc1 : ¬cond1_1 i)
    (x0 : Vec F S64x256 .f32) (x1 : Vec F S3200x256 .f32) (x2 : Vec F S1x3200 .f32) : Vec F S64x3200 .f32 :=
  VO1_3.read (Elt F) (VO1_3.writes (Elt F) VO1_3.junk (kernelRun1_A c i arg2 harg2 arg3 harg3 arg4 harg4 arg5 harg5 arg6 harg6 arg7 harg7 arg8 harg8 arg9 harg9 hc0 hc1 x0 x1 x2).1)

/-- Case A stores nothing into the maximum block: a placeholder nothing consults. -/
def out1_A_4 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond1_0 i) (hc1 : ¬cond1_1 i)
    (x0 : Vec F S64x256 .f32) (x1 : Vec F S3200x256 .f32) (x2 : Vec F S1x3200 .f32) : Vec F S1x64x1 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2).2.1)

/-- Case A stores nothing into the sum block: a placeholder nothing consults. -/
def out1_A_5 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond1_0 i) (hc1 : ¬cond1_1 i)
    (x0 : Vec F S64x256 .f32) (x1 : Vec F S3200x256 .f32) (x2 : Vec F S1x3200 .f32) : Vec F S1x64x1 .f32 :=
  VO1_5.read (Elt F) (VO1_5.writes (Elt F) VO1_5.junk (kernelRun1_A c i arg2 harg2 arg3 harg3 arg4 harg4 arg5 harg5 arg6 harg6 arg7 harg7 arg8 harg8 arg9 harg9 hc0 hc1 x0 x1 x2).2.2.1)

theorem scover1_A_0 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond1_0 i) (hc1 : ¬cond1_1 i)
    (x0 : Vec F S64x256 .f32) (x1 : Vec F S3200x256 .f32) (x2 : Vec F S1x3200 .f32) (y : S64x1.Idx) :
    ∃ pc ∈ (kernelRun1_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2).2.2.2.1 S64x1.size (by sl_kernel_rfl) y

/-- What case A leaves in the running maximum. -/
def sout1_A_0 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond1_0 i) (hc1 : ¬cond1_1 i)
    (x0 : Vec F S64x256 .f32) (x1 : Vec F S3200x256 .f32) (x2 : Vec F S1x3200 .f32) : Vec F S64x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2).2.2.2.1)

theorem scover1_A_1 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond1_0 i) (hc1 : ¬cond1_1 i)
    (x0 : Vec F S64x256 .f32) (x1 : Vec F S3200x256 .f32) (x2 : Vec F S1x3200 .f32) (y : S64x1.Idx) :
    ∃ pc ∈ (kernelRun1_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2).2.2.2.2.1 S64x1.size (by sl_kernel_rfl) y

/-- What case A leaves in the running sum. -/
def sout1_A_1 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : cond1_0 i) (hc1 : ¬cond1_1 i)
    (x0 : Vec F S64x256 .f32) (x1 : Vec F S3200x256 .f32) (x2 : Vec F S1x3200 .f32) : Vec F S64x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2).2.2.2.2.1)

theorem cover1_B_3 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) (y : S64x3200.Idx) :
    ∃ pc ∈ (kernelRun1_B c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1).1 S64x3200.size (by sl_kernel_rfl) y

/-- What case B leaves in the logits block. -/
def out1_B_3 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) : Vec F S64x3200 .f32 :=
  VO1_3.read (Elt F) (VO1_3.writes (Elt F) VO1_3.junk (kernelRun1_B c i arg2 harg2 arg3 harg3 arg4 harg4 arg5 harg5 arg6 harg6 arg7 harg7 arg8 harg8 arg9 harg9 hc0 hc1 x0 x1 x2 xs0 xs1).1)

/-- Case B stores nothing into the maximum block: a placeholder nothing consults. -/
def out1_B_4 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) : Vec F S1x64x1 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 xs0 xs1).2.1)

/-- Case B stores nothing into the sum block: a placeholder nothing consults. -/
def out1_B_5 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) : Vec F S1x64x1 .f32 :=
  VO1_5.read (Elt F) (VO1_5.writes (Elt F) VO1_5.junk (kernelRun1_B c i arg2 harg2 arg3 harg3 arg4 harg4 arg5 harg5 arg6 harg6 arg7 harg7 arg8 harg8 arg9 harg9 hc0 hc1 x0 x1 x2 xs0 xs1).2.2.1)

theorem scover1_B_0 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) (y : S64x1.Idx) :
    ∃ pc ∈ (kernelRun1_B c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1).2.2.2.1 S64x1.size (by sl_kernel_rfl) y

/-- What case B leaves in the running maximum. -/
def sout1_B_0 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) : Vec F S64x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 xs0 xs1).2.2.2.1)

theorem scover1_B_1 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) (y : S64x1.Idx) :
    ∃ pc ∈ (kernelRun1_B c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1).2.2.2.2.1 S64x1.size (by sl_kernel_rfl) y

/-- What case B leaves in the running sum. -/
def sout1_B_1 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) : Vec F S64x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 xs0 xs1).2.2.2.2.1)

theorem cover1_C_3 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) (y : S64x3200.Idx) :
    ∃ pc ∈ (kernelRun1_C c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1).1 S64x3200.size (by sl_kernel_rfl) y

/-- What case C leaves in the logits block. -/
def out1_C_3 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) : Vec F S64x3200 .f32 :=
  VO1_3.read (Elt F) (VO1_3.writes (Elt F) VO1_3.junk (kernelRun1_C c i arg2 harg2 arg3 harg3 arg4 harg4 arg5 harg5 arg6 harg6 arg7 harg7 arg8 harg8 arg9 harg9 hc0 hc1 x0 x1 x2 xs0 xs1).1)

theorem cover1_C_4 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) (y : S1x64x1.Idx) :
    ∃ pc ∈ (kernelRun1_C c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1).2.1 S1x64x1.size (by sl_kernel_rfl) y

/-- What case C leaves in the maximum block. -/
def out1_C_4 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) : Vec F S1x64x1 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 xs0 xs1).2.1)

theorem cover1_C_5 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) (y : S1x64x1.Idx) :
    ∃ pc ∈ (kernelRun1_C c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1).2.2.1 S1x64x1.size (by sl_kernel_rfl) y

/-- What case C leaves in the sum block. -/
def out1_C_5 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) : Vec F S1x64x1 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 xs0 xs1).2.2.1)

theorem scover1_C_0 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) (y : S64x1.Idx) :
    ∃ pc ∈ (kernelRun1_C c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1).2.2.2.1 S64x1.size (by sl_kernel_rfl) y

/-- What case C leaves in the running maximum. -/
def sout1_C_0 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) : Vec F S64x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 xs0 xs1).2.2.2.1)

theorem scover1_C_1 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) (y : S64x1.Idx) :
    ∃ pc ∈ (kernelRun1_C c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1).2.2.2.2.1 S64x1.size (by sl_kernel_rfl) y

/-- What case C leaves in the running sum. -/
def sout1_C_1 (c : Dev nD) (i : grid1.Coords) (arg2 : Memref sig .tc .vmem S64x256 .f32) (harg2 : arg2.IsWhole) (arg3 : Memref sig .tc .vmem S3200x256 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S64x1 .f32) (harg8 : arg8.IsWhole) (arg9 : Memref sig .tc .vmem S64x1 .f32) (harg9 : arg9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) : Vec F S64x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 xs0 xs1).2.2.2.2.1)

/-! ## What the three output blocks and the two carried buffers hold after each point -/

/-- After the body at position `n`: (the logits block, the maximum block, the sum block, the running maximum, the running sum). -/
def outsAt1 (c : Dev nD) : (n : ℕ) → n < cfg1.N → Vec F S64x3200 .f32 × Vec F S1x64x1 .f32 × Vec F S1x64x1 .f32 × Vec F S64x1 .f32 × Vec F S64x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 5 = 0 then
      if h1 : (n + 1) % 5 = 4 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 5 = 4 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2)

theorem outsAt1_A (c : Dev nD) (t : Fin cfg1.N) (h0 : t.val % 5 = 0) (h1 : ¬t.val % 5 = 4) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards the
    running maximum and the running sum at what the point before left, the other scoped buffers at anything, the generator
    register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 5 = 0
  · by_cases h1 : t.val % 5 = 4
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold out1_A_3 sout1_A_0 sout1_A_1; (try dsimp only)
      by_cases hz : t.val = 0
      · rw [PhiS1_castSucc V c t, PhiS1_zero V c _ _ hz, PhiA1_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _)
              unfold owns; iexists _; isplitr
              swap; · iexact HS1
              ipureintro; exact View.read_writes_of_cover _ _ _ _ _ (scover1_A_1 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_A_3 c _ _ _ _ _ _ _ _ _ _ _ _ _ _ _ _ _ _ _ _ _ _)
        isplitl [H4]; · iexists _; iexact H4
        iexists _; iexact H5
      · rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexists _; iexact HS0
        isplitl [HS1]; · iexists _; iexact HS1
        iintro ⟨H0, H1, H2, ⟨%e3, H3⟩, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _)
              unfold owns; iexists _; isplitr
              swap; · iexact HS1
              ipureintro; exact View.read_writes_of_cover _ _ _ _ _ (scover1_A_1 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_A_3 c _ _ _ _ _ _ _ _ _ _ _ _ _ _ _ _ _ _ _ _ _ _)
        isplitl [H4]; · iexists _; iexact H4
        iexists _; iexact H5
  · have hz : t.val ≠ 0 := fun e => h0 (by rw [e])
    by_cases h1 : t.val % 5 = 4
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_3 out1_C_4 out1_C_5 sout1_C_0 sout1_C_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold out1_B_3 sout1_B_0 sout1_B_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) _ _).2.2.2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _ _ _ _ _ _ _)
      isplitl [H4]; · iexists _; iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the carried buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.Gen

end
-- ==== Proof.KI.R2.lean ====
/-
  The third pallas_call (the normalisation: every logit less its row's log-sum-exp), over its two points, each a half of
  the vocabulary. One control case and no buffer of the kernel's own: the body reads the logits block and the
  log-sum-exp column, reads the output block, and stores the output block whole at the difference. So after the body the
  two inputs' buffers hold their blocks and the output's buffer holds the difference of the two; the region's invariant
  is the class's (every scoped buffer no window stages and the generator register, untouched).
-/
import proofs.«416662_j60241211293750_3_alg».proof.Proof.KI.R1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The logits window's current staging buffer holds its block at every point, for any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The log-sum-exp window's buffer holds its block at every point, fetched there (the first point) or not (the second:
    its block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S64x16000 := Rect.unit (s := S64x16000) ![0, 0] S64x16000.size inb_S64x16000_S64x16000_0_0
abbrev r2_1 : Rect S64x1 := Rect.unit (s := S64x1) ![0, 0] S64x1.size inb_S64x1_S64x1_0_0

/-! ## What the body leaves in the output window's buffer -/

/-- The output block after the body, from the input windows' blocks: its one store, whole. -/
def out2_2 (x0 : Vec F S64x16000 .f32) (x1 : Vec F S64x1 .f32) : Vec F S64x16000 .f32 :=
  View.canon [⟨r2_0, k2_pay1 (View.ld x0 r2_0) (View.ld x1 r2_1)⟩]

/-- The store covers the buffer. -/
theorem cover2_2 (p0 : Vec F S64x16000 .f32) (y : S64x16000.Idx) :
    ∃ pc ∈ ([⟨r2_0, p0⟩] : List (View.Piece (Elt F) S64x16000 .f32)), y ∈ pc.1.set :=
  View.cover_of_tiled [⟨r2_0, p0⟩] S64x16000.size (by rfl) y

/-! ## The body's triple -/

set_option maxHeartbeats 1000000 in
/-- The kernel body on whole staging memrefs, the inputs' at contents `x0`, `x1` and the output's at anything, runs to the
    continuation holding the inputs' as they were and the output's at `out2_2 x0 x1`. -/
theorem sound_kernel2 (c : Dev nD) (E : Set ℕ) (i : grid2.Coords) (arg1 : Memref sig .tc .vmem S64x16000 .f32) (harg1 : arg1.IsWhole) (arg2 : Memref sig .tc .vmem S64x1 .f32) (harg2 : arg2.IsWhole) (arg3 : Memref sig .tc .vmem S64x16000 .f32) (harg3 : arg3.IsWhole)
    (x0 : Vec F S64x16000 .f32) (x1 : Vec F S64x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__normalize_kernel i arg1 harg1 arg2 harg2 arg3 harg3) K := by
  simp only [cc2__normalize_kernel_eq_skeleton]; unfold cc2__normalize_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the third pipeline on core `c`: the arrays as the region finds them (`V`); after the body at point
    `t` each input's buffer at its block and the output's at `out2_2` of the two; the invariant the class's; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.Run.lean ====
/-
  The run of the kernel program from launch to return: its six segments in order (a stretch of host operations, then a
  pallas_call, three times over). The buffer contents at each of the seven segment boundaries are a fold from the launch
  memory: a host stretch leaves what its operations compute, a pallas_call leaves its arrays at what its write-backs
  fold to and every other buffer as entered. Every weakly fair execution terminates without fault, and the final memory
  is the last boundary's contents; read at the result array it is the third call's output, and read at an argument
  array it is what was launched (no host operation and no call writes an argument).
-/
import proofs.«416662_j60241211293750_3_alg».proof.Proof.KI.R2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After `hostOps0` (the first pallas_call's entry). -/
abbrev W1 : Dev nD → Valuation τ sig (Elt F) := fun c => StableHlo.after hostOps0 (W0 m ρ c)
/-- The same read at the TensorCore's references (what the call's proof data take). -/
abbrev V1 : (c : Dev nD) → (b : Ref sig .tc) → Buf (Elt F) ((c : Thread nD τ).loc b) := fun c b => W1 m ρ c b
/-- At the call's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the call's exit contents). -/
abbrev V2 : (c : Dev nD) → (b : Ref sig .tc) → Buf (Elt F) ((c : Thread nD τ).loc b) := fun c b => W2 m ρ c b
/-- At the call's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (the second pallas_call's entry). -/
abbrev W3 : Dev nD → Valuation τ sig (Elt F) := fun c => StableHlo.after hostOps1 (W2 m ρ c)
/-- The same read at the TensorCore's references (what the call's proof data take). -/
abbrev V3 : (c : Dev nD) → (b : Ref sig .tc) → Buf (Elt F) ((c : Thread nD τ).loc b) := fun c b => W3 m ρ c b
/-- At the call's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the call's exit contents). -/
abbrev V4 : (c : Dev nD) → (b : Ref sig .tc) → Buf (Elt F) ((c : Thread nD τ).loc b) := fun c b => W4 m ρ c b
/-- At the call's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (the third pallas_call's entry). -/
abbrev W5 : Dev nD → Valuation τ sig (Elt F) := fun c => StableHlo.after hostOps2 (W4 m ρ c)
/-- The same read at the TensorCore's references (what the call's proof data take). -/
abbrev V5 : (c : Dev nD) → (b : Ref sig .tc) → Buf (Elt F) ((c : Thread nD τ).loc b) := fun c b => W5 m ρ c b
/-- At the call's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (the call's exit contents). -/
abbrev V6 : (c : Dev nD) → (b : Ref sig .tc) → Buf (Elt F) ((c : Thread nD τ).loc b) := fun c b => W6 m ρ c b
/-- At the call's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host operation and no pallas_call writes one (a call reads it through an
    input window or does not touch it), so the fold at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := (W4_arr m ρ c 1).trans (((dat1 (V3 m ρ) c).arrAt_in 1 rfl _).trans (A_eq1 (V3 m ρ) c 1))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- The prefetched tables' admissible contents: no pipeline has a table. -/
abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents `W6`, the generator
    register at some state. -/
abbrev Tₙ (c : Dev nD) : sProp 𝕄 := iprop(StableHlo.held (c : Thread nD τ) (Pipeline.ucRefs τ sig) (W6 m ρ c) ∗ ∃ r, prngReg c r)

/-! ## The pallas_calls as segments -/

set_option backward.isDefEq.respectTransparency.types false in
/-- The first pallas_call over the thread state: entered from every unscoped buffer at `W1`, left at `W2`. Its
    arrays are split out of the unscoped buffers and put back at the exit contents; the generator register goes into the
    region's invariant and comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W3`, left at `W4`. Its
    arrays are split out of the unscoped buffers and put back at the exit contents; the generator register goes into the
    region's invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third pallas_call over the thread state: entered from every unscoped buffer at `W5`, left at `W6`. Its
    arrays are split out of the unscoped buffers and put back at the exit contents; the generator register goes into the
    region's invariant and comes back; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final memory holds, at each unscoped buffer, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same run read at the result array (the third call's output array, at what its write-backs fold to) and at the
    five argument arrays (as launched). -/
theorem run_main : θ_run defs (onTc (τ := τ) (main (F := F))) ⟨m, fun _ => 0, ρ⟩ (fun r => ∀ c : Dev nD,
      r.2.mem ((c.tc : Thread nD τ).loc main_v30) = (dat2 (V5 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v30 (by decide))).trans (W6_arr m ρ c 2),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c)⟩) (run_all m ρ)

/-- THE FRAME: the program runs (terminates, no fault) and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_main m ρ)

end Cert.KernelIdeal.Gen

end
-- ==== Proof.Consts.lean ====
/-
  The float constants the three programs spell, as the extended reals their bit patterns denote: zero, one eighth (the
  kernel's context-mean scale), eight (the reference's divisor), minus infinity (the start of both programs'
  max-reductions), plus infinity (the bound the precondition compares every entry's absolute value against), and the
  kernel's finite stand-in for minus infinity, which is SOME real number: nothing else about it is used.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_eighth : Ideal.ofBits .f32 0x3E000000#32 = ((1 / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The bound of the precondition's comparisons is plus infinity. -/
theorem ofBits_pos_inf : Ideal.ofBits .f32 0x7F800000#32 = ⊤ := by
  simp [Ideal.ofBits, Ideal.ieee]

/-- The kernel's running maximum starts from a finite number. -/
theorem ofBits_neg_big : ∃ r : ℝ, Ideal.ofBits .f32 0xFF333332#32 = (r : EReal) := by
  show ∃ r : ℝ, Ideal.ieee 8 23 (0xFF333332#32 : BitVec 32) = (r : EReal)
  unfold Ideal.ieee
  dsimp only
  rw [if_neg (by decide), if_neg (by decide)]
  exact ⟨_, rfl⟩

end Cert.Consts

end
-- ==== Proof.KI.VHost.lean ====
/-
  The three stretches of host operations between the pallas_calls, read as values over the extended reals.
  Before the first call the input [64, 256000] is reshaped to [64, 8, 32000]: entry (b, j, v) is the input's (b, j·32000 + v).
  Between the first and second calls the two halves' partial sums of the hidden layer are added and the first bias is
  added along the rows, and the second bias is reshaped to a row. Between the second and third calls the two halves'
  running maxima m0, m1 and running sums l0, l1 of each row are combined into the row's log-sum-exp:
  max m0 m1 + log (l0 · exp (m0 − max m0 m1) + l1 · exp (m1 − max m0 m1)). No stretch writes an argument array or an
  array a later call reads through unchanged.
-/
import proofs.«416662_j60241211293750_3_alg».proof.Proof.KI.Run
import Idealize.ShloMosaic.Lib.Pipeline.Value
import Idealize.ShloMosaic.Lib.ValueIdx
import Idealize.ShloMosaic.Lib.StableHlo.Run
import proofs.«416662_j60241211293750_3_alg».proof.Proof.Consts

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

/-! ## The arrays, each at its literal vector type -/

/-- The five argument arrays as launched. -/
abbrev a0 (c : Dev nD) : Vec Ideal S64x256000 .f32 := m ((c : Thread nD τ).loc main_arg0)
abbrev a1 (c : Dev nD) : Vec Ideal S256x32000 .f32 := m ((c : Thread nD τ).loc main_arg1)
abbrev a2 (c : Dev nD) : Vec Ideal S256 .f32 := m ((c : Thread nD τ).loc main_arg2)
abbrev a3 (c : Dev nD) : Vec Ideal S32000x256 .f32 := m ((c : Thread nD τ).loc main_arg3)
abbrev a4 (c : Dev nD) : Vec Ideal S32000 .f32 := m ((c : Thread nD τ).loc main_arg4)
/-- The reshaped input as the first call finds it. -/
abbrev xin (c : Dev nD) : Vec Ideal S64x8x32000 .f32 := V1 m ρ c main_v0
/-- The first call's output (the two halves' partial sums of the hidden layer) as it leaves it. -/
abbrev hpart (c : Dev nD) : Vec Ideal S2x64x256 .f32 := V2 m ρ c main_v1
/-- The two biases as the first call leaves them. -/
abbrev b1at2 (c : Dev nD) : Vec Ideal S256 .f32 := V2 m ρ c main_arg2
abbrev b2at2 (c : Dev nD) : Vec Ideal S32000 .f32 := V2 m ρ c main_arg4
/-- The hidden layer and the second bias's row as the second call finds them. -/
abbrev hid (c : Dev nD) : Vec Ideal S64x256 .f32 := V3 m ρ c main_v9
abbrev b2row (c : Dev nD) : Vec Ideal S1x32000 .f32 := V3 m ρ c main_v10
/-- The second call's two halves of running maxima and of running sums as it leaves them. -/
abbrev mpart (c : Dev nD) : Vec Ideal S2x64x1 .f32 := V4 m ρ c main_v11_1
abbrev lpart (c : Dev nD) : Vec Ideal S2x64x1 .f32 := V4 m ρ c main_v11_2
/-- The rows' log-sum-exp as the third call finds it. -/
abbrev lse (c : Dev nD) : Vec Ideal S64x1 .f32 := V5 m ρ c main_v29

/-! ## What the stretches leave alone -/

theorem V1_main_arg1 (c : Dev nD) : V1 m ρ c main_arg1 = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem V2_main_arg2 (c : Dev nD) : V2 m ρ c main_arg2 = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem V2_main_arg4 (c : Dev nD) : V2 m ρ c main_arg4 = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem V3_main_arg3 (c : Dev nD) : V3 m ρ c main_arg3 = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem V5_main_v11_0 (c : Dev nD) : V5 m ρ c main_v11_0 = V4 m ρ c main_v11_0 :=
  calc W5 m ρ c (Proc.devRef .tc main_v11_0)
    _ = W4 m ρ c (Proc.devRef .tc main_v11_0) := StableHlo.after_of_forall_not_mem (b := Proc.devRef .tc main_v11_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## Before the first call: the reshape of the input -/

theorem xin_eq (c : Dev nD) : xin m ρ c = shapeCast S64x8x32000 (a0 m c) shapeCasts_S64x256000_S64x8x32000 := by
  show StableHlo.after hostOps0 (W0 m ρ c) (Proc.devRef .tc main_v0) = _
  after_results
  rfl

/-- Entry (b, j, v) of the reshaped input is the input's entry (b, j·32000 + v). -/
theorem xin_apply (c : Dev nD) (b : Fin 64) (j : Fin 8) (v : Fin 32000) :
    xin m ρ c (ix3 b j v) = a0 m c (ix2 b ⟨j.val * 32000 + v.val, by have := j.isLt; have := v.isLt; omega⟩) := by
  rw [xin_eq]
  refine shapeCast_apply _ _ _ _ ?_
  rw [Shape.rowMajor_val_two, Shape.rowMajor_val_three]
  show b.val * 256000 + (j.val * 32000 + v.val) = (b.val * 8 + j.val) * 32000 + v.val
  omega

/-! ## Between the first and second calls: the hidden layer and the second bias's row -/

/-- Half `h` of a [2, 64, 256] array, its leading axis dropped, at (b, d). -/
theorem half256_apply (H : Vec Ideal S2x64x256 .f32) (h : Fin 2) (off : Fin 3 → Nat) (hoff : off = ![h.val, 0, 0])
    (hs : S2x64x256.Slices off S1x64x256) (b : Fin 64) (d : Fin 256) :
    shapeCast S64x256 (extractStridedSlice S1x64x256 off H hs) shapeCasts_S1x64x256_S64x256 (ix2 b d) = H (ix3 h b d) := by
  subst hoff
  refine (shapeCast_apply _ _ (ix2 b d) (ix3 (0 : Fin 1) b d) ?_).trans ?_
  · rw [Shape.rowMajor_val_three, Shape.rowMajor_val_two]
    show (0 * 64 + b.val) * 256 + d.val = b.val * 256 + d.val
    omega
  · refine extractStridedSlice_apply _ _ _ _ _ fun a => ?_
    match a with
    | ⟨0, _⟩ => show h.val = h.val + 0; omega
    | ⟨1, _⟩ => show b.val = 0 + b.val; omega
    | ⟨2, _⟩ => show d.val = 0 + d.val; omega

/-- A [256] vector broadcast along the rows of a [64, 256] array, at (b, d). -/
theorem rowBcast_apply (A : Vec Ideal S256 .f32) (b : Fin 64) (d : Fin 256) :
    broadcastInDim S64x256 ![0, 1] bcast_S1x256_S64x256_0_1 (broadcastInDim S1x256 ![1] bcast_S256_S1x256_1 A) (ix2 b d) = A (ix1 d) := by
  refine (broadcastInDim_apply _ _ _ (ix2 b d) (ix2 (0 : Fin 1) d) fun a => ?_).trans
    (broadcastInDim_apply _ _ _ (ix2 (0 : Fin 1) d) (ix1 d) fun a => ?_)
  · match a with
    | ⟨0, _⟩ => rfl
    | ⟨1, _⟩ => rfl
  · match a with
    | ⟨0, _⟩ => rfl

theorem hid_eq (c : Dev nD) : hid m ρ c
    = (addf (F := Ideal) (addf (shapeCast S64x256 (extractStridedSlice S1x64x256 ![0, 0, 0] (hpart m ρ c) slices_S2x64x256_S1x64x256_0_0_0) shapeCasts_S1x64x256_S64x256)
          (shapeCast S64x256 (extractStridedSlice S1x64x256 ![1, 0, 0] (hpart m ρ c) slices_S2x64x256_S1x64x256_1_0_0) shapeCasts_S1x64x256_S64x256))
        (broadcastInDim S64x256 ![0, 1] bcast_S1x256_S64x256_0_1 (broadcastInDim S1x256 ![1] bcast_S256_S1x256_1 (b1at2 m ρ c))) : FVec Ideal S64x256 .f32) := by
  show StableHlo.after hostOps1 (W2 m ρ c) (Proc.devRef .tc main_v9) = _
  after_results
  rfl

/-- Entry (b, d) of the hidden layer is the sum of the two halves' partial sums there, plus the first bias's entry d. -/
theorem hid_apply (c : Dev nD) (b : Fin 64) (d : Fin 256) :
    hid m ρ c (ix2 b d) = (hpart m ρ c (ix3 (0 : Fin 2) b d) + hpart m ρ c (ix3 (1 : Fin 2) b d)) + a2 m c (ix1 d) := by
  rw [hid_eq, addf_apply, addf_apply, half256_apply (hpart m ρ c) 0 ![0, 0, 0] rfl slices_S2x64x256_S1x64x256_0_0_0 b d,
    half256_apply (hpart m ρ c) 1 ![1, 0, 0] rfl slices_S2x64x256_S1x64x256_1_0_0 b d, rowBcast_apply]
  show _ + (V2 m ρ c main_arg2 : Vec Ideal S256 .f32) (ix1 d) = _
  rw [V2_main_arg2]

theorem b2row_eq (c : Dev nD) : b2row m ρ c = shapeCast S1x32000 (b2at2 m ρ c) shapeCasts_S32000_S1x32000 := by
  show StableHlo.after hostOps1 (W2 m ρ c) (Proc.devRef .tc main_v10) = _
  after_results
  rfl

/-- The second bias's row at (0, v) is the second bias's entry v. -/
theorem b2row_apply (c : Dev nD) (v : Fin 32000) : b2row m ρ c (ix2 (0 : Fin 1) v) = a4 m c (ix1 v) := by
  rw [b2row_eq]
  refine (shapeCast_apply _ _ (ix2 (0 : Fin 1) v) (ix1 v) ?_).trans ?_
  · rw [Shape.rowMajor_val_one, Shape.rowMajor_val_two]
    show v.val = 0 * 32000 + v.val
    omega
  · show (V2 m ρ c main_arg4 : Vec Ideal S32000 .f32) (ix1 v) = _
    rw [V2_main_arg4]

/-! ## Between the second and third calls: the rows' log-sum-exp -/

/-- Half `h` of a [2, 64, 1] array as a [64, 1] column. -/
abbrev colOf (X : FVec Ideal S2x64x1 .f32) (off : Fin 3 → Nat) (hs : S2x64x1.Slices off S1x64x1) : FVec Ideal S64x1 .f32 :=
  shapeCast S64x1 (extractStridedSlice S1x64x1 off X hs) shapeCasts_S1x64x1_S64x1

theorem colOf_apply (X : FVec Ideal S2x64x1 .f32) (h : Fin 2) (off : Fin 3 → Nat) (hoff : off = ![h.val, 0, 0])
    (hs : S2x64x1.Slices off S1x64x1) (b : Fin 64) :
    colOf X off hs (ix2 b (0 : Fin 1)) = X (ix3 h b (0 : Fin 1)) := by
  subst hoff
  refine (shapeCast_apply _ _ (ix2 b (0 : Fin 1)) (ix3 (0 : Fin 1) b (0 : Fin 1)) ?_).trans ?_
  · rw [Shape.rowMajor_val_three, Shape.rowMajor_val_two]
    show (0 * 64 + b.val) * 1 + 0 = b.val * 1 + 0
    omega
  · refine extractStridedSlice_apply _ _ _ _ _ fun a => ?_
    match a with
    | ⟨0, _⟩ => show h.val = h.val + 0; omega
    | ⟨1, _⟩ => show b.val = 0 + b.val; omega
    | ⟨2, _⟩ => show (0 : Nat) = 0 + 0; omega

/-- The host's combination of the two halves' maxima `M` and sums `L`. -/
def lseT (M L : FVec Ideal S2x64x1 .f32) : FVec Ideal S64x1 .f32 :=
  addf (F := Ideal) (maximumf (colOf M ![0, 0, 0] slices_S2x64x1_S1x64x1_0_0_0) (colOf M ![1, 0, 0] slices_S2x64x1_S1x64x1_1_0_0))
    (Host.log (addf
      (mulf (colOf L ![0, 0, 0] slices_S2x64x1_S1x64x1_0_0_0)
        (Host.exp (subf (colOf M ![0, 0, 0] slices_S2x64x1_S1x64x1_0_0_0)
          (maximumf (colOf M ![0, 0, 0] slices_S2x64x1_S1x64x1_0_0_0) (colOf M ![1, 0, 0] slices_S2x64x1_S1x64x1_1_0_0)))))
      (mulf (colOf L ![1, 0, 0] slices_S2x64x1_S1x64x1_1_0_0)
        (Host.exp (subf (colOf M ![1, 0, 0] slices_S2x64x1_S1x64x1_1_0_0)
          (maximumf (colOf M ![0, 0, 0] slices_S2x64x1_S1x64x1_0_0_0) (colOf M ![1, 0, 0] slices_S2x64x1_S1x64x1_1_0_0)))))))

set_option maxHeartbeats 2000000 in
theorem lse_eq (c : Dev nD) : lse m ρ c = lseT (mpart m ρ c) (lpart m ρ c) := by
  show StableHlo.after hostOps2 (W4 m ρ c) (Proc.devRef .tc main_v29) = _
  after_results_simp
  rfl

/-- Row b's log-sum-exp from the two halves' running maxima and sums. -/
theorem lse_apply (c : Dev nD) (b : Fin 64) :
    lse m ρ c (ix2 b (0 : Fin 1))
      = max (mpart m ρ c (ix3 (0 : Fin 2) b (0 : Fin 1))) (mpart m ρ c (ix3 (1 : Fin 2) b (0 : Fin 1)))
        + Ideal.log (lpart m ρ c (ix3 (0 : Fin 2) b (0 : Fin 1))
              * Ideal.exp (mpart m ρ c (ix3 (0 : Fin 2) b (0 : Fin 1)) - max (mpart m ρ c (ix3 (0 : Fin 2) b (0 : Fin 1))) (mpart m ρ c (ix3 (1 : Fin 2) b (0 : Fin 1))))
            + lpart m ρ c (ix3 (1 : Fin 2) b (0 : Fin 1))
              * Ideal.exp (mpart m ρ c (ix3 (1 : Fin 2) b (0 : Fin 1)) - max (mpart m ρ c (ix3 (0 : Fin 2) b (0 : Fin 1))) (mpart m ρ c (ix3 (1 : Fin 2) b (0 : Fin 1))))) := by
  rw [lse_eq]
  have m0 := colOf_apply (mpart m ρ c) 0 ![0, 0, 0] rfl slices_S2x64x1_S1x64x1_0_0_0 b
  have m1 := colOf_apply (mpart m ρ c) 1 ![1, 0, 0] rfl slices_S2x64x1_S1x64x1_1_0_0 b
  have l0 := colOf_apply (lpart m ρ c) 0 ![0, 0, 0] rfl slices_S2x64x1_S1x64x1_0_0_0 b
  have l1 := colOf_apply (lpart m ρ c) 1 ![1, 0, 0] rfl slices_S2x64x1_S1x64x1_1_0_0 b
  show max (colOf (mpart m ρ c) ![0, 0, 0] slices_S2x64x1_S1x64x1_0_0_0 (ix2 b (0 : Fin 1))) (colOf (mpart m ρ c) ![1, 0, 0] slices_S2x64x1_S1x64x1_1_0_0 (ix2 b (0 : Fin 1)))
      + Ideal.log (colOf (lpart m ρ c) ![0, 0, 0] slices_S2x64x1_S1x64x1_0_0_0 (ix2 b (0 : Fin 1))
            * Ideal.exp (colOf (mpart m ρ c) ![0, 0, 0] slices_S2x64x1_S1x64x1_0_0_0 (ix2 b (0 : Fin 1))
                - max (colOf (mpart m ρ c) ![0, 0, 0] slices_S2x64x1_S1x64x1_0_0_0 (ix2 b (0 : Fin 1))) (colOf (mpart m ρ c) ![1, 0, 0] slices_S2x64x1_S1x64x1_1_0_0 (ix2 b (0 : Fin 1))))
          + colOf (lpart m ρ c) ![1, 0, 0] slices_S2x64x1_S1x64x1_1_0_0 (ix2 b (0 : Fin 1))
            * Ideal.exp (colOf (mpart m ρ c) ![1, 0, 0] slices_S2x64x1_S1x64x1_1_0_0 (ix2 b (0 : Fin 1))
                - max (colOf (mpart m ρ c) ![0, 0, 0] slices_S2x64x1_S1x64x1_0_0_0 (ix2 b (0 : Fin 1))) (colOf (mpart m ρ c) ![1, 0, 0] slices_S2x64x1_S1x64x1_1_0_0 (ix2 b (0 : Fin 1))))) = _
  rw [m0, m1, l0, l1]

end Cert.KernelIdeal.Val

end
-- ==== Proof.KI.V0Pieces.lean ====
/-
  What each control case of the first pallas_call leaves, as values: the accumulator ends at the tile's product added to
  what it held (to the zero block at a first tile), and at a last tile the output block is the accumulator.
-/
import proofs.«416662_j60241211293750_3_alg».proof.Proof.KI.R0
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the accumulator ends at the update of what it held. -/
theorem acc_B (c : Dev nD) (i : grid0.Coords) (a2 : Memref sig .tc .vmem S64x8x3200 .f32) (h2 : a2.IsWhole) (a3 : Memref sig .tc .vmem S256x3200 .f32) (h3 : a3.IsWhole) (a4 : Memref sig .tc .vmem S1x64x256 .f32) (h4 : a4.IsWhole) (a5 : Memref sig .tc .vmem S64x256 .f32) (h5 : a5.IsWhole) (hc0 : ¬cond0_0 i) (hc1 : ¬cond0_1 i)
    (x0 : Vec F S64x8x3200 .f32) (x1 : Vec F S256x3200 .f32) (xs0 : Vec F S64x256 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S64x8x3200) hz3, View.ld_unit_zero (S := S256x3200) hz2, View.ld_unit_zero (S := S64x256) hz2]

/-- A last tile: the same update, -/
theorem acc_C (c : Dev nD) (i : grid0.Coords) (a2 : Memref sig .tc .vmem S64x8x3200 .f32) (h2 : a2.IsWhole) (a3 : Memref sig .tc .vmem S256x3200 .f32) (h3 : a3.IsWhole) (a4 : Memref sig .tc .vmem S1x64x256 .f32) (h4 : a4.IsWhole) (a5 : Memref sig .tc .vmem S64x256 .f32) (h5 : a5.IsWhole) (hc0 : ¬cond0_0 i) (hc1 : cond0_1 i)
    (x0 : Vec F S64x8x3200 .f32) (x1 : Vec F S256x3200 .f32) (xs0 : Vec F S64x256 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S64x8x3200) hz3, View.ld_unit_zero (S := S256x3200) hz2, View.ld_unit_zero (S := S64x256) hz2]

/-- and the output block is the updated accumulator under a leading unit axis. -/
theorem out_C (c : Dev nD) (i : grid0.Coords) (a2 : Memref sig .tc .vmem S64x8x3200 .f32) (h2 : a2.IsWhole) (a3 : Memref sig .tc .vmem S256x3200 .f32) (h3 : a3.IsWhole) (a4 : Memref sig .tc .vmem S1x64x256 .f32) (h4 : a4.IsWhole) (a5 : Memref sig .tc .vmem S64x256 .f32) (h5 : a5.IsWhole) (hc0 : ¬cond0_0 i) (hc1 : cond0_1 i)
    (x0 : Vec F S64x8x3200 .f32) (x1 : Vec F S256x3200 .f32) (xs0 : Vec F S64x256 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.readCov_unit_zero (S := S64x256) _ hz2, View.ld_unit_zero (S := S64x8x3200) hz3, View.ld_unit_zero (S := S256x3200) hz2, View.ld_unit_zero (S := S64x256) hz2]

/-- A first tile: the update of the zero block. -/
theorem acc_A (c : Dev nD) (i : grid0.Coords) (a2 : Memref sig .tc .vmem S64x8x3200 .f32) (h2 : a2.IsWhole) (a3 : Memref sig .tc .vmem S256x3200 .f32) (h3 : a3.IsWhole) (a4 : Memref sig .tc .vmem S1x64x256 .f32) (h4 : a4.IsWhole) (a5 : Memref sig .tc .vmem S64x256 .f32) (h5 : a5.IsWhole) (hc0 : cond0_0 i) (hc1 : ¬cond0_1 i)
    (x0 : Vec F S64x8x3200 .f32) (x1 : Vec F S256x3200 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S64x256) hz2, View.readCov_unit_zero (S := S64x256) _ hz2]
  simp only [View.readAt_eq_ld, h2.read_unread, h3.read_unread, h5.read_unread, View.ld_unit_zero (S := S64x8x3200) hz3, View.ld_unit_zero (S := S256x3200) hz2, View.ld_unit_zero (S := S64x256) hz2]

end Cert.KernelIdeal.Val

end
-- ==== Proof.KI.V0Pay.lean ====
/-
  The first pallas_call's arithmetic read at an index, over the extended reals: the tile's contribution to entry (b, d)
  of the accumulator is the sum over the tile's 3200 vocabulary positions k of (the sum of the eight context slices at
  (b, ·, k), times one eighth) times the first weight matrix's entry (d, k); the body adds it to what the accumulator held.
-/
import proofs.«416662_j60241211293750_3_alg».proof.Proof.Gen.KernelIdeal.Skeleton
import Idealize.ShloMosaic.Lib.Pipeline.Value
import Idealize.ShloMosaic.Lib.ValueIdx
import Idealize.ShloMosaic.PureOps.Ideal.Laws
import proofs.«416662_j60241211293750_3_alg».proof.Proof.Consts

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

theorem lhs0_0 (i : S64x256.Idx) (q : dot_S64x3200_S256x3200_S64x256_1_1_0_0_n_n.contr.Idx) :
    (dot_S64x3200_S256x3200_S64x256_1_1_0_0_n_n.lhsIdx i q 0).val = (i 0).val := by
  unfold DotDims.lhsIdx
  rw [dif_neg (show ¬(0 : Fin S64x3200.rank) ∈ dot_S64x3200_S256x3200_S64x256_1_1_0_0_n_n.lhsBatch by decide), dif_pos (show (0 : Fin S64x3200.rank) ∈ dot_S64x3200_S256x3200_S64x256_1_1_0_0_n_n.lhsNonContracting by decide)]
  rfl
theorem lhs0_1 (i : S64x256.Idx) (q : dot_S64x3200_S256x3200_S64x256_1_1_0_0_n_n.contr.Idx) :
    (dot_S64x3200_S256x3200_S64x256_1_1_0_0_n_n.lhsIdx i q 1).val = (q ⟨0, by decide⟩).val :=
  dot_S64x3200_S256x3200_S64x256_1_1_0_0_n_n.lhsIdx_val_of_single rfl i q
theorem rhs0_0 (i : S64x256.Idx) (q : dot_S64x3200_S256x3200_S64x256_1_1_0_0_n_n.contr.Idx) :
    (dot_S64x3200_S256x3200_S64x256_1_1_0_0_n_n.rhsIdx i q 0).val = (i 1).val := by
  unfold DotDims.rhsIdx
  rw [dif_neg (show ¬(0 : Fin S256x3200.rank) ∈ dot_S64x3200_S256x3200_S64x256_1_1_0_0_n_n.rhsBatch by decide), dif_pos (show (0 : Fin S256x3200.rank) ∈ dot_S64x3200_S256x3200_S64x256_1_1_0_0_n_n.rhsNonContracting by decide)]
  rfl
theorem rhs0_1 (i : S64x256.Idx) (q : dot_S64x3200_S256x3200_S64x256_1_1_0_0_n_n.contr.Idx) :
    (dot_S64x3200_S256x3200_S64x256_1_1_0_0_n_n.rhsIdx i q 1).val = (q ⟨0, by decide⟩).val :=
  dot_S64x3200_S256x3200_S64x256_1_1_0_0_n_n.rhsIdx_val_of_single rfl i q

/-- The tile's matrix product into a zero accumulator, at (b, d): the sum over the tile's positions. -/
theorem matmul0_apply (l : FVec Ideal S64x3200 .bf16) (r : FVec Ideal S256x3200 .bf16) (b : Fin 64) (d : Fin 256) :
    matmul dot_S64x3200_S256x3200_S64x256_1_1_0_0_n_n none l r (constant S64x256 .f32 0x00000000#32) (ix2 b d)
      = ∑ k : Fin 3200, l (ix2 b k) * r (ix2 d k) := by
  simp only [matmul]
  rw [Ideal.matmul_constant_zero_apply, ← Equiv.sum_comp (ValueIdx.contrEquiv1 dot_S64x3200_S256x3200_S64x256_1_1_0_0_n_n 3200 rfl rfl).symm]
  refine Finset.sum_congr rfl fun k _ => ?_
  have hk := ValueIdx.contrEquiv1_symm_val dot_S64x3200_S256x3200_S64x256_1_1_0_0_n_n 3200 rfl rfl k
  have el : dot_S64x3200_S256x3200_S64x256_1_1_0_0_n_n.lhsIdx (ix2 b d) ((ValueIdx.contrEquiv1 dot_S64x3200_S256x3200_S64x256_1_1_0_0_n_n 3200 rfl rfl).symm k) = ix2 b k := funext fun a => Fin.ext (by
    match a with
    | ⟨0, _⟩ => exact lhs0_0 _ _
    | ⟨1, _⟩ => exact (lhs0_1 _ _).trans hk)
  have er : dot_S64x3200_S256x3200_S64x256_1_1_0_0_n_n.rhsIdx (ix2 b d) ((ValueIdx.contrEquiv1 dot_S64x3200_S256x3200_S64x256_1_1_0_0_n_n 3200 rfl rfl).symm k) = ix2 d k := funext fun a => Fin.ext (by
    match a with
    | ⟨0, _⟩ => exact rhs0_0 _ _
    | ⟨1, _⟩ => exact (rhs0_1 _ _).trans hk)
  rw [el, er]

/-- The sum of the eight context slices of a tile at (b, k). -/
theorem ctxsum0_apply (x : FVec Ideal S64x8x3200 .f32) (hacc : (0x00000000#32 : BitVec 32) = 0x00000000#32) (b : Fin 64) (k : Fin 3200) :
    multiReduction .add [1] S64x3200 x 0x00000000#32 reduces_S64x8x3200_S64x3200 (.inl rfl) hacc (ix2 b k)
      = ∑ j : Fin 8, x (ix3 b j k) := by
  refine (Ideal.multiReduction_add_single x 0x00000000#32 reduces_S64x8x3200_S64x3200 (.inl rfl) hacc (ix2 b k)).trans ?_
  refine Finset.sum_congr rfl fun j _ => congrArg x (funext fun a => Fin.ext ?_)
  match a with
  | ⟨0, _⟩ => rfl
  | ⟨1, _⟩ => rfl
  | ⟨2, _⟩ => rfl

/-- The body's update of the accumulator, at entry (b, d). -/
theorem pay2_apply (x0 : Vec Ideal S64x8x3200 .f32) (x1 : Vec Ideal S256x3200 .f32) (acc : Vec Ideal S64x256 .f32) (b : Fin 64) (d : Fin 256) :
    k0_pay2 (F := Ideal) x0 x1 acc (ix2 b d)
      = acc (ix2 b d) + ∑ k : Fin 3200, ((∑ j : Fin 8, x0 (ix3 b j k)) * ((1 / 8 : ℝ) : EReal)) * x1 (ix2 d k) := by
  unfold k0_pay2
  simp only [shapeCast_self]
  refine (addf_apply _ _ _).trans ?_
  refine congrArg (acc (ix2 b d) + ·) ?_
  refine (matmul0_apply _ _ b d).trans ?_
  refine Finset.sum_congr rfl fun k _ => ?_
  simp only [truncf_apply, mulf_apply, broadcast_apply]
  rw [ctxsum0_apply, ← Cert.Consts.ofBits_eighth]
  rfl

/-- The reset block is zero everywhere. -/
theorem pay1_apply (i : S64x256.Idx) : k0_pay1 (F := Ideal) i = 0 := by
  unfold k0_pay1
  simp only [shapeCast_self]
  exact Ideal.ofBits_zero_f32

/-- The output block (a leading unit axis) holds the accumulator. -/
theorem pay3_apply (v : Vec Ideal S64x256 .f32) (b : Fin 64) (d : Fin 256) :
    k0_pay3 (F := Ideal) v (ix3 (0 : Fin 1) b d) = v (ix2 b d) := by
  unfold k0_pay3
  refine (shapeCast_apply v shapeCasts_S64x256_S1x64x256 (ix3 (0 : Fin 1) b d) (ix2 b d) ?_)
  rw [Shape.rowMajor_val_two, Shape.rowMajor_val_three]
  show (b : Nat) * 256 + (d : Nat) = ((0 : Nat) * 64 + (b : Nat)) * 256 + (d : Nat)
  omega

end Cert.KernelIdeal.Val

end
-- ==== Proof.KI.V0.lean ====
/-
  The first pallas_call as values over the extended reals. A tile's blocks are read off the region's arrays at the tile's
  offset t·3200 along the vocabulary axis (t the point, 0 … 9: five tiles for each half); after point t the accumulator
  holds the sum of the contributions of the tiles of t's half up to t; the output array's entry (half, b, d) ends at the
  sum over the half's five tiles.
-/
import proofs.«416662_j60241211293750_3_alg».proof.Proof.KI.V0Pieces
import proofs.«416662_j60241211293750_3_alg».proof.Proof.KI.V0Pay

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem idx0_0 : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)
theorem idx0_1 : ∀ t : Fin cfg0.N, win0_1.index t 0 = 0 ∧ win0_1.index t 1 = t.val :=
  (by decide +kernel : ∀ t : Fin grid0.N, win0_1.index t 0 = 0 ∧ win0_1.index t 1 = t.val)
theorem idx0_2 : ∀ t : Fin cfg0.N, win0_2.index t 0 = t.val / 5 ∧ win0_2.index t 1 = 0 ∧ win0_2.index t 2 = 0 :=
  (by decide +kernel : ∀ t : Fin grid0.N, win0_2.index t 0 = t.val / 5 ∧ win0_2.index t 1 = 0 ∧ win0_2.index t 2 = 0)

/-- Position `k` of tile `t` along the vocabulary axis. -/
abbrev vpos (t : ℕ) (k : Fin 3200) : Fin 32000 := ⟨(t % 10) * 3200 + k.val, by have := k.isLt; have := Nat.mod_lt t (by decide : 0 < 10); omega⟩

/-- The reshaped input and the first weight matrix as the region finds them. -/
abbrev xarr (c : Dev nD) : Vec Ideal S64x8x32000 .f32 := V c main_v0
abbrev warr (c : Dev nD) : Vec Ideal S256x32000 .f32 := V c main_arg1

/-- The input tile of the context slices at point `t`. -/
abbrev xblk (c : Dev nD) (t : Fin cfg0.N) : Vec Ideal S64x8x3200 .f32 := iblk0 V c 0 t
/-- The tile of the first weight matrix at point `t`. -/
abbrev wblk (c : Dev nD) (t : Fin cfg0.N) : Vec Ideal S256x3200 .f32 := iblk0 V c 1 t

theorem xblk_apply (c : Dev nD) (t : Fin cfg0.N) (b : Fin 64) (j : Fin 8) (k : Fin 3200) :
    xblk V c t (ix3 b j k) = xarr V c (ix3 b j (vpos t.val k)) := by
  have hN : t.val < 10 := lt_of_lt_of_eq t.isLt (show cfg0.N = 10 from N_0)
  have hi := idx0_0 t
  unfold xblk iblk0
  rw [View.read_apply]
  show V c main_v0 _ = V c main_v0 _
  congr 1
  funext a
  apply Fin.ext
  match a with
  | ⟨0, _⟩ => show win0_0.index t 0 * 64 + 1 * (b : Nat) = (b : Nat); rw [hi.1]; omega
  | ⟨1, _⟩ => show win0_0.index t 1 * 8 + 1 * (j : Nat) = (j : Nat); rw [hi.2.1]; omega
  | ⟨2, _⟩ => show win0_0.index t 2 * 3200 + 1 * (k : Nat) = (t.val % 10) * 3200 + (k : Nat); rw [hi.2.2, Nat.mod_eq_of_lt hN]; omega

theorem wblk_apply (c : Dev nD) (t : Fin cfg0.N) (d : Fin 256) (k : Fin 3200) :
    wblk V c t (ix2 d k) = warr V c (ix2 d (vpos t.val k)) := by
  have hN : t.val < 10 := lt_of_lt_of_eq t.isLt (show cfg0.N = 10 from N_0)
  have hi := idx0_1 t
  unfold wblk iblk0
  rw [View.read_apply]
  show V c main_arg1 _ = V c main_arg1 _
  congr 1
  funext a
  apply Fin.ext
  match a with
  | ⟨0, _⟩ => show win0_1.index t 0 * 256 + 1 * (d : Nat) = (d : Nat); rw [hi.1]; omega
  | ⟨1, _⟩ => show win0_1.index t 1 * 3200 + 1 * (k : Nat) = (t.val % 10) * 3200 + (k : Nat); rw [hi.2, Nat.mod_eq_of_lt hN]; omega

/-- Tile `t`'s contribution to entry (b, d) of the hidden layer's partial sum. -/
def contrib (c : Dev nD) (t : ℕ) (b : Fin 64) (d : Fin 256) : EReal :=
  ∑ k : Fin 3200, ((∑ j : Fin 8, xarr V c (ix3 b j (vpos t k))) * ((1 / 8 : ℝ) : EReal)) * warr V c (ix2 d (vpos t k))

/-- The body's update at point `t` adds the tile's contribution. -/
theorem update_apply (c : Dev nD) (t : Fin cfg0.N) (acc : Vec Ideal S64x256 .f32) (b : Fin 64) (d : Fin 256) :
    k0_pay2 (F := Ideal) (xblk V c t) (wblk V c t) acc (ix2 b d) = acc (ix2 b d) + contrib V c t.val b d := by
  rw [pay2_apply]
  unfold contrib
  refine congrArg (acc (ix2 b d) + ·) (Finset.sum_congr rfl fun k _ => ?_)
  rw [wblk_apply]
  refine congrArg (· * _) (congrArg (· * _) (Finset.sum_congr rfl fun j _ => ?_))
  exact xblk_apply V c t b j k

/-- After point `n` the accumulator's entry (b, d) is the sum of the contributions of the tiles of n's half up to n. -/
theorem acc_eq (c : Dev nD) : ∀ (n : ℕ) (h : n < cfg0.N) (b : Fin 64) (d : Fin 256),
    (outsAt0 V c n h).2 (ix2 b d) = ∑ q ∈ Finset.range (n % 5 + 1), contrib V c (n - n % 5 + q) b d
  | 0, h, b, d => by
    rw [outsAt0_A V c ⟨0, h⟩ rfl (by show ¬ (0 % 5 = 4); decide)]
    dsimp only
    rw [acc_A]
    refine (update_apply V c ⟨0, h⟩ _ b d).trans ?_
    rw [pay1_apply, zero_add]
    simp
  | n + 1, h, b, d => by
    have hN : n + 1 < 10 := lt_of_lt_of_eq h (show cfg0.N = 10 from N_0)
    by_cases h0 : (n + 1) % 5 = 0
    · have h1 : ¬ (n + 1) % 5 = 4 := by omega
      rw [outsAt0_A V c ⟨n + 1, h⟩ h0 h1]
      dsimp only
      rw [acc_A]
      refine (update_apply V c ⟨n + 1, h⟩ _ b d).trans ?_
      rw [pay1_apply, zero_add, h0]
      simp
    · have ih := acc_eq c n (Nat.lt_of_succ_lt h) b d
      have hm : (n + 1) % 5 = n % 5 + 1 := by omega
      have hs : n + 1 - (n + 1) % 5 = n - n % 5 := by omega
      have hstep : ((outsAt0 V c (n + 1) h).2) (ix2 b d) = (outsAt0 V c n (Nat.lt_of_succ_lt h)).2 (ix2 b d) + contrib V c (n + 1) b d := by
        by_cases h1 : (n + 1) % 5 = 4
        · rw [outsAt0_C V c ⟨n + 1, h⟩ h0 h1]
          dsimp only
          rw [acc_C]
          exact update_apply V c ⟨n + 1, h⟩ _ b d
        · rw [outsAt0_B V c ⟨n + 1, h⟩ h0 h1]
          dsimp only
          rw [acc_B]
          exact update_apply V c ⟨n + 1, h⟩ _ b d
      have e : n - n % 5 + (n % 5 + 1) = n + 1 := by omega
      rw [hstep, ih, hs, hm, Finset.sum_range_succ (fun q => contrib V c (n - n % 5 + q) b d) (n % 5 + 1)]
      simp only [e]

end Cert.KernelIdeal.Val

end
-- ==== Proof.KI.V0Arr.lean ====
/-
  The first pallas_call's output array: the block of half u is written back once, after the half's last tile, and holds
  the accumulator; so entry (u, b, d) of the array ends at the sum of the contributions of the half's five tiles.
-/
import proofs.«416662_j60241211293750_3_alg».proof.Proof.KI.V0

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- The array the region leaves: per half, the five tiles' contributions summed. -/
def hpartG (c : Dev nD) : Vec Ideal S2x64x256 .f32 := fun i =>
  ∑ q ∈ Finset.range 5, contrib V c (5 * (i 0).val + q) ⟨(i 1).val, (i 1).isLt⟩ ⟨(i 2).val, (i 2).isLt⟩

/-- At a last tile the output block is the accumulator. -/
theorem out_last (c : Dev nD) (t : Fin cfg0.N) (h0 : ¬t.val % 5 = 0) (h1 : t.val % 5 = 4) (b : Fin 64) (d : Fin 256) :
    (outsAt0 V c t.val t.isLt).1 (ix3 (0 : Fin 1) b d) = (outsAt0 V c t.val t.isLt).2 (ix2 b d) := by
  rw [outsAt0_C V c t h0 h1]
  dsimp only
  rw [out_C, acc_C]
  exact pay3_apply _ b d

theorem flushed0 (c : Dev nD) (t : Fin cfg0.N) (hf : (cfg0.win 2).flush t = true) :
    (dat0 V c).flushed 2 t = ((cfg0.win 2).blk t).view.read (Elt Ideal) (hpartG V c) := by
  have h4 : t.val % 5 = 4 := (flush0_2 t).mp hf
  have h0 : ¬ t.val % 5 = 0 := by omega
  have hi := idx0_2 t
  show (cfg0.win 2).cut (grid0.coords t) ((dat0 V c).after 2 t) = _
  rw [after0_2]
  funext y
  rw [View.read_apply]
  obtain ⟨u, b, d, rfl⟩ : ∃ (u : Fin 1) (b : Fin 64) (d : Fin 256), y = ix3 u b d := ⟨y 0, y 1, y 2, eq_ix3 y⟩
  obtain rfl : u = 0 := Subsingleton.elim _ _
  refine (out_last V c t h0 h4 b d).trans ?_
  rw [acc_eq, h4]
  unfold hpartG
  refine Finset.sum_congr rfl fun q _ => ?_
  have e0 : ((((cfg0.win 2).blk t).view.emb (ix3 (0 : Fin 1) b d)) 0).val = t.val / 5 := by
    show win0_2.index t 0 * 1 + 1 * ((0 : Fin 1) : Nat) = t.val / 5
    rw [hi.1]; simp
  have e1 : ((((cfg0.win 2).blk t).view.emb (ix3 (0 : Fin 1) b d)) 1).val = b.val := by
    show win0_2.index t 1 * 64 + 1 * (b : Nat) = b.val
    rw [hi.2.1]; omega
  have e2 : ((((cfg0.win 2).blk t).view.emb (ix3 (0 : Fin 1) b d)) 2).val = d.val := by
    show win0_2.index t 2 * 256 + 1 * (d : Nat) = d.val
    rw [hi.2.2]; omega
  have eb : (⟨((((cfg0.win 2).blk t).view.emb (ix3 (0 : Fin 1) b d)) 1).val, ((((cfg0.win 2).blk t).view.emb (ix3 (0 : Fin 1) b d)) 1).isLt⟩ : Fin 64) = b := Fin.ext e1
  have ed : (⟨((((cfg0.win 2).blk t).view.emb (ix3 (0 : Fin 1) b d)) 2).val, ((((cfg0.win 2).blk t).view.emb (ix3 (0 : Fin 1) b d)) 2).isLt⟩ : Fin 256) = d := Fin.ext e2
  rw [eb, ed, e0]
  congr 1
  omega

/-- The output array after the region. -/
theorem hpart_final (c : Dev nD) : (dat0 V c).arrAt 2 cfg0.N = hpartG V c :=
  (dat0 V c).arrAt_eq_of_cover 2 (hpartG V c) (flushed0 V c) fun i => by
    have h0 : (i 0 : Nat) < 2 := (i 0).isLt
    have h1 : (i 1 : Nat) < 64 := (i 1).isLt
    have h2 : (i 2 : Nat) < 256 := (i 2).isLt
    have ht : 5 * (i 0 : Nat) + 4 < cfg0.N := by rw [show cfg0.N = 10 from N_0]; omega
    refine ⟨⟨5 * (i 0 : Nat) + 4, ht⟩, (flush0_2 _).mpr (by show (5 * (i 0 : Nat) + 4) % 5 = 4; omega), ?_⟩
    have hi := idx0_2 ⟨5 * (i 0 : Nat) + 4, ht⟩
    show i ∈ ((View.whole main_v1).slice (win0_2.rect ⟨5 * (i 0 : Nat) + 4, ht⟩)).set
    rw [View.set_slice_whole, Rect.mem_set_unit]
    intro a
    match a with
    | ⟨0, _⟩ =>
      show win0_2.index _ 0 * win0_2.size 0 ≤ (i 0 : Nat) ∧ (i 0 : Nat) < win0_2.index _ 0 * win0_2.size 0 + win0_2.xsize (grid0.coords _) 0
      rw [hi.1]
      show (5 * (i 0 : Nat) + 4) / 5 * 1 ≤ (i 0 : Nat) ∧ (i 0 : Nat) < (5 * (i 0 : Nat) + 4) / 5 * 1 + 1
      omega
    | ⟨1, _⟩ =>
      show win0_2.index _ 1 * win0_2.size 1 ≤ (i 1 : Nat) ∧ (i 1 : Nat) < win0_2.index _ 1 * win0_2.size 1 + win0_2.xsize (grid0.coords _) 1
      rw [hi.2.1]
      show 0 * 64 ≤ (i 1 : Nat) ∧ (i 1 : Nat) < 0 * 64 + 64
      omega
    | ⟨2, _⟩ =>
      show win0_2.index _ 2 * win0_2.size 2 ≤ (i 2 : Nat) ∧ (i 2 : Nat) < win0_2.index _ 2 * win0_2.size 2 + win0_2.xsize (grid0.coords _) 2
      rw [hi.2.2]
      show 0 * 256 ≤ (i 2 : Nat) ∧ (i 2 : Nat) < 0 * 256 + 256
      omega

end Cert.KernelIdeal.Val

end
-- ==== Proof.KI.V1Pieces.lean ====
/-
  What each control case of the second pallas_call leaves, as values: the logits block holds the tile's logits; the
  running maximum ends at the tile's maximum joined with what it held and the running sum at its rescaled update (at a
  first tile both start afresh, from the finite start and from zero); at a last tile the maximum block and the sum block
  hold the two updated running values under a leading unit axis.
-/
import proofs.«416662_j60241211293750_3_alg».proof.Proof.KI.R1
import proofs.«416662_j60241211293750_3_alg».proof.Proof.KI.V0Pieces
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable {F : FTy → Type} [FloatOps F]

/-- A first tile: the logits block holds the tile's logits, -/
theorem tile_A (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : cond1_0 i) (hc1 : ¬cond1_1 i)
    (x0 : Vec F S64x256 .f32) (x1 : Vec F S3200x256 .f32) (x2 : Vec F S1x3200 .f32) :
    out1_A_3 c i a2 h2 a3 h3 a4 h4 a5 h5 a6 h6 a7 h7 a8 h8 a9 h9 hc0 hc1 x0 x1 x2 = k1_pay6 x0 x1 x2 := by
  unfold out1_A_3
  rw [View.read_writes_eq_canon _ _ _ (cover1_A_3 c i a2 h2 a3 h3 a4 h4 a5 h5 a6 h6 a7 h7 a8 h8 a9 h9 hc0 hc1 x0 x1 x2)]
  unfold kernelRun1_A
  dsimp only
  sl_unfold_words
  rw [View.canon_unit_zero hz2]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

/-- the running maximum ends at the tile's maximum joined with the finite start, -/
theorem max_A (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : cond1_0 i) (hc1 : ¬cond1_1 i)
    (x0 : Vec F S64x256 .f32) (x1 : Vec F S3200x256 .f32) (x2 : Vec F S1x3200 .f32) :
    sout1_A_0 c i a2 h2 a3 h3 a4 h4 a5 h5 a6 h6 a7 h7 a8 h8 a9 h9 hc0 hc1 x0 x1 x2 = k1_pay1 (k1_pay7 x0 x1 x2 (k1_pay4 (F := F))) := by
  unfold sout1_A_0
  rw [View.read_writes_eq_canon _ _ _ (scover1_A_0 c i a2 h2 a3 h3 a4 h4 a5 h5 a6 h6 a7 h7 a8 h8 a9 h9 hc0 hc1 x0 x1 x2)]
  unfold kernelRun1_A
  dsimp only
  sl_unfold_words
  rw [View.canon_cons_unit_zero (S := S64x1) hz2, View.readCov_unit_zero (S := S64x1) _ hz2]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

/-- and the running sum at the update of zero against that start. -/
theorem sum_A (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : cond1_0 i) (hc1 : ¬cond1_1 i)
    (x0 : Vec F S64x256 .f32) (x1 : Vec F S3200x256 .f32) (x2 : Vec F S1x3200 .f32) :
    sout1_A_1 c i a2 h2 a3 h3 a4 h4 a5 h5 a6 h6 a7 h7 a8 h8 a9 h9 hc0 hc1 x0 x1 x2 = k1_pay8 x0 x1 x2 (k1_pay4 (F := F)) (k1_pay4 (F := F)) (k1_pay5 (F := F)) := by
  unfold sout1_A_1
  rw [View.read_writes_eq_canon _ _ _ (scover1_A_1 c i a2 h2 a3 h3 a4 h4 a5 h5 a6 h6 a7 h7 a8 h8 a9 h9 hc0 hc1 x0 x1 x2)]
  unfold kernelRun1_A
  dsimp only
  sl_unfold_words
  rw [View.canon_cons_unit_zero (S := S64x1) hz2, View.readCov_unit_zero (S := S64x1) _ hz2]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

/-- A middle tile: the logits block holds the tile's logits, -/
theorem tile_B (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) :
    out1_B_3 c i a2 h2 a3 h3 a4 h4 a5 h5 a6 h6 a7 h7 a8 h8 a9 h9 hc0 hc1 x0 x1 x2 xs0 xs1 = k1_pay6 x0 x1 x2 := by
  unfold out1_B_3
  rw [View.read_writes_eq_canon _ _ _ (cover1_B_3 c i a2 h2 a3 h3 a4 h4 a5 h5 a6 h6 a7 h7 a8 h8 a9 h9 hc0 hc1 x0 x1 x2 xs0 xs1)]
  unfold kernelRun1_B
  dsimp only
  sl_unfold_words
  rw [View.canon_unit_zero hz2]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

/-- the running maximum ends at the tile's maximum joined with what it held, -/
theorem max_B (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) :
    sout1_B_0 c i a2 h2 a3 h3 a4 h4 a5 h5 a6 h6 a7 h7 a8 h8 a9 h9 hc0 hc1 x0 x1 x2 xs0 xs1 = k1_pay1 (k1_pay7 x0 x1 x2 xs0) := by
  unfold sout1_B_0
  rw [View.read_writes_eq_canon _ _ _ (scover1_B_0 c i a2 h2 a3 h3 a4 h4 a5 h5 a6 h6 a7 h7 a8 h8 a9 h9 hc0 hc1 x0 x1 x2 xs0 xs1)]
  unfold kernelRun1_B
  dsimp only
  sl_unfold_words
  rw [View.canon_unit_zero hz2]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

/-- and the running sum at the update of what it held. -/
theorem sum_B (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : ¬cond1_0 i) (hc1 : ¬cond1_1 i)
    (x0 : Vec F S64x256 .f32) (x1 : Vec F S3200x256 .f32) (x2 : Vec F S1x3200 .f32) (xs0 : Vec F S64x1 .f32) (xs1 : Vec F S64x1 .f32) :
    sout1_B_1 c i a2 h2 a3 h3 a4 h4 a5 h5 a6 h6 a7 h7 a8 h8 a9 h9 hc0 hc1 x0 x1 x2 xs0 xs1 = k1_pay8 x0 x1 x2 xs0 xs0 xs1 := by
  unfold sout1_B_1
  rw [View.read_writes_eq_canon _ _ _ (scover1_B_1 c i a2 h2 a3 h3 a4 h4 a5 h5 a6 h6 a7 h7 a8 h8 a9 h9 hc0 hc1 x0 x1 x2 xs0 xs1)]
  unfold kernelRun1_B
  dsimp only
  sl_unfold_words
  rw [View.canon_unit_zero hz2]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

/-- A last tile: the same three, -/
theorem tile_C (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) :
    out1_C_3 c i a2 h2 a3 h3 a4 h4 a5 h5 a6 h6 a7 h7 a8 h8 a9 h9 hc0 hc1 x0 x1 x2 xs0 xs1 = k1_pay6 x0 x1 x2 := by
  unfold out1_C_3
  rw [View.read_writes_eq_canon _ _ _ (cover1_C_3 c i a2 h2 a3 h3 a4 h4 a5 h5 a6 h6 a7 h7 a8 h8 a9 h9 hc0 hc1 x0 x1 x2 xs0 xs1)]
  unfold kernelRun1_C
  dsimp only
  sl_unfold_words
  rw [View.canon_unit_zero hz2]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

/-- the running maximum, -/
theorem max_C (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) :
    sout1_C_0 c i a2 h2 a3 h3 a4 h4 a5 h5 a6 h6 a7 h7 a8 h8 a9 h9 hc0 hc1 x0 x1 x2 xs0 xs1 = k1_pay1 (k1_pay7 x0 x1 x2 xs0) := by
  unfold sout1_C_0
  rw [View.read_writes_eq_canon _ _ _ (scover1_C_0 c i a2 h2 a3 h3 a4 h4 a5 h5 a6 h6 a7 h7 a8 h8 a9 h9 hc0 hc1 x0 x1 x2 xs0 xs1)]
  unfold kernelRun1_C
  dsimp only
  sl_unfold_words
  rw [View.canon_unit_zero hz2]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

/-- the running sum, -/
theorem sum_C (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) :
    sout1_C_1 c i a2 h2 a3 h3 a4 h4 a5 h5 a6 h6 a7 h7 a8 h8 a9 h9 hc0 hc1 x0 x1 x2 xs0 xs1 = k1_pay8 x0 x1 x2 xs0 xs0 xs1 := by
  unfold sout1_C_1
  rw [View.read_writes_eq_canon _ _ _ (scover1_C_1 c i a2 h2 a3 h3 a4 h4 a5 h5 a6 h6 a7 h7 a8 h8 a9 h9 hc0 hc1 x0 x1 x2 xs0 xs1)]
  unfold kernelRun1_C
  dsimp only
  sl_unfold_words
  rw [View.canon_unit_zero hz2]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

/-- and the maximum block is the new running maximum under a leading unit axis, -/
theorem maxOut_C (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) :
    out1_C_4 c i a2 h2 a3 h3 a4 h4 a5 h5 a6 h6 a7 h7 a8 h8 a9 h9 hc0 hc1 x0 x1 x2 xs0 xs1 = k1_pay2 (k1_pay1 (k1_pay7 x0 x1 x2 xs0)) := by
  unfold out1_C_4
  rw [View.read_writes_eq_canon _ _ _ (cover1_C_4 c i a2 h2 a3 h3 a4 h4 a5 h5 a6 h6 a7 h7 a8 h8 a9 h9 hc0 hc1 x0 x1 x2 xs0 xs1)]
  unfold kernelRun1_C
  dsimp only
  sl_unfold_words
  rw [View.canon_unit_zero hz3]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

/-- the sum block the new running sum. -/
theorem sumOut_C (c : Dev nD) (i : grid1.Coords) (a2 : Memref sig .tc .vmem S64x256 .f32) (h2 : a2.IsWhole) (a3 : Memref sig .tc .vmem S3200x256 .f32) (h3 : a3.IsWhole) (a4 : Memref sig .tc .vmem S1x3200 .f32) (h4 : a4.IsWhole) (a5 : Memref sig .tc .vmem S64x3200 .f32) (h5 : a5.IsWhole) (a6 : Memref sig .tc .vmem S1x64x1 .f32) (h6 : a6.IsWhole) (a7 : Memref sig .tc .vmem S1x64x1 .f32) (h7 : a7.IsWhole) (a8 : Memref sig .tc .vmem S64x1 .f32) (h8 : a8.IsWhole) (a9 : Memref sig .tc .vmem S64x1 .f32) (h9 : a9.IsWhole) (hc0 : ¬cond1_0 i) (hc1 : cond1_1 i)
    (x0 : Vec F S64x256 .f32) (x1 : Vec F S3200x256 .f32) (x2 : Vec F S1x3200 .f32) (xs0 : Vec F S64x1 .f32) (xs1 : Vec F S64x1 .f32) :
    out1_C_5 c i a2 h2 a3 h3 a4 h4 a5 h5 a6 h6 a7 h7 a8 h8 a9 h9 hc0 hc1 x0 x1 x2 xs0 xs1 = k1_pay3 (k1_pay8 x0 x1 x2 xs0 xs0 xs1) := by
  unfold out1_C_5
  rw [View.read_writes_eq_canon _ _ _ (cover1_C_5 c i a2 h2 a3 h3 a4 h4 a5 h5 a6 h6 a7 h7 a8 h8 a9 h9 hc0 hc1 x0 x1 x2 xs0 xs1)]
  unfold kernelRun1_C
  dsimp only
  sl_unfold_words
  rw [View.canon_unit_zero hz3]
  simp only [View.readAt_eq_ld, h2.read_unread, h3.read_unread, h4.read_unread, h8.read_unread, h9.read_unread, View.readCov_unit_zero (S := S64x1) _ hz2, View.ld_unit_zero (S := S64x256) hz2, View.ld_unit_zero (S := S3200x256) hz2, View.ld_unit_zero (S := S1x3200) hz2, View.ld_unit_zero (S := S64x3200) hz2, View.ld_unit_zero (S := S64x1) hz2, View.ld_unit_zero (S := S1x64x1) hz3]

end Cert.KernelIdeal.Val

end
-- ==== Proof.LibOnlineSoftmax.lean ====
/-
  The log-softmax of a row of 32000 finite logits computed two ways over the extended reals.
  ONLINE, as the kernel does: the row is cut into two halves of five tiles of 3200; each half keeps a running maximum
  (started from a finite stand-in `neg`, not from -∞) and a running sum of exponentials rescaled to the running maximum;
  the two halves' pairs are merged, and the log-sum-exp is the merged maximum plus the logarithm of the merged sum.
  DIRECTLY, as the reference does: subtract the row's maximum, then subtract the logarithm of the sum of exponentials.
  For finite logits both are `w v - log (∑ exp w)`: `m + log (∑ exp (w - m))` does not depend on the real `m`.
  Also: a sum over the 32000 positions is the sum over the halves, tiles and lanes.
-/
import Idealize.ShloMosaic.PureOps.Ideal
import Mathlib.Data.EReal.Basic
import Mathlib.Data.EReal.Operations
import Mathlib.Order.MinMax
import Mathlib.Analysis.SpecialFunctions.Log.Basic
import Mathlib.Algebra.BigOperators.Fin
import Mathlib.Algebra.BigOperators.Group.Finset.Basic
import Mathlib.Algebra.BigOperators.Ring.Finset
import Mathlib.Algebra.Order.BigOperators.Group.Finset
import Mathlib.Data.Fintype.BigOperators
import Mathlib.Data.Finset.Lattice.Fold

noncomputable section

open scoped BigOperators

namespace Cert.OnlineSoftmax

open Idealize.ShloMosaic

/-- Tile `n` (of five) of half `c` (of two) of a row of 32000: lane `j` is position `(5c + n)·3200 + j`. Past the fifth tile: zero. -/
def tile (w : Fin 32000 → EReal) (c : Fin 2) (n : ℕ) (j : Fin 3200) : EReal :=
  if h : n < 5 then w ⟨(c.val * 5 + n) * 3200 + j.val, by have := c.isLt; have := j.isLt; omega⟩ else 0

/-- The maximum of a finite family with -∞ for the empty one: the fold both programs' max-reductions read as. -/
def foldMax {n : ℕ} (f : Fin n → EReal) : EReal := (Finset.univ : Finset (Fin n)).fold max ⊥ f

/-- The running maximum of a half after its first `n` tiles, started from `neg`. -/
def runMax (neg : EReal) (w : Fin 32000 → EReal) (c : Fin 2) : ℕ → EReal
  | 0 => neg
  | n + 1 => max (runMax neg w c n) (foldMax (tile w c n))

/-- The running sum of exponentials of a half after its first `n` tiles, relative to the running maximum. -/
def runSum (neg : EReal) (w : Fin 32000 → EReal) (c : Fin 2) : ℕ → EReal
  | 0 => 0
  | n + 1 => runSum neg w c n * Ideal.exp (runMax neg w c n - runMax neg w c (n + 1))
      + ∑ j : Fin 3200, Ideal.exp (tile w c n j - runMax neg w c (n + 1))

/-- The two halves merged: the log-sum-exp the kernel subtracts. -/
def lseOnline (neg : EReal) (w : Fin 32000 → EReal) : EReal :=
  max (runMax neg w 0 5) (runMax neg w 1 5)
    + Ideal.log (runSum neg w 0 5 * Ideal.exp (runMax neg w 0 5 - max (runMax neg w 0 5) (runMax neg w 1 5))
        + runSum neg w 1 5 * Ideal.exp (runMax neg w 1 5 - max (runMax neg w 0 5) (runMax neg w 1 5)))

/-- The reference's row maximum: -∞ joined with the fold. -/
def refMax (w : Fin 32000 → EReal) : EReal := max ⊥ (foldMax w)

/-! ### The row as halves, tiles and lanes -/

/-- Position `(5c + n)·3200 + j` of the row. -/
private def pos (c : Fin 2) (n : Fin 5) (j : Fin 3200) : Fin 32000 :=
  ⟨(c.val * 5 + n.val) * 3200 + j.val, by have := c.isLt; have := n.isLt; have := j.isLt; omega⟩

/-- Half, tile and lane determine the position and conversely. -/
private def posEquiv : Fin 2 × Fin 5 × Fin 3200 ≃ Fin 32000 where
  toFun p := pos p.1 p.2.1 p.2.2
  invFun v := (⟨v.val / 16000, by have := v.isLt; omega⟩, ⟨v.val / 3200 % 5, by omega⟩, ⟨v.val % 3200, by omega⟩)
  left_inv := by
    rintro ⟨c, n, j⟩
    have := c.isLt; have := n.isLt; have := j.isLt
    simp only [pos, Prod.mk.injEq, Fin.ext_iff]
    refine ⟨?_, ?_, ?_⟩ <;> omega
  right_inv := by
    intro v
    have := v.isLt
    simp only [pos, Fin.ext_iff]
    omega

/-- A sum over the row, in any commutative monoid, is the sum over halves, tiles and lanes. -/
private theorem sum_pos {α : Type*} [AddCommMonoid α] (f : Fin 32000 → α) :
    ∑ v, f v = ∑ c : Fin 2, ∑ n : Fin 5, ∑ j : Fin 3200, f (pos c n j) := by
  rw [← posEquiv.sum_comp f, Fintype.sum_prod_type]
  refine Finset.sum_congr rfl fun c _ => ?_
  rw [Fintype.sum_prod_type]
  rfl

private theorem tile_pos (w : Fin 32000 → EReal) (c : Fin 2) (n : Fin 5) (j : Fin 3200) :
    tile w c n.val j = w (pos c n j) := by
  unfold tile
  rw [dif_pos n.isLt]
  rfl

private theorem sum_half (f : Fin 32000 → EReal) (c : Fin 2) :
    ∑ n : Fin 5, ∑ j : Fin 3200, f (pos c n j) = ∑ n ∈ Finset.range 5, ∑ j : Fin 3200, tile f c n j := by
  rw [Finset.sum_range]
  refine Finset.sum_congr rfl fun n _ => Finset.sum_congr rfl fun j _ => ?_
  exact (tile_pos f c n j).symm

/-! ### Finite logits: everything is a real number -/

/-- The inclusion of the reals commutes with finite sums. -/
private theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

private theorem coe_max (a b : ℝ) : ((max a b : ℝ) : EReal) = max (a : EReal) (b : EReal) :=
  EReal.coe_strictMono.monotone.map_max

private theorem exp_sub_coe (a b : ℝ) :
    Ideal.exp ((a : EReal) - (b : EReal)) = ((Real.exp (a - b) : ℝ) : EReal) := by
  rw [← EReal.coe_sub]
  rfl

private theorem log_coe_pos (x : ℝ) (hx : 0 < x) : Ideal.log (x : EReal) = ((Real.log x : ℝ) : EReal) := by
  rw [Ideal.log_coe, if_neg (not_le.mpr hx)]

/-- The maximum of a nonempty finite family of reals is one of them, so it is a real. -/
private theorem foldMax_coe {n : ℕ} (hn : 0 < n) (g : Fin n → ℝ) :
    ∃ m : ℝ, foldMax (fun j => (g j : EReal)) = (m : EReal) := by
  haveI : Nonempty (Fin n) := ⟨⟨0, hn⟩⟩
  obtain ⟨i, -, hi⟩ :=
    Finset.exists_mem_eq_sup (Finset.univ : Finset (Fin n)) Finset.univ_nonempty (fun j => (g j : EReal))
  exact ⟨g i, hi⟩

/-- The real tile of a real row. -/
private def tileR (r : Fin 32000 → ℝ) (c : Fin 2) (n : ℕ) (j : Fin 3200) : ℝ :=
  if h : n < 5 then r ⟨(c.val * 5 + n) * 3200 + j.val, by have := c.isLt; have := j.isLt; omega⟩ else 0

private theorem tile_coe (r : Fin 32000 → ℝ) (c : Fin 2) (n : ℕ) (j : Fin 3200) :
    tile (fun v => (r v : EReal)) c n j = (tileR r c n j : EReal) := by
  unfold tile tileR
  split
  · rfl
  · rfl

private theorem tileR_pos (r : Fin 32000 → ℝ) (c : Fin 2) (n : Fin 5) (j : Fin 3200) :
    tileR r c n.val j = r (pos c n j) := by
  unfold tileR
  rw [dif_pos n.isLt]
  rfl

/-- Every running maximum is a real. -/
private theorem runMax_real (neg : ℝ) (r : Fin 32000 → ℝ) (c : Fin 2) :
    ∀ n, ∃ m : ℝ, runMax (neg : EReal) (fun v => (r v : EReal)) c n = (m : EReal)
  | 0 => ⟨neg, rfl⟩
  | n + 1 => by
    obtain ⟨m, hm⟩ := runMax_real neg r c n
    obtain ⟨m', hm'⟩ := foldMax_coe (by norm_num : 0 < 3200) (tileR r c n)
    have ht : tile (fun v => (r v : EReal)) c n = fun j => (tileR r c n j : EReal) := funext (tile_coe r c n)
    refine ⟨max m m', ?_⟩
    rw [runMax, hm, ht, hm', coe_max]

/-- The running sum after `n` tiles is the sum of the exponentials of those tiles relative to the running maximum. -/
private theorem runSum_real (neg : ℝ) (r : Fin 32000 → ℝ) (c : Fin 2) (m : ℕ → ℝ)
    (hm : ∀ n, runMax (neg : EReal) (fun v => (r v : EReal)) c n = (m n : EReal)) :
    ∀ n, runSum (neg : EReal) (fun v => (r v : EReal)) c n
      = ((∑ k ∈ Finset.range n, ∑ j : Fin 3200, Real.exp (tileR r c k j - m n) : ℝ) : EReal)
  | 0 => by simp [runSum]
  | n + 1 => by
    rw [runSum, runSum_real neg r c m hm n, hm n, hm (n + 1)]
    simp only [tile_coe, exp_sub_coe]
    rw [← coe_sum, ← EReal.coe_mul, ← EReal.coe_add, Finset.sum_range_succ, Finset.sum_mul]
    congr 2
    refine Finset.sum_congr rfl fun k _ => ?_
    rw [Finset.sum_mul]
    refine Finset.sum_congr rfl fun j _ => ?_
    rw [← Real.exp_add]
    congr 1
    ring

/-- `m + log (∑ exp (r - m))` does not depend on the real `m`. -/
private theorem lse_shift {ι : Type*} [Fintype ι] [Nonempty ι] (r : ι → ℝ) (m : ℝ) :
    m + Real.log (∑ v, Real.exp (r v - m)) = Real.log (∑ v, Real.exp (r v)) := by
  have hpos : 0 < ∑ v, Real.exp (r v) := Finset.sum_pos (fun v _ => Real.exp_pos _) Finset.univ_nonempty
  have h : ∑ v, Real.exp (r v - m) = (∑ v, Real.exp (r v)) * Real.exp (-m) := by
    rw [Finset.sum_mul]
    refine Finset.sum_congr rfl fun v _ => ?_
    rw [← Real.exp_add, sub_eq_add_neg]
  rw [h, Real.log_mul hpos.ne' (Real.exp_pos _).ne', Real.log_exp]
  ring

private theorem sum_exp_pos (r : Fin 32000 → ℝ) (m : ℝ) : 0 < ∑ v, Real.exp (r v - m) :=
  Finset.sum_pos (fun v _ => Real.exp_pos _) Finset.univ_nonempty

/-- One half's rescaled running sum is the half's sum of exponentials relative to the merged maximum. -/
private theorem half_sum (r : Fin 32000 → ℝ) (c : Fin 2) (a M : ℝ) :
    (∑ k ∈ Finset.range 5, ∑ j : Fin 3200, Real.exp (tileR r c k j - a)) * Real.exp (a - M)
      = ∑ n : Fin 5, ∑ j : Fin 3200, Real.exp (r (pos c n j) - M) := by
  rw [Finset.sum_range, Finset.sum_mul]
  refine Finset.sum_congr rfl fun n _ => ?_
  rw [Finset.sum_mul]
  refine Finset.sum_congr rfl fun j _ => ?_
  rw [← Real.exp_add, tileR_pos]
  congr 1
  ring

/-- The online log-sum-exp of a real row is the logarithm of the sum of its exponentials. -/
private theorem lseOnline_real (neg : ℝ) (r : Fin 32000 → ℝ) :
    lseOnline (neg : EReal) (fun v => (r v : EReal)) = ((Real.log (∑ v, Real.exp (r v)) : ℝ) : EReal) := by
  choose m0 hm0 using runMax_real neg r 0
  choose m1 hm1 using runMax_real neg r 1
  unfold lseOnline
  rw [runSum_real neg r 0 m0 hm0 5, runSum_real neg r 1 m1 hm1 5, hm0 5, hm1 5, ← coe_max,
    exp_sub_coe, exp_sub_coe, ← EReal.coe_mul, ← EReal.coe_mul, ← EReal.coe_add,
    half_sum, half_sum, ← Fin.sum_univ_two (fun c => ∑ n : Fin 5, ∑ j : Fin 3200, Real.exp (r (pos c n j) - max (m0 5) (m1 5))),
    ← sum_pos (fun v => Real.exp (r v - max (m0 5) (m1 5))),
    log_coe_pos _ (sum_exp_pos r _), ← EReal.coe_add, lse_shift]

/-- The reference's row maximum of a real row is a real. -/
private theorem refMax_real (r : Fin 32000 → ℝ) : ∃ R : ℝ, refMax (fun v => (r v : EReal)) = (R : EReal) := by
  obtain ⟨R, hR⟩ := foldMax_coe (by norm_num : 0 < 32000) r
  exact ⟨R, by rw [refMax, hR, max_eq_right bot_le]⟩

/-- The two log-softmaxes agree on a row of finite logits, whatever finite number the running maximum starts from. -/
theorem logSoftmax_online (neg : ℝ) (w : Fin 32000 → EReal) (hw : ∀ v, ∃ r : ℝ, w v = (r : EReal)) (v : Fin 32000) :
    w v - lseOnline (neg : EReal) w
      = (w v - refMax w) - Ideal.log (0 + ∑ v' : Fin 32000, Ideal.exp (w v' - refMax w)) := by
  obtain ⟨r, rfl⟩ : ∃ r : Fin 32000 → ℝ, w = fun v => (r v : EReal) := by
    choose r hr using hw
    exact ⟨r, funext hr⟩
  obtain ⟨R, hR⟩ := refMax_real r
  rw [lseOnline_real, hR, zero_add]
  simp only [exp_sub_coe]
  rw [← coe_sum, log_coe_pos _ (sum_exp_pos r R), ← EReal.coe_sub, ← EReal.coe_sub, ← EReal.coe_sub]
  have h := lse_shift r R
  exact congrArg _ (by linarith)

/-- A sum over the row is the sum over its two halves of five tiles of 3200 lanes (addition on the extended reals is
    commutative and associative; no finiteness is needed). -/
theorem sum_tiles (f : Fin 32000 → EReal) :
    ∑ v : Fin 32000, f v
      = (∑ n ∈ Finset.range 5, ∑ j : Fin 3200, tile f 0 n j) + (∑ n ∈ Finset.range 5, ∑ j : Fin 3200, tile f 1 n j) := by
  rw [← sum_half f 0, ← sum_half f 1]
  exact (sum_pos f).trans (Fin.sum_univ_two _)

end Cert.OnlineSoftmax

end
-- ==== Proof.KI.V1Blk.lean ====
/-
  The second pallas_call's blocks read off the region's arrays: at point t (tile t mod 5 of half t div 5) the hidden
  layer's block is the whole hidden layer, the second weight matrix's block is its rows t·3200 …, the bias block the bias
  at those positions. The raw logit of batch row b at vocabulary position v is the hidden row against row v of the second
  weight matrix, plus the bias.
-/
import proofs.«416662_j60241211293750_3_alg».proof.Proof.KI.R1Base
import proofs.«416662_j60241211293750_3_alg».proof.Proof.KI.V0
import proofs.«416662_j60241211293750_3_alg».proof.Proof.LibOnlineSoftmax

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem idx1_0 : ∀ t : Fin cfg1.N, win1_0.index t 0 = 0 ∧ win1_0.index t 1 = 0 :=
  (by decide +kernel : ∀ t : Fin grid1.N, win1_0.index t 0 = 0 ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = t.val :=
  (by decide +kernel : ∀ t : Fin grid1.N, win1_2.index t 0 = 0 ∧ win1_2.index t 1 = t.val)
theorem idx1_3 : ∀ t : Fin cfg1.N, win1_3.index t 0 = 0 ∧ win1_3.index t 1 = t.val :=
  (by decide +kernel : ∀ t : Fin grid1.N, win1_3.index t 0 = 0 ∧ win1_3.index t 1 = t.val)
theorem idx1_4 : ∀ t : Fin cfg1.N, win1_4.index t 0 = t.val / 5 ∧ win1_4.index t 1 = 0 ∧ win1_4.index t 2 = 0 :=
  (by decide +kernel : ∀ t : Fin grid1.N, win1_4.index t 0 = t.val / 5 ∧ win1_4.index t 1 = 0 ∧ win1_4.index t 2 = 0)
theorem idx1_5 : ∀ t : Fin cfg1.N, win1_5.index t 0 = t.val / 5 ∧ win1_5.index t 1 = 0 ∧ win1_5.index t 2 = 0 :=
  (by decide +kernel : ∀ t : Fin grid1.N, win1_5.index t 0 = t.val / 5 ∧ win1_5.index t 1 = 0 ∧ win1_5.index t 2 = 0)

/-- The hidden layer, the second weight matrix and the second bias (as a row) as the region finds them. -/
abbrev hidarr (c : Dev nD) : Vec Ideal S64x256 .f32 := V c main_v9
abbrev w2arr (c : Dev nD) : Vec Ideal S32000x256 .f32 := V c main_arg3
abbrev b2arr (c : Dev nD) : Vec Ideal S1x32000 .f32 := V c main_v10

abbrev hblk (c : Dev nD) (t : Fin cfg1.N) : Vec Ideal S64x256 .f32 := iblk1 V c 0 t
abbrev w2blk (c : Dev nD) (t : Fin cfg1.N) : Vec Ideal S3200x256 .f32 := iblk1 V c 1 t
abbrev bblk (c : Dev nD) (t : Fin cfg1.N) : Vec Ideal S1x3200 .f32 := iblk1 V c 2 t

theorem hblk_apply (c : Dev nD) (t : Fin cfg1.N) (b : Fin 64) (d : Fin 256) :
    hblk V c t (ix2 b d) = hidarr V c (ix2 b d) := by
  have hi := idx1_0 t
  unfold hblk iblk1
  rw [View.read_apply]
  show V c main_v9 _ = V c main_v9 _
  congr 1
  funext a
  apply Fin.ext
  match a with
  | ⟨0, _⟩ => show win1_0.index t 0 * 64 + 1 * (b : Nat) = (b : Nat); rw [hi.1]; omega
  | ⟨1, _⟩ => show win1_0.index t 1 * 256 + 1 * (d : Nat) = (d : Nat); rw [hi.2]; omega

theorem w2blk_apply (c : Dev nD) (t : Fin cfg1.N) (j : Fin 3200) (d : Fin 256) :
    w2blk V c t (ix2 j d) = w2arr V c (ix2 (vpos t.val j) d) := by
  have hN : t.val < 10 := lt_of_lt_of_eq t.isLt (show cfg1.N = 10 from N_1)
  have hi := idx1_1 t
  unfold w2blk iblk1
  rw [View.read_apply]
  show V c main_arg3 _ = V c main_arg3 _
  congr 1
  funext a
  apply Fin.ext
  match a with
  | ⟨0, _⟩ => show win1_1.index t 0 * 3200 + 1 * (j : Nat) = (t.val % 10) * 3200 + (j : Nat); rw [hi.1, Nat.mod_eq_of_lt hN]; omega
  | ⟨1, _⟩ => show win1_1.index t 1 * 256 + 1 * (d : Nat) = (d : Nat); rw [hi.2]; omega

theorem bblk_apply (c : Dev nD) (t : Fin cfg1.N) (j : Fin 3200) :
    bblk V c t (ix2 (0 : Fin 1) j) = b2arr V c (ix2 (0 : Fin 1) (vpos t.val j)) := by
  have hN : t.val < 10 := lt_of_lt_of_eq t.isLt (show cfg1.N = 10 from N_1)
  have hi := idx1_2 t
  unfold bblk iblk1
  rw [View.read_apply]
  show V c main_v10 _ = V c main_v10 _
  congr 1
  funext a
  apply Fin.ext
  match a with
  | ⟨0, _⟩ => show win1_2.index t 0 * 1 + 1 * ((0 : Fin 1) : Nat) = ((0 : Fin 1) : Nat); rw [hi.1]; simp
  | ⟨1, _⟩ => show win1_2.index t 1 * 3200 + 1 * (j : Nat) = (t.val % 10) * 3200 + (j : Nat); rw [hi.2, Nat.mod_eq_of_lt hN]; omega

/-- The raw logit of row `b` at position `v`. -/
def rawlogit (c : Dev nD) (b : Fin 64) (v : Fin 32000) : EReal :=
  (∑ d : Fin 256, hidarr V c (ix2 b d) * w2arr V c (ix2 v d)) + b2arr V c (ix2 (0 : Fin 1) v)

/-- Position `j` of tile `t` is lane `j` of tile `t mod 5` of half `t div 5`. -/
theorem tile_vpos (w : Fin 32000 → EReal) (t : ℕ) (ht : t < 10) (j : Fin 3200) :
    w (vpos t j) = Cert.OnlineSoftmax.tile w ⟨t / 5, by omega⟩ (t % 5) j := by
  unfold Cert.OnlineSoftmax.tile
  rw [dif_pos (by omega : t % 5 < 5)]
  refine congrArg w (Fin.ext ?_)
  show (t % 10) * 3200 + j.val = (t / 5 * 5 + t % 5) * 3200 + j.val
  rw [Nat.mod_eq_of_lt ht]
  have : t / 5 * 5 + t % 5 = t := by omega
  rw [this]

end Cert.KernelIdeal.Val

end
-- ==== Proof.KI.V1Pay.lean ====
/-
  The second and third pallas_calls' arithmetic read at an index, over the extended reals. A tile's logits at (b, j) are
  the sum over the 256 hidden positions d of the hidden state at (b, d) times the second weight matrix's entry (j, d), plus
  the bias at j; the new running maximum of row b is the old one joined with the maximum of the tile's 3200 logits; the new
  running sum is the old one rescaled by the exponential of (old maximum minus new maximum) plus the sum of the exponentials
  of (logit minus new maximum); the two running values start from a finite number and from zero, and are copied out under
  a leading unit axis; the third call subtracts the row's log-sum-exp from every logit of the row.
-/
import proofs.«416662_j60241211293750_3_alg».proof.Proof.Gen.KernelIdeal.Skeleton
import Idealize.ShloMosaic.Lib.Pipeline.Value
import Idealize.ShloMosaic.Lib.ValueIdx
import Idealize.ShloMosaic.PureOps.Ideal.Laws
import proofs.«416662_j60241211293750_3_alg».proof.Proof.Consts
import proofs.«416662_j60241211293750_3_alg».proof.Proof.LibOnlineSoftmax

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

theorem lhs1_0 (i : S64x3200.Idx) (q : dot_S64x256_S3200x256_S64x3200_1_1_0_0_n_n.contr.Idx) :
    (dot_S64x256_S3200x256_S64x3200_1_1_0_0_n_n.lhsIdx i q 0).val = (i 0).val := by
  unfold DotDims.lhsIdx
  rw [dif_neg (show ¬(0 : Fin S64x256.rank) ∈ dot_S64x256_S3200x256_S64x3200_1_1_0_0_n_n.lhsBatch by decide), dif_pos (show (0 : Fin S64x256.rank) ∈ dot_S64x256_S3200x256_S64x3200_1_1_0_0_n_n.lhsNonContracting by decide)]
  rfl
theorem lhs1_1 (i : S64x3200.Idx) (q : dot_S64x256_S3200x256_S64x3200_1_1_0_0_n_n.contr.Idx) :
    (dot_S64x256_S3200x256_S64x3200_1_1_0_0_n_n.lhsIdx i q 1).val = (q ⟨0, by decide⟩).val :=
  dot_S64x256_S3200x256_S64x3200_1_1_0_0_n_n.lhsIdx_val_of_single rfl i q
theorem rhs1_0 (i : S64x3200.Idx) (q : dot_S64x256_S3200x256_S64x3200_1_1_0_0_n_n.contr.Idx) :
    (dot_S64x256_S3200x256_S64x3200_1_1_0_0_n_n.rhsIdx i q 0).val = (i 1).val := by
  unfold DotDims.rhsIdx
  rw [dif_neg (show ¬(0 : Fin S3200x256.rank) ∈ dot_S64x256_S3200x256_S64x3200_1_1_0_0_n_n.rhsBatch by decide), dif_pos (show (0 : Fin S3200x256.rank) ∈ dot_S64x256_S3200x256_S64x3200_1_1_0_0_n_n.rhsNonContracting by decide)]
  rfl
theorem rhs1_1 (i : S64x3200.Idx) (q : dot_S64x256_S3200x256_S64x3200_1_1_0_0_n_n.contr.Idx) :
    (dot_S64x256_S3200x256_S64x3200_1_1_0_0_n_n.rhsIdx i q 1).val = (q ⟨0, by decide⟩).val :=
  dot_S64x256_S3200x256_S64x3200_1_1_0_0_n_n.rhsIdx_val_of_single rfl i q

/-- The tile's matrix product into a zero accumulator, at (b, j): the sum over the hidden positions. -/
theorem matmul1_apply (l : FVec Ideal S64x256 .bf16) (r : FVec Ideal S3200x256 .bf16) (b : Fin 64) (j : Fin 3200) :
    matmul dot_S64x256_S3200x256_S64x3200_1_1_0_0_n_n none l r (constant S64x3200 .f32 0x00000000#32) (ix2 b j)
      = ∑ d : Fin 256, l (ix2 b d) * r (ix2 j d) := by
  simp only [matmul]
  rw [Ideal.matmul_constant_zero_apply, ← Equiv.sum_comp (ValueIdx.contrEquiv1 dot_S64x256_S3200x256_S64x3200_1_1_0_0_n_n 256 rfl rfl).symm]
  refine Finset.sum_congr rfl fun k _ => ?_
  have hk := ValueIdx.contrEquiv1_symm_val dot_S64x256_S3200x256_S64x3200_1_1_0_0_n_n 256 rfl rfl k
  have el : dot_S64x256_S3200x256_S64x3200_1_1_0_0_n_n.lhsIdx (ix2 b j) ((ValueIdx.contrEquiv1 dot_S64x256_S3200x256_S64x3200_1_1_0_0_n_n 256 rfl rfl).symm k) = ix2 b k := funext fun a => Fin.ext (by
    match a with
    | ⟨0, _⟩ => exact lhs1_0 _ _
    | ⟨1, _⟩ => exact (lhs1_1 _ _).trans hk)
  have er : dot_S64x256_S3200x256_S64x3200_1_1_0_0_n_n.rhsIdx (ix2 b j) ((ValueIdx.contrEquiv1 dot_S64x256_S3200x256_S64x3200_1_1_0_0_n_n 256 rfl rfl).symm k) = ix2 j k := funext fun a => Fin.ext (by
    match a with
    | ⟨0, _⟩ => exact rhs1_0 _ _
    | ⟨1, _⟩ => exact (rhs1_1 _ _).trans hk)
  rw [el, er]

/-- The bias row broadcast over the 64 rows, at (b, j). -/
theorem biasBcast_apply (x : FVec Ideal S1x3200 .f32) (b : Fin 64) (j : Fin 3200) :
    broadcastTo S64x3200 x broadcasts_S1x3200_S64x3200 (ix2 b j) = x (ix2 (0 : Fin 1) j) := by
  refine broadcastTo_apply x broadcasts_S1x3200_S64x3200 (ix2 b j) (ix2 (0 : Fin 1) j) fun a => ?_
  match a with
  | ⟨0, _⟩ => rfl
  | ⟨1, _⟩ => rfl

/-- A tile's logits at (b, j). -/
theorem logits_apply (h : Vec Ideal S64x256 .f32) (w : Vec Ideal S3200x256 .f32) (bias : Vec Ideal S1x3200 .f32) (b : Fin 64) (j : Fin 3200) :
    k1_pay6 (F := Ideal) h w bias (ix2 b j) = (∑ d : Fin 256, h (ix2 b d) * w (ix2 j d)) + bias (ix2 (0 : Fin 1) j) := by
  unfold k1_pay6
  simp only [shapeCast_self]
  refine (addf_apply _ _ _).trans ?_
  rw [biasBcast_apply]
  refine congrArg (· + bias (ix2 (0 : Fin 1) j)) ?_
  refine (matmul1_apply _ _ b j).trans ?_
  refine Finset.sum_congr rfl fun d _ => ?_
  simp only [truncf_apply]

/-- The maximum over a row's 3200 lanes, at b: the fold of max from minus infinity. -/
theorem rowmax1_apply (x : FVec Ideal S64x3200 .f32) (hacc : (0xFF800000#32 : BitVec 32) = 0xFF800000#32) (b : Fin 64) :
    multiReduction .maximumf [1] S64 x 0xFF800000#32 reduces_S64x3200_S64 (.inl rfl) hacc (ix1 b)
      = Cert.OnlineSoftmax.foldMax fun j : Fin 3200 => x (ix2 b j) := by
  refine (Ideal.multiReduction_maximumf_single x 0xFF800000#32 reduces_S64x3200_S64 (.inl rfl) hacc (ix1 b)).trans ?_
  unfold Cert.OnlineSoftmax.foldMax
  have e0 : (FloatOps.ofBits .f32 0xFF800000#32 : Ideal .f32) = (⊥ : EReal) := Cert.Consts.ofBits_neg_inf
  have e1 : (x ∘ reduces_S64x3200_S64.lift (ix1 b)) = fun j : Fin 3200 => x (ix2 b j) := funext fun j => congrArg x (funext fun a => Fin.ext (by
    match a with
    | ⟨0, _⟩ => rfl
    | ⟨1, _⟩ => rfl))
  rw [e0, e1]
  rfl

/-- The sum over a row's 3200 lanes, at b. -/
theorem rowsum1_apply (x : FVec Ideal S64x3200 .f32) (hacc : (0x00000000#32 : BitVec 32) = 0x00000000#32) (b : Fin 64) :
    multiReduction .add [1] S64 x 0x00000000#32 reduces_S64x3200_S64 (.inl rfl) hacc (ix1 b)
      = ∑ j : Fin 3200, x (ix2 b j) := by
  refine (Ideal.multiReduction_add_single x 0x00000000#32 reduces_S64x3200_S64 (.inl rfl) hacc (ix1 b)).trans ?_
  refine Finset.sum_congr rfl fun j _ => congrArg x (funext fun a => Fin.ext ?_)
  match a with
  | ⟨0, _⟩ => rfl
  | ⟨1, _⟩ => rfl

/-- A vector of 64 viewed as a column, at (b, 0). -/
theorem col1_apply (v : FVec Ideal S64 .f32) (b : Fin 64) :
    shapeCast S64x1 v shapeCasts_S64_S64x1 (ix2 b (0 : Fin 1)) = v (ix1 b) := by
  refine shapeCast_apply v shapeCasts_S64_S64x1 (ix2 b (0 : Fin 1)) (ix1 b) ?_
  rw [Shape.rowMajor_val_one, Shape.rowMajor_val_two]
  show (b : Nat) = (b : Nat) * 1 + (0 : Nat)
  omega

/-- A column broadcast over the 3200 lanes, at (b, j). -/
theorem colBcast_apply (x : FVec Ideal S64x1 .f32) (b : Fin 64) (j : Fin 3200) :
    broadcastTo S64x3200 x broadcasts_S64x1_S64x3200 (ix2 b j) = x (ix2 b (0 : Fin 1)) := by
  refine broadcastTo_apply x broadcasts_S64x1_S64x3200 (ix2 b j) (ix2 b (0 : Fin 1)) fun a => ?_
  match a with
  | ⟨0, _⟩ => rfl
  | ⟨1, _⟩ => rfl

/-- A column broadcast over the 16000 positions of a half row, at (b, v). -/
theorem colBcast2_apply (x : FVec Ideal S64x1 .f32) (b : Fin 64) (v : Fin 16000) :
    broadcastTo S64x16000 x broadcasts_S64x1_S64x16000 (ix2 b v) = x (ix2 b (0 : Fin 1)) := by
  refine broadcastTo_apply x broadcasts_S64x1_S64x16000 (ix2 b v) (ix2 b (0 : Fin 1)) fun a => ?_
  match a with
  | ⟨0, _⟩ => rfl
  | ⟨1, _⟩ => rfl

/-- The new running maximum of row b: the old one joined with the maximum of the tile's logits. -/
theorem newMax_apply (h : Vec Ideal S64x256 .f32) (w : Vec Ideal S3200x256 .f32) (bias : Vec Ideal S1x3200 .f32)
    (mo : Vec Ideal S64x1 .f32) (b : Fin 64) :
    k1_pay7 (F := Ideal) h w bias mo (ix2 b (0 : Fin 1))
      = max (mo (ix2 b (0 : Fin 1))) (Cert.OnlineSoftmax.foldMax fun j : Fin 3200 => k1_pay6 (F := Ideal) h w bias (ix2 b j)) := by
  unfold k1_pay7
  refine (maximumf_apply _ _ _).trans ?_
  refine congrArg (max (mo (ix2 b (0 : Fin 1))) ·) ?_
  refine (col1_apply _ b).trans ?_
  exact rowmax1_apply _ rfl b

/-- The new running sum of row b. -/
theorem newSum_apply (h : Vec Ideal S64x256 .f32) (w : Vec Ideal S3200x256 .f32) (bias : Vec Ideal S1x3200 .f32)
    (mo mo' lo : Vec Ideal S64x1 .f32) (b : Fin 64) :
    k1_pay8 (F := Ideal) h w bias mo mo' lo (ix2 b (0 : Fin 1))
      = lo (ix2 b (0 : Fin 1)) * Ideal.exp (mo' (ix2 b (0 : Fin 1)) - k1_pay7 (F := Ideal) h w bias mo (ix2 b (0 : Fin 1)))
        + ∑ j : Fin 3200, Ideal.exp (k1_pay6 (F := Ideal) h w bias (ix2 b j) - k1_pay7 (F := Ideal) h w bias mo (ix2 b (0 : Fin 1))) := by
  unfold k1_pay8
  simp only [shapeCast_self]
  refine (addf_apply _ _ _).trans ?_
  refine congrArg₂ (· + ·) ?_ ?_
  · rfl
  · refine (col1_apply _ b).trans ?_
    refine (rowsum1_apply _ rfl b).trans ?_
    refine Finset.sum_congr rfl fun j _ => ?_
    show Ideal.exp (k1_pay6 (F := Ideal) h w bias (ix2 b j) - broadcastTo S64x3200 (k1_pay7 (F := Ideal) h w bias mo) broadcasts_S64x1_S64x3200 (ix2 b j)) = _
    rw [colBcast_apply]

/-- The running maximum starts from the kernel's finite stand-in for minus infinity. -/
theorem negInit_apply (i : S64x1.Idx) : k1_pay4 (F := Ideal) i = Ideal.ofBits .f32 0xFF333332#32 := by
  unfold k1_pay4
  simp only [shapeCast_self]
  rfl

/-- The running sum starts from zero. -/
theorem zeroInit_apply (i : S64x1.Idx) : k1_pay5 (F := Ideal) i = 0 := by
  unfold k1_pay5
  simp only [shapeCast_self]
  exact Ideal.ofBits_zero_f32

/-- The running maximum is stored back unchanged. -/
theorem keepMax_eq (v : FVec Ideal S64x1 .f32) : k1_pay1 (F := Ideal) v = v := by
  unfold k1_pay1
  exact shapeCast_self _ _

/-- The output block of maxima (a leading unit axis) holds the running maximum. -/
theorem copyMax_apply (v : Vec Ideal S64x1 .f32) (b : Fin 64) :
    k1_pay2 (F := Ideal) v (ix3 (0 : Fin 1) b (0 : Fin 1)) = v (ix2 b (0 : Fin 1)) := by
  unfold k1_pay2
  refine (shapeCast_apply v shapeCasts_S64x1_S1x64x1 (ix3 (0 : Fin 1) b (0 : Fin 1)) (ix2 b (0 : Fin 1)) ?_)
  rw [Shape.rowMajor_val_two, Shape.rowMajor_val_three]
  show (b : Nat) * 1 + (0 : Nat) = ((0 : Nat) * 64 + (b : Nat)) * 1 + (0 : Nat)
  omega

/-- The output block of sums (a leading unit axis) holds the running sum. -/
theorem copySum_apply (v : Vec Ideal S64x1 .f32) (b : Fin 64) :
    k1_pay3 (F := Ideal) v (ix3 (0 : Fin 1) b (0 : Fin 1)) = v (ix2 b (0 : Fin 1)) := by
  unfold k1_pay3
  refine (shapeCast_apply v shapeCasts_S64x1_S1x64x1 (ix3 (0 : Fin 1) b (0 : Fin 1)) (ix2 b (0 : Fin 1)) ?_)
  rw [Shape.rowMajor_val_two, Shape.rowMajor_val_three]
  show (b : Nat) * 1 + (0 : Nat) = ((0 : Nat) * 64 + (b : Nat)) * 1 + (0 : Nat)
  omega

/-- The third call subtracts the row's value from every entry of the row. -/
theorem normalize_apply (x : Vec Ideal S64x16000 .f32) (l : Vec Ideal S64x1 .f32) (b : Fin 64) (v : Fin 16000) :
    k2_pay1 (F := Ideal) x l (ix2 b v) = x (ix2 b v) - l (ix2 b (0 : Fin 1)) := by
  unfold k2_pay1
  simp only [shapeCast_self]
  refine (subf_apply _ _ _).trans ?_
  rw [colBcast2_apply]

end Cert.KernelIdeal.Val

end
-- ==== Proof.KI.V1.lean ====
/-
  The second pallas_call as values over the extended reals. At point t (tile t mod 5 of half t div 5) the stored tile is
  the raw logits at the tile's positions; the two carried buffers hold, after point t, the half's running maximum and
  running rescaled sum of exponentials over the tiles seen so far, started from the finite stand-in; the maximum and sum
  blocks of a half are written back after its last tile. So the three output arrays are: the raw logits; per half and row
  the running maximum after five tiles; per half and row the running sum after five tiles.
-/
import proofs.«416662_j60241211293750_3_alg».proof.Proof.KI.V1Pieces
import proofs.«416662_j60241211293750_3_alg».proof.Proof.KI.V1Blk
import proofs.«416662_j60241211293750_3_alg».proof.Proof.KI.V1Pay

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

open Cert.OnlineSoftmax (tile foldMax runMax runSum)

variable (V : (c : Dev nD) → (b : Ref sig .tc) → Buf (Elt Ideal) ((c : Thread nD τ).loc b))

/-- The finite number the running maximum starts from. -/
abbrev negv : EReal := Ideal.ofBits .f32 0xFF333332#32

/-- The half a point belongs to. -/
abbrev half (n : ℕ) : Fin 2 := ⟨n / 5 % 2, Nat.mod_lt _ (by decide)⟩

theorem tile_vpos' (w : Fin 32000 → EReal) (t : ℕ) (ht : t < 10) (j : Fin 3200) :
    w (vpos t j) = tile w (half t) (t % 5) j := by
  rw [tile_vpos w t ht j]
  refine congrArg (fun u => tile w u (t % 5) j) (Fin.ext ?_)
  show t / 5 = t / 5 % 2
  omega

/-- The stored tile at (b, j): the raw logit of row b at the tile's position j. -/
theorem tile_apply (c : Dev nD) (t : Fin cfg1.N) (b : Fin 64) (j : Fin 3200) :
    k1_pay6 (F := Ideal) (hblk V c t) (w2blk V c t) (bblk V c t) (ix2 b j) = rawlogit V c b (vpos t.val j) := by
  rw [logits_apply, bblk_apply]
  unfold rawlogit
  have e : (∑ d : Fin 256, hblk V c t (ix2 b d) * w2blk V c t (ix2 j d))
      = ∑ d : Fin 256, hidarr V c (ix2 b d) * w2arr V c (ix2 (vpos t.val j) d) :=
    Finset.sum_congr rfl fun d _ => by rw [hblk_apply, w2blk_apply]
  rw [e]

/-- The tile's row, as the lanes of the row's tile. -/
theorem tile_row (c : Dev nD) (t : Fin cfg1.N) (b : Fin 64) :
    (fun j : Fin 3200 => k1_pay6 (F := Ideal) (hblk V c t) (w2blk V c t) (bblk V c t) (ix2 b j)) = tile (rawlogit V c b) (half t.val) (t.val % 5) := by
  have hN : t.val < 10 := lt_of_lt_of_eq t.isLt (show cfg1.N = 10 from N_1)
  funext j
  exact (tile_apply V c t b j).trans (tile_vpos' (rawlogit V c b) t.val hN j)

/-- One step of the running maximum. -/
theorem step_max (c : Dev nD) (t : Fin cfg1.N) (mo : Vec Ideal S64x1 .f32) (b : Fin 64) :
    k1_pay1 (F := Ideal) (k1_pay7 (F := Ideal) (hblk V c t) (w2blk V c t) (bblk V c t) mo) (ix2 b (0 : Fin 1))
      = max (mo (ix2 b (0 : Fin 1))) (foldMax (tile (rawlogit V c b) (half t.val) (t.val % 5))) := by
  rw [keepMax_eq, newMax_apply, tile_row]

/-- One step of the running sum. -/
theorem step_sum (c : Dev nD) (t : Fin cfg1.N) (mo lo : Vec Ideal S64x1 .f32) (b : Fin 64) :
    k1_pay8 (F := Ideal) (hblk V c t) (w2blk V c t) (bblk V c t) mo mo lo (ix2 b (0 : Fin 1))
      = lo (ix2 b (0 : Fin 1)) * Ideal.exp (mo (ix2 b (0 : Fin 1)) - max (mo (ix2 b (0 : Fin 1))) (foldMax (tile (rawlogit V c b) (half t.val) (t.val % 5))))
        + ∑ j : Fin 3200, Ideal.exp (tile (rawlogit V c b) (half t.val) (t.val % 5) j - max (mo (ix2 b (0 : Fin 1))) (foldMax (tile (rawlogit V c b) (half t.val) (t.val % 5)))) := by
  rw [newSum_apply, newMax_apply, tile_row]
  have e : (∑ j : Fin 3200, Ideal.exp (k1_pay6 (F := Ideal) (hblk V c t) (w2blk V c t) (bblk V c t) (ix2 b j) - max (mo (ix2 b (0 : Fin 1))) (foldMax (tile (rawlogit V c b) (half t.val) (t.val % 5)))))
      = ∑ j : Fin 3200, Ideal.exp (tile (rawlogit V c b) (half t.val) (t.val % 5) j - max (mo (ix2 b (0 : Fin 1))) (foldMax (tile (rawlogit V c b) (half t.val) (t.val % 5)))) :=
    Finset.sum_congr rfl fun j _ => by rw [congrFun (tile_row V c t b) j]
  rw [e]

/-- After point `n` the two carried buffers hold, in row b, the half's running maximum and running sum after n mod 5 + 1 tiles. -/
theorem scr_eq (c : Dev nD) : ∀ (n : ℕ) (h : n < cfg1.N) (b : Fin 64),
    (outsAt1 V c n h).2.2.2.1 (ix2 b (0 : Fin 1)) = runMax negv (rawlogit V c b) (half n) (n % 5 + 1)
    ∧ (outsAt1 V c n h).2.2.2.2 (ix2 b (0 : Fin 1)) = runSum negv (rawlogit V c b) (half n) (n % 5 + 1)
  | 0, h, b => by
    rw [outsAt1_A V c ⟨0, h⟩ rfl (by show ¬ (0 % 5 = 4); decide)]
    dsimp only
    rw [max_A, sum_A]
    refine ⟨(step_max V c ⟨0, h⟩ _ b).trans ?_, (step_sum V c ⟨0, h⟩ _ _ b).trans ?_⟩
    · rw [negInit_apply]; rfl
    · rw [negInit_apply, zeroInit_apply]; rfl
  | n + 1, h, b => by
    have hN : n + 1 < 10 := lt_of_lt_of_eq h (show cfg1.N = 10 from N_1)
    by_cases h0 : (n + 1) % 5 = 0
    · have h1 : ¬ (n + 1) % 5 = 4 := by omega
      rw [outsAt1_A V c ⟨n + 1, h⟩ h0 h1]
      dsimp only
      rw [max_A, sum_A]
      refine ⟨(step_max V c ⟨n + 1, h⟩ _ b).trans ?_, (step_sum V c ⟨n + 1, h⟩ _ _ b).trans ?_⟩
      · rw [negInit_apply]; show _ = runMax negv (rawlogit V c b) (half (n + 1)) ((n + 1) % 5 + 1); rw [h0]; rfl
      · rw [negInit_apply, zeroInit_apply]; show _ = runSum negv (rawlogit V c b) (half (n + 1)) ((n + 1) % 5 + 1); rw [h0]; rfl
    · obtain ⟨ihm, ihl⟩ := scr_eq c n (Nat.lt_of_succ_lt h) b
      have hm : (n + 1) % 5 = n % 5 + 1 := by omega
      have hh : half (n + 1) = half n := Fin.ext (by show (n + 1) / 5 % 2 = n / 5 % 2; omega)
      have hstep : (outsAt1 V c (n + 1) h).2.2.2.1 (ix2 b (0 : Fin 1))
            = max ((outsAt1 V c n (Nat.lt_of_succ_lt h)).2.2.2.1 (ix2 b (0 : Fin 1))) (foldMax (tile (rawlogit V c b) (half (n + 1)) ((n + 1) % 5)))
          ∧ (outsAt1 V c (n + 1) h).2.2.2.2 (ix2 b (0 : Fin 1))
            = (outsAt1 V c n (Nat.lt_of_succ_lt h)).2.2.2.2 (ix2 b (0 : Fin 1)) * Ideal.exp ((outsAt1 V c n (Nat.lt_of_succ_lt h)).2.2.2.1 (ix2 b (0 : Fin 1)) - max ((outsAt1 V c n (Nat.lt_of_succ_lt h)).2.2.2.1 (ix2 b (0 : Fin 1))) (foldMax (tile (rawlogit V c b) (half (n + 1)) ((n + 1) % 5))))
              + ∑ j : Fin 3200, Ideal.exp (tile (rawlogit V c b) (half (n + 1)) ((n + 1) % 5) j - max ((outsAt1 V c n (Nat.lt_of_succ_lt h)).2.2.2.1 (ix2 b (0 : Fin 1))) (foldMax (tile (rawlogit V c b) (half (n + 1)) ((n + 1) % 5)))) := by
        by_cases h1 : (n + 1) % 5 = 4
        · rw [outsAt1_C V c ⟨n + 1, h⟩ h0 h1]
          dsimp only
          rw [max_C, sum_C]
          exact ⟨step_max V c ⟨n + 1, h⟩ _ b, step_sum V c ⟨n + 1, h⟩ _ _ b⟩
        · rw [outsAt1_B V c ⟨n + 1, h⟩ h0 h1]
          dsimp only
          rw [max_B, sum_B]
          exact ⟨step_max V c ⟨n + 1, h⟩ _ b, step_sum V c ⟨n + 1, h⟩ _ _ b⟩
      rw [hstep.1, hstep.2, ihm, ihl, hh, hm]
      exact ⟨rfl, rfl⟩

/-! ## The three output arrays -/

/-- The raw logits. -/
def rawG (c : Dev nD) : Vec Ideal S64x32000 .f32 := fun i =>
  rawlogit V c ⟨(i 0).val, (i 0).isLt⟩ ⟨(i 1).val, (i 1).isLt⟩
/-- Per half and row, the running maximum after the half's five tiles. -/
def maxG (c : Dev nD) : Vec Ideal S2x64x1 .f32 := fun i =>
  runMax negv (rawlogit V c ⟨(i 1).val, (i 1).isLt⟩) ⟨(i 0).val, (i 0).isLt⟩ 5
/-- Per half and row, the running sum after the half's five tiles. -/
def sumG (c : Dev nD) : Vec Ideal S2x64x1 .f32 := fun i =>
  runSum negv (rawlogit V c ⟨(i 1).val, (i 1).isLt⟩) ⟨(i 0).val, (i 0).isLt⟩ 5

/-- Whatever the case, the stored tile is the tile's logits. -/
theorem tile_out (c : Dev nD) (t : Fin cfg1.N) :
    (outsAt1 V c t.val t.isLt).1 = k1_pay6 (F := Ideal) (hblk V c t) (w2blk V c t) (bblk V c t) := by
  by_cases h0 : t.val % 5 = 0
  · have h1 : ¬ t.val % 5 = 4 := by omega
    rw [outsAt1_A V c t h0 h1]; dsimp only; rw [tile_A]
  · by_cases h1 : t.val % 5 = 4
    · rw [outsAt1_C V c t h0 h1]; dsimp only; rw [tile_C]
    · rw [outsAt1_B V c t h0 h1]; dsimp only; rw [tile_B]

theorem flushed1_3 (c : Dev nD) (t : Fin cfg1.N) (hf : (cfg1.win 3).flush t = true) :
    (dat1 V c).flushed 3 t = ((cfg1.win 3).blk t).view.read (Elt Ideal) (rawG V c) := by
  have hN : t.val < 10 := lt_of_lt_of_eq t.isLt (show cfg1.N = 10 from N_1)
  have hi := idx1_3 t
  show (cfg1.win 3).cut (grid1.coords t) ((dat1 V c).after 3 t) = _
  rw [after1_3, tile_out]
  funext y
  rw [View.read_apply]
  obtain ⟨b, j, rfl⟩ : ∃ (b : Fin 64) (j : Fin 3200), y = ix2 b j := ⟨y 0, y 1, eq_ix2 y⟩
  refine (tile_apply V c t b j).trans ?_
  have e : ((cfg1.win 3).blk t).view.emb (ix2 b j) = ix2 b (vpos t.val j) := by
    funext a
    apply Fin.ext
    match a with
    | ⟨0, _⟩ => show win1_3.index t 0 * 64 + 1 * (b : Nat) = (b : Nat); rw [hi.1]; omega
    | ⟨1, _⟩ => show win1_3.index t 1 * 3200 + 1 * (j : Nat) = (t.val % 10) * 3200 + (j : Nat); rw [hi.2, Nat.mod_eq_of_lt hN]; omega
  rw [e]
  rfl

theorem raw_final (c : Dev nD) : (dat1 V c).arrAt 3 cfg1.N = rawG V c :=
  (dat1 V c).arrAt_eq_of_cover 3 (rawG V c) (flushed1_3 V c) fun i => by
    have h0 : (i 0 : Nat) < 64 := (i 0).isLt
    have h1 : (i 1 : Nat) < 32000 := (i 1).isLt
    have ht : (i 1 : Nat) / 3200 < cfg1.N := by rw [show cfg1.N = 10 from N_1]; omega
    refine ⟨⟨(i 1 : Nat) / 3200, ht⟩, flush1_3 _, ?_⟩
    have hi := idx1_3 ⟨(i 1 : Nat) / 3200, ht⟩
    show i ∈ ((View.whole main_v11_0).slice (win1_3.rect ⟨(i 1 : Nat) / 3200, ht⟩)).set
    rw [View.set_slice_whole, Rect.mem_set_unit]
    intro a
    match a with
    | ⟨0, _⟩ =>
      show win1_3.index _ 0 * win1_3.size 0 ≤ (i 0 : Nat) ∧ (i 0 : Nat) < win1_3.index _ 0 * win1_3.size 0 + win1_3.xsize (grid1.coords _) 0
      rw [hi.1]
      show 0 * 64 ≤ (i 0 : Nat) ∧ (i 0 : Nat) < 0 * 64 + 64
      omega
    | ⟨1, _⟩ =>
      show win1_3.index _ 1 * win1_3.size 1 ≤ (i 1 : Nat) ∧ (i 1 : Nat) < win1_3.index _ 1 * win1_3.size 1 + win1_3.xsize (grid1.coords _) 1
      rw [hi.2]
      show (i 1 : Nat) / 3200 * 3200 ≤ (i 1 : Nat) ∧ (i 1 : Nat) < (i 1 : Nat) / 3200 * 3200 + 3200
      omega

/-- At a last tile the maximum block is the running maximum, the sum block the running sum. -/
theorem last_out (c : Dev nD) (t : Fin cfg1.N) (h0 : ¬t.val % 5 = 0) (h1 : t.val % 5 = 4) (b : Fin 64) :
    (outsAt1 V c t.val t.isLt).2.1 (ix3 (0 : Fin 1) b (0 : Fin 1)) = (outsAt1 V c t.val t.isLt).2.2.2.1 (ix2 b (0 : Fin 1))
    ∧ (outsAt1 V c t.val t.isLt).2.2.1 (ix3 (0 : Fin 1) b (0 : Fin 1)) = (outsAt1 V c t.val t.isLt).2.2.2.2 (ix2 b (0 : Fin 1)) := by
  rw [outsAt1_C V c t h0 h1]
  dsimp only
  rw [maxOut_C, sumOut_C, max_C, sum_C]
  exact ⟨copyMax_apply _ b, copySum_apply _ b⟩

theorem emb1_4 (t : Fin cfg1.N) (b : Fin 64) : ((cfg1.win 4).blk t).view.emb (ix3 (0 : Fin 1) b (0 : Fin 1)) = ix3 (⟨t.val / 5 % 2, Nat.mod_lt _ (by decide)⟩ : Fin 2) b (0 : Fin 1) := by
  have hN : t.val < 10 := lt_of_lt_of_eq t.isLt (show cfg1.N = 10 from N_1)
  have hi := idx1_4 t
  funext a
  apply Fin.ext
  match a with
  | ⟨0, _⟩ => show win1_4.index t 0 * 1 + 1 * ((0 : Fin 1) : Nat) = t.val / 5 % 2; rw [hi.1]; simp; omega
  | ⟨1, _⟩ => show win1_4.index t 1 * 64 + 1 * (b : Nat) = (b : Nat); rw [hi.2.1]; omega
  | ⟨2, _⟩ => show win1_4.index t 2 * 1 + 1 * ((0 : Fin 1) : Nat) = ((0 : Fin 1) : Nat); rw [hi.2.2]; simp

theorem emb1_5 (t : Fin cfg1.N) (b : Fin 64) : ((cfg1.win 5).blk t).view.emb (ix3 (0 : Fin 1) b (0 : Fin 1)) = ix3 (⟨t.val / 5 % 2, Nat.mod_lt _ (by decide)⟩ : Fin 2) b (0 : Fin 1) := by
  have hN : t.val < 10 := lt_of_lt_of_eq t.isLt (show cfg1.N = 10 from N_1)
  have hi := idx1_5 t
  funext a
  apply Fin.ext
  match a with
  | ⟨0, _⟩ => show win1_5.index t 0 * 1 + 1 * ((0 : Fin 1) : Nat) = t.val / 5 % 2; rw [hi.1]; simp; omega
  | ⟨1, _⟩ => show win1_5.index t 1 * 64 + 1 * (b : Nat) = (b : Nat); rw [hi.2.1]; omega
  | ⟨2, _⟩ => show win1_5.index t 2 * 1 + 1 * ((0 : Fin 1) : Nat) = ((0 : Fin 1) : Nat); rw [hi.2.2]; simp

theorem flushed1_4 (c : Dev nD) (t : Fin cfg1.N) (hf : (cfg1.win 4).flush t = true) :
    (dat1 V c).flushed 4 t = ((cfg1.win 4).blk t).view.read (Elt Ideal) (maxG V c) := by
  have h4 : t.val % 5 = 4 := (flush1_4 t).mp hf
  have h0 : ¬ t.val % 5 = 0 := by omega
  show (cfg1.win 4).cut (grid1.coords t) ((dat1 V c).after 4 t) = _
  rw [after1_4]
  funext y
  rw [View.read_apply]
  obtain ⟨u, b, z, rfl⟩ : ∃ (u : Fin 1) (b : Fin 64) (z : Fin 1), y = ix3 u b z := ⟨y 0, y 1, y 2, eq_ix3 y⟩
  obtain rfl : u = 0 := Subsingleton.elim _ _
  obtain rfl : z = 0 := Subsingleton.elim _ _
  refine ((last_out V c t h0 h4 b).1).trans ?_
  rw [(scr_eq V c t.val t.isLt b).1, h4, emb1_4]
  rfl

theorem flushed1_5 (c : Dev nD) (t : Fin cfg1.N) (hf : (cfg1.win 5).flush t = true) :
    (dat1 V c).flushed 5 t = ((cfg1.win 5).blk t).view.read (Elt Ideal) (sumG V c) := by
  have h4 : t.val % 5 = 4 := (flush1_5 t).mp hf
  have h0 : ¬ t.val % 5 = 0 := by omega
  show (cfg1.win 5).cut (grid1.coords t) ((dat1 V c).after 5 t) = _
  rw [after1_5]
  funext y
  rw [View.read_apply]
  obtain ⟨u, b, z, rfl⟩ : ∃ (u : Fin 1) (b : Fin 64) (z : Fin 1), y = ix3 u b z := ⟨y 0, y 1, y 2, eq_ix3 y⟩
  obtain rfl : u = 0 := Subsingleton.elim _ _
  obtain rfl : z = 0 := Subsingleton.elim _ _
  refine ((last_out V c t h0 h4 b).2).trans ?_
  rw [(scr_eq V c t.val t.isLt b).2, h4, emb1_5]
  rfl

theorem max_final (c : Dev nD) : (dat1 V c).arrAt 4 cfg1.N = maxG V c :=
  (dat1 V c).arrAt_eq_of_cover 4 (maxG V c) (flushed1_4 V c) fun i => by
    have h0 : (i 0 : Nat) < 2 := (i 0).isLt
    have h1 : (i 1 : Nat) < 64 := (i 1).isLt
    have h2 : (i 2 : Nat) < 1 := (i 2).isLt
    have ht : 5 * (i 0 : Nat) + 4 < cfg1.N := by rw [show cfg1.N = 10 from N_1]; omega
    refine ⟨⟨5 * (i 0 : Nat) + 4, ht⟩, (flush1_4 _).mpr (by show (5 * (i 0 : Nat) + 4) % 5 = 4; omega), ?_⟩
    have hi := idx1_4 ⟨5 * (i 0 : Nat) + 4, ht⟩
    show i ∈ ((View.whole main_v11_1).slice (win1_4.rect ⟨5 * (i 0 : Nat) + 4, ht⟩)).set
    rw [View.set_slice_whole, Rect.mem_set_unit]
    intro a
    match a with
    | ⟨0, _⟩ =>
      show win1_4.index _ 0 * win1_4.size 0 ≤ (i 0 : Nat) ∧ (i 0 : Nat) < win1_4.index _ 0 * win1_4.size 0 + win1_4.xsize (grid1.coords _) 0
      rw [hi.1]
      show (5 * (i 0 : Nat) + 4) / 5 * 1 ≤ (i 0 : Nat) ∧ (i 0 : Nat) < (5 * (i 0 : Nat) + 4) / 5 * 1 + 1
      omega
    | ⟨1, _⟩ =>
      show win1_4.index _ 1 * win1_4.size 1 ≤ (i 1 : Nat) ∧ (i 1 : Nat) < win1_4.index _ 1 * win1_4.size 1 + win1_4.xsize (grid1.coords _) 1
      rw [hi.2.1]
      show 0 * 64 ≤ (i 1 : Nat) ∧ (i 1 : Nat) < 0 * 64 + 64
      omega
    | ⟨2, _⟩ =>
      show win1_4.index _ 2 * win1_4.size 2 ≤ (i 2 : Nat) ∧ (i 2 : Nat) < win1_4.index _ 2 * win1_4.size 2 + win1_4.xsize (grid1.coords _) 2
      rw [hi.2.2]
      show 0 * 1 ≤ (i 2 : Nat) ∧ (i 2 : Nat) < 0 * 1 + 1
      omega

theorem sum_final (c : Dev nD) : (dat1 V c).arrAt 5 cfg1.N = sumG V c :=
  (dat1 V c).arrAt_eq_of_cover 5 (sumG V c) (flushed1_5 V c) fun i => by
    have h0 : (i 0 : Nat) < 2 := (i 0).isLt
    have h1 : (i 1 : Nat) < 64 := (i 1).isLt
    have h2 : (i 2 : Nat) < 1 := (i 2).isLt
    have ht : 5 * (i 0 : Nat) + 4 < cfg1.N := by rw [show cfg1.N = 10 from N_1]; omega
    refine ⟨⟨5 * (i 0 : Nat) + 4, ht⟩, (flush1_5 _).mpr (by show (5 * (i 0 : Nat) + 4) % 5 = 4; omega), ?_⟩
    have hi := idx1_5 ⟨5 * (i 0 : Nat) + 4, ht⟩
    show i ∈ ((View.whole main_v11_2).slice (win1_5.rect ⟨5 * (i 0 : Nat) + 4, ht⟩)).set
    rw [View.set_slice_whole, Rect.mem_set_unit]
    intro a
    match a with
    | ⟨0, _⟩ =>
      show win1_5.index _ 0 * win1_5.size 0 ≤ (i 0 : Nat) ∧ (i 0 : Nat) < win1_5.index _ 0 * win1_5.size 0 + win1_5.xsize (grid1.coords _) 0
      rw [hi.1]
      show (5 * (i 0 : Nat) + 4) / 5 * 1 ≤ (i 0 : Nat) ∧ (i 0 : Nat) < (5 * (i 0 : Nat) + 4) / 5 * 1 + 1
      omega
    | ⟨1, _⟩ =>
      show win1_5.index _ 1 * win1_5.size 1 ≤ (i 1 : Nat) ∧ (i 1 : Nat) < win1_5.index _ 1 * win1_5.size 1 + win1_5.xsize (grid1.coords _) 1
      rw [hi.2.1]
      show 0 * 64 ≤ (i 1 : Nat) ∧ (i 1 : Nat) < 0 * 64 + 64
      omega
    | ⟨2, _⟩ =>
      show win1_5.index _ 2 * win1_5.size 2 ≤ (i 2 : Nat) ∧ (i 2 : Nat) < win1_5.index _ 2 * win1_5.size 2 + win1_5.xsize (grid1.coords _) 2
      rw [hi.2.2]
      show 0 * 1 ≤ (i 2 : Nat) ∧ (i 2 : Nat) < 0 * 1 + 1
      omega

end Cert.KernelIdeal.Val

end
-- ==== Proof.KI.V2.lean ====
/-
  The third pallas_call as values: each of its two points subtracts the row's log-sum-exp from a half of the raw logits
  and writes the half back; so the output array is, entry by entry, the raw logit minus its row's log-sum-exp.
-/
import proofs.«416662_j60241211293750_3_alg».proof.Proof.KI.R2
import proofs.«416662_j60241211293750_3_alg».proof.Proof.KI.V1Pay
import proofs.«416662_j60241211293750_3_alg».proof.Proof.KI.V0Pieces

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem idx2_0 : ∀ t : Fin cfg2.N, win2_0.index t 0 = 0 ∧ win2_0.index t 1 = t.val :=
  (by decide +kernel : ∀ t : Fin grid2.N, win2_0.index t 0 = 0 ∧ win2_0.index t 1 = t.val)
theorem idx2_1 : ∀ t : Fin cfg2.N, win2_1.index t 0 = 0 ∧ win2_1.index t 1 = 0 :=
  (by decide +kernel : ∀ t : Fin grid2.N, win2_1.index t 0 = 0 ∧ win2_1.index t 1 = 0)
theorem idx2_2 : ∀ t : Fin cfg2.N, win2_2.index t 0 = 0 ∧ win2_2.index t 1 = t.val :=
  (by decide +kernel : ∀ t : Fin grid2.N, win2_2.index t 0 = 0 ∧ win2_2.index t 1 = t.val)

/-- The raw logits and the rows' log-sum-exp as the region finds them. -/
abbrev rawarr (c : Dev nD) : Vec Ideal S64x32000 .f32 := V c main_v11_0
abbrev lsearr (c : Dev nD) : Vec Ideal S64x1 .f32 := V c main_v29

abbrev rawblk (c : Dev nD) (t : Fin cfg2.N) : Vec Ideal S64x16000 .f32 := iblk2 V c 0 t
abbrev lseblk (c : Dev nD) (t : Fin cfg2.N) : Vec Ideal S64x1 .f32 := iblk2 V c 1 t

/-- Position `v` of half `t`. -/
abbrev hpos (t : ℕ) (v : Fin 16000) : Fin 32000 := ⟨(t % 2) * 16000 + v.val, by have := v.isLt; have := Nat.mod_lt t (by decide : 0 < 2); omega⟩

theorem rawblk_apply (c : Dev nD) (t : Fin cfg2.N) (b : Fin 64) (v : Fin 16000) :
    rawblk V c t (ix2 b v) = rawarr V c (ix2 b (hpos t.val v)) := by
  have hN : t.val < 2 := lt_of_lt_of_eq t.isLt (show cfg2.N = 2 from N_2)
  have hi := idx2_0 t
  unfold rawblk iblk2
  rw [View.read_apply]
  show V c main_v11_0 _ = V c main_v11_0 _
  congr 1
  funext a
  apply Fin.ext
  match a with
  | ⟨0, _⟩ => show win2_0.index t 0 * 64 + 1 * (b : Nat) = (b : Nat); rw [hi.1]; omega
  | ⟨1, _⟩ => show win2_0.index t 1 * 16000 + 1 * (v : Nat) = (t.val % 2) * 16000 + (v : Nat); rw [hi.2, Nat.mod_eq_of_lt hN]; omega

theorem lseblk_apply (c : Dev nD) (t : Fin cfg2.N) (b : Fin 64) :
    lseblk V c t (ix2 b (0 : Fin 1)) = lsearr V c (ix2 b (0 : Fin 1)) := by
  have hi := idx2_1 t
  unfold lseblk iblk2
  rw [View.read_apply]
  show V c main_v29 _ = V c main_v29 _
  congr 1
  funext a
  apply Fin.ext
  match a with
  | ⟨0, _⟩ => show win2_1.index t 0 * 64 + 1 * (b : Nat) = (b : Nat); rw [hi.1]; omega
  | ⟨1, _⟩ => show win2_1.index t 1 * 1 + 1 * ((0 : Fin 1) : Nat) = ((0 : Fin 1) : Nat); rw [hi.2]; simp

/-- The output block at an entry: the raw logit minus the row's log-sum-exp. -/
theorem out2_apply (x0 : Vec Ideal S64x16000 .f32) (x1 : Vec Ideal S64x1 .f32) (b : Fin 64) (v : Fin 16000) :
    out2_2 (F := Ideal) x0 x1 (ix2 b v) = x0 (ix2 b v) - x1 (ix2 b (0 : Fin 1)) := by
  unfold out2_2
  rw [View.canon_unit_zero hz2]
  simp only [View.ld_unit_zero (S := S64x16000) hz2, View.ld_unit_zero (S := S64x1) hz2]
  exact normalize_apply x0 x1 b v

/-- The array the region leaves. -/
def outG (c : Dev nD) : Vec Ideal S64x32000 .f32 := fun i =>
  rawarr V c i - lsearr V c (ix2 (⟨(i 0).val, (i 0).isLt⟩ : Fin 64) (0 : Fin 1))

theorem flushed2 (c : Dev nD) (t : Fin cfg2.N) (hf : (cfg2.win 2).flush t = true) :
    (dat2 V c).flushed 2 t = ((cfg2.win 2).blk t).view.read (Elt Ideal) (outG V c) := by
  have hN : t.val < 2 := lt_of_lt_of_eq t.isLt (show cfg2.N = 2 from N_2)
  have hi := idx2_2 t
  show (cfg2.win 2).cut (grid2.coords t) ((dat2 V c).after 2 t) = _
  rw [after2_2]
  funext y
  rw [View.read_apply]
  obtain ⟨b, v, rfl⟩ : ∃ (b : Fin 64) (v : Fin 16000), y = ix2 b v := ⟨y 0, y 1, eq_ix2 y⟩
  refine (out2_apply (rawblk V c t) (lseblk V c t) b v).trans ?_
  rw [rawblk_apply, lseblk_apply]
  unfold outG
  have e : ((cfg2.win 2).blk t).view.emb (ix2 b v) = ix2 b (hpos t.val v) := by
    funext a
    apply Fin.ext
    match a with
    | ⟨0, _⟩ => show win2_2.index t 0 * 64 + 1 * (b : Nat) = (b : Nat); rw [hi.1]; omega
    | ⟨1, _⟩ => show win2_2.index t 1 * 16000 + 1 * (v : Nat) = (t.val % 2) * 16000 + (v : Nat); rw [hi.2, Nat.mod_eq_of_lt hN]; omega
  rw [e]
  rfl

/-- The output array after the region. -/
theorem out_final (c : Dev nD) : (dat2 V c).arrAt 2 cfg2.N = outG V c :=
  (dat2 V c).arrAt_eq_of_cover 2 (outG V c) (flushed2 V c) fun i => by
    have h0 : (i 0 : Nat) < 64 := (i 0).isLt
    have h1 : (i 1 : Nat) < 32000 := (i 1).isLt
    have ht : (i 1 : Nat) / 16000 < cfg2.N := by rw [show cfg2.N = 2 from N_2]; omega
    refine ⟨⟨(i 1 : Nat) / 16000, ht⟩, flush2_2 _, ?_⟩
    have hi := idx2_2 ⟨(i 1 : Nat) / 16000, ht⟩
    show i ∈ ((View.whole main_v30).slice (win2_2.rect ⟨(i 1 : Nat) / 16000, ht⟩)).set
    rw [View.set_slice_whole, Rect.mem_set_unit]
    intro a
    match a with
    | ⟨0, _⟩ =>
      show win2_2.index _ 0 * win2_2.size 0 ≤ (i 0 : Nat) ∧ (i 0 : Nat) < win2_2.index _ 0 * win2_2.size 0 + win2_2.xsize (grid2.coords _) 0
      rw [hi.1]
      show 0 * 64 ≤ (i 0 : Nat) ∧ (i 0 : Nat) < 0 * 64 + 64
      omega
    | ⟨1, _⟩ =>
      show win2_2.index _ 1 * win2_2.size 1 ≤ (i 1 : Nat) ∧ (i 1 : Nat) < win2_2.index _ 1 * win2_2.size 1 + win2_2.xsize (grid2.coords _) 1
      rw [hi.2]
      show (i 1 : Nat) / 16000 * 16000 ≤ (i 1 : Nat) ∧ (i 1 : Nat) < (i 1 : Nat) / 16000 * 16000 + 16000
      omega

end Cert.KernelIdeal.Val

end
-- ==== Proof.Spec.lean ====
/-
  The mathematics both programs compute, index by index over the extended reals, as functions of the five argument
  arrays: a row of the input is eight consecutive context slices of the vocabulary; the slices are summed and scaled
  by one eighth (the context mean), sent through the first linear layer (contracting the vocabulary axis) plus its bias,
  then through the second linear layer (contracting the hidden axis) plus its bias: the logits.
-/
import Idealize.ShloMosaic.PureOps.Ideal
import Idealize.ShloMosaic.Lib.ValueIdx

noncomputable section

open scoped BigOperators

namespace Cert.Cbow

open Idealize.ShloMosaic Idealize.ShloMosaic.ValueIdx

variable (a0 : (⟨2, ![64, 256000]⟩ : Shape).Idx → EReal) (a1 : (⟨2, ![256, 32000]⟩ : Shape).Idx → EReal)
  (a2 : (⟨1, ![256]⟩ : Shape).Idx → EReal) (a3 : (⟨2, ![32000, 256]⟩ : Shape).Idx → EReal)
  (a4 : (⟨1, ![32000]⟩ : Shape).Idx → EReal)

/-- Context slice `j` of batch row `b` at vocabulary position `v`: the flat row holds the eight slices one after the other. -/
def ctx (b : Fin 64) (j : Fin 8) (v : Fin 32000) : EReal :=
  a0 (ix2 b (⟨j.val * 32000 + v.val, by have := j.isLt; have := v.isLt; omega⟩ : Fin 256000))

/-- The sum of the eight context slices. -/
def ctxSum (b : Fin 64) (v : Fin 32000) : EReal := ∑ j : Fin 8, ctx a0 b j v

/-- The context mean: the sum times one eighth. -/
def pooled (b : Fin 64) (v : Fin 32000) : EReal := ctxSum a0 b v * ((1 / 8 : ℝ) : EReal)

/-- The hidden layer: the pooled row against row `d` of the first weight matrix, plus the first bias. -/
def hidden (b : Fin 64) (d : Fin 256) : EReal := (∑ v : Fin 32000, pooled a0 b v * a1 (ix2 d v)) + a2 (ix1 d)

/-- The logits: the hidden row against row `v` of the second weight matrix, plus the second bias. -/
def logit (b : Fin 64) (v : Fin 32000) : EReal := (∑ d : Fin 256, hidden a0 a1 a2 b d * a3 (ix2 v d)) + a4 (ix1 v)

end Cert.Cbow

end
-- ==== Proof.KI.VAll.lean ====
/-
  The kernel program's result as a function of the five argument arrays, over the extended reals: entry (b, v) is the
  logit of row b at position v minus the row's log-sum-exp as the online recurrence computes it. Region by region: the first
  pallas_call's output is, per half, the five tiles' partial sums of the hidden layer, which the host adds and biases (a sum
  over the vocabulary is the sum over halves, tiles and lanes); the second's outputs are the logits and per half the running
  maximum and sum; the host merges the two halves into the log-sum-exp; the third subtracts it.
-/
import proofs.«416662_j60241211293750_3_alg».proof.Proof.KI.VHost
import proofs.«416662_j60241211293750_3_alg».proof.Proof.KI.V0Arr
import proofs.«416662_j60241211293750_3_alg».proof.Proof.KI.V1
import proofs.«416662_j60241211293750_3_alg».proof.Proof.KI.V2
import proofs.«416662_j60241211293750_3_alg».proof.Proof.Spec
import proofs.«416662_j60241211293750_3_alg».proof.Proof.LibOnlineSoftmax

set_option maxRecDepth 16384

noncomputable section

open scoped BigOperators

namespace Cert.KernelIdeal.Val

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

open Cert.OnlineSoftmax (tile foldMax runMax runSum lseOnline)

variable (m : (ℓ : Loc nD τ sig) → Buf (Elt Ideal) ℓ) (ρ : Dev nD → PrngReg)

/-- The term of the first layer's contraction at vocabulary position v. -/
abbrev term1 (c : Dev nD) (b : Fin 64) (d : Fin 256) (v : Fin 32000) : EReal :=
  Cert.Cbow.pooled (a0 m c) b v * a1 m c (ix2 d v)

/-- A tile's contribution to the hidden layer is the sum of the contraction's terms over the tile's lanes. -/
theorem contrib_spec (c : Dev nD) (t : ℕ) (ht : t < 10) (b : Fin 64) (d : Fin 256) :
    contrib (V1 m ρ) c t b d = ∑ k : Fin 3200, tile (term1 m c b d) (half t) (t % 5) k := by
  unfold contrib
  refine Finset.sum_congr rfl fun k _ => ?_
  rw [← tile_vpos' (term1 m c b d) t ht k]
  show ((∑ j : Fin 8, xin m ρ c (ix3 b j (vpos t k))) * ((1 / 8 : ℝ) : EReal)) * V1 m ρ c main_arg1 (ix2 d (vpos t k)) = _
  rw [V1_main_arg1]
  have e : (∑ j : Fin 8, xin m ρ c (ix3 b j (vpos t k))) = Cert.Cbow.ctxSum (a0 m c) b (vpos t k) := by
    unfold Cert.Cbow.ctxSum Cert.Cbow.ctx
    exact Finset.sum_congr rfl fun j _ => xin_apply m ρ c b j (vpos t k)
  rw [e]
  rfl

/-- The first pallas_call's output array, as the host stretch after it finds it. -/
theorem hpart_eq (c : Dev nD) : hpart m ρ c = hpartG (V1 m ρ) c :=
  ((hF0 m ρ c 2).symm).trans (hpart_final (V1 m ρ) c)

theorem hpart_apply (c : Dev nD) (u : Fin 2) (b : Fin 64) (d : Fin 256) :
    hpart m ρ c (ix3 u b d) = ∑ q ∈ Finset.range 5, ∑ k : Fin 3200, tile (term1 m c b d) u q k := by
  rw [hpart_eq]
  unfold hpartG
  refine Finset.sum_congr rfl fun q hq => ?_
  have hq5 : q < 5 := Finset.mem_range.mp hq
  have hu : u.val < 2 := u.isLt
  show contrib (V1 m ρ) c (5 * u.val + q) b d = _
  rw [contrib_spec m ρ c (5 * u.val + q) (by omega) b d]
  have e1 : half (5 * u.val + q) = u := Fin.ext (by show (5 * u.val + q) / 5 % 2 = u.val; omega)
  have e2 : (5 * u.val + q) % 5 = q := by omega
  rw [e1, e2]

/-- The hidden layer. -/
theorem hid_spec (c : Dev nD) (b : Fin 64) (d : Fin 256) :
    hid m ρ c (ix2 b d) = Cert.Cbow.hidden (a0 m c) (a1 m c) (a2 m c) b d := by
  rw [hid_apply, hpart_apply, hpart_apply]
  unfold Cert.Cbow.hidden
  rw [Cert.OnlineSoftmax.sum_tiles (term1 m c b d)]

/-- The raw logits. -/
theorem rawlogit_spec (c : Dev nD) (b : Fin 64) (v : Fin 32000) :
    rawlogit (V3 m ρ) c b v = Cert.Cbow.logit (a0 m c) (a1 m c) (a2 m c) (a3 m c) (a4 m c) b v := by
  unfold rawlogit Cert.Cbow.logit
  have e : (∑ d : Fin 256, hidarr (V3 m ρ) c (ix2 b d) * w2arr (V3 m ρ) c (ix2 v d))
      = ∑ d : Fin 256, Cert.Cbow.hidden (a0 m c) (a1 m c) (a2 m c) b d * a3 m c (ix2 v d) :=
    Finset.sum_congr rfl fun d _ => by
      show hid m ρ c (ix2 b d) * V3 m ρ c main_arg3 (ix2 v d) = _
      rw [hid_spec, V3_main_arg3]
  rw [e]
  show _ + b2row m ρ c (ix2 (0 : Fin 1) v) = _
  rw [b2row_apply]

/-- The logits row of batch row b. -/
abbrev lrow (c : Dev nD) (b : Fin 64) : Fin 32000 → EReal :=
  fun v => Cert.Cbow.logit (a0 m c) (a1 m c) (a2 m c) (a3 m c) (a4 m c) b v

theorem rawrow_spec (c : Dev nD) (b : Fin 64) : rawlogit (V3 m ρ) c b = lrow m c b :=
  funext fun v => rawlogit_spec m ρ c b v

/-- The second pallas_call's three output arrays, as the host stretch after it finds them. -/
theorem raw_eq (c : Dev nD) : V4 m ρ c main_v11_0 = rawG (V3 m ρ) c :=
  ((hF1 m ρ c 3).symm).trans (raw_final (V3 m ρ) c)
theorem mpart_eq (c : Dev nD) : mpart m ρ c = maxG (V3 m ρ) c :=
  ((hF1 m ρ c 4).symm).trans (max_final (V3 m ρ) c)
theorem lpart_eq (c : Dev nD) : lpart m ρ c = sumG (V3 m ρ) c :=
  ((hF1 m ρ c 5).symm).trans (sum_final (V3 m ρ) c)

/-- The log-sum-exp the host merges. -/
theorem lse_spec (c : Dev nD) (b : Fin 64) :
    lse m ρ c (ix2 b (0 : Fin 1)) = lseOnline negv (lrow m c b) := by
  rw [lse_apply, mpart_eq, lpart_eq, ← rawrow_spec m ρ c b]
  rfl

/-- THE KERNEL'S RESULT at (b, v). -/
theorem result_apply (c : Dev nD) (b : Fin 64) (v : Fin 32000) :
    (dat2 (V5 m ρ) c).arrAt 2 cfg2.N (ix2 b v) = lrow m c b v - lseOnline negv (lrow m c b) := by
  have e1 : rawarr (V5 m ρ) c = rawG (V3 m ρ) c := (V5_main_v11_0 m ρ c).trans (raw_eq m ρ c)
  have e2 : lsearr (V5 m ρ) c = lse m ρ c := rfl
  rw [out_final]
  unfold outG
  show rawarr (V5 m ρ) c (ix2 b v) - lsearr (V5 m ρ) c (ix2 b (0 : Fin 1)) = _
  rw [e1, e2, lse_spec]
  unfold rawG
  show rawlogit (V3 m ρ) c b v - _ = _
  rw [rawlogit_spec]

end Cert.KernelIdeal.Val

end
-- ==== Proof.RefValue.lean ====
/-
  The reference's result read at an index, as the mathematics of its five argument arrays. Stage by stage: the
  reshaped input at (b, j, v) is the flat row's position j·32000 + v; the sum over the eight slices divided by eight is
  the context mean; each contraction is the sum over the contracted coordinate of the products, and the bias, brought
  to the result's shape, is added at its own coordinate: the hidden layer, then the logits. The row's maximum is the
  fold of the maximum from -∞ over the row of logits, joined once more with -∞; the result at (b, v) is the logit less
  that maximum, less the logarithm of zero plus the row's sum of the exponentials of the logits less the maximum.
-/
import proofs.«416662_j60241211293750_3_alg».proof.Proof.RefRead
import proofs.«416662_j60241211293750_3_alg».proof.Proof.Spec
import proofs.«416662_j60241211293750_3_alg».proof.Proof.LibOnlineSoftmax
import proofs.«416662_j60241211293750_3_alg».proof.Proof.Consts
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.ReadP

/-! ## The layout operations' indices, composed -/

/-- Slice `j` of row `b` at position `v` of the reshaped input is the flat row's position `j·32000 + v`. -/
theorem idx_ctx (b : Fin 64) (j : Fin 8) (v : Fin 32000) :
    idx_main_v0 (idx_main_v1 (ix2 b v) j)
      = ix2 b (⟨j.val * 32000 + v.val, by have := j.isLt; have := v.isLt; omega⟩ : Fin 256000) := by
  have hb := b.isLt; have hj := j.isLt; have hv := v.isLt
  funext a
  match a with
  | ⟨0, _⟩ => exact Fin.ext (by show ((b.val * 8 + j.val) * 32000 + v.val) / 256000 = b.val; omega)
  | ⟨1, _⟩ => exact Fin.ext (by show ((b.val * 8 + j.val) * 32000 + v.val) % 256000 = j.val * 32000 + v.val; omega)

theorem lidx_v4 (b : Fin 64) (d : Fin 256) (k : Fin 32000) : lidx_main_v4 (ix2 b d) k = ix2 b k := by
  funext a; match a with | ⟨0, _⟩ => rfl | ⟨1, _⟩ => rfl
theorem ridx_v4 (b : Fin 64) (d : Fin 256) (k : Fin 32000) : ridx_main_v4 (ix2 b d) k = ix2 d k := by
  funext a; match a with | ⟨0, _⟩ => rfl | ⟨1, _⟩ => rfl
theorem idx_v5_v6 (b : Fin 64) (d : Fin 256) : idx_main_v5 (idx_main_v6 (ix2 b d)) = ix1 d := by
  funext a; match a with | ⟨0, _⟩ => rfl
theorem lidx_v8 (b : Fin 64) (v : Fin 32000) (k : Fin 256) : lidx_main_v8 (ix2 b v) k = ix2 b k := by
  funext a; match a with | ⟨0, _⟩ => rfl | ⟨1, _⟩ => rfl
theorem ridx_v8 (b : Fin 64) (v : Fin 32000) (k : Fin 256) : ridx_main_v8 (ix2 b v) k = ix2 v k := by
  funext a; match a with | ⟨0, _⟩ => rfl | ⟨1, _⟩ => rfl
theorem idx_v9_v10 (b : Fin 64) (v : Fin 32000) : idx_main_v9 (idx_main_v10 (ix2 b v)) = ix1 v := by
  funext a; match a with | ⟨0, _⟩ => rfl
theorem idx_c3_c4 (b : Fin 64) (v : Fin 32000) : idx_main_call0_v3 (idx_main_call0_v4 (ix2 b v)) = ix1 b := by
  funext a; match a with | ⟨0, _⟩ => rfl
theorem idx_c8_c10 (b : Fin 64) (v : Fin 32000) : idx_main_call0_v8 (idx_main_call0_v10 (ix2 b v)) = ix1 b := by
  funext a; match a with | ⟨0, _⟩ => rfl
theorem idx_c7 (b : Fin 64) (k : Fin 32000) : idx_main_call0_v7 (ix1 b) k = ix2 b k := by
  funext a; match a with | ⟨0, _⟩ => rfl | ⟨1, _⟩ => rfl
/-- Row `b` with column `k` put back is (b, k). -/
theorem lift_row (h : S64x32000.Reduces [1] S64) (b : Fin 64) (k : Fin (S64x32000.size 1)) :
    h.lift (ix1 b) k = ix2 b (⟨k.val, k.isLt⟩ : Fin 32000) := by
  funext a; apply Fin.ext
  match a with | ⟨0, _⟩ => rfl | ⟨1, _⟩ => rfl

/-! ## The stages at an index -/

section Stages

variable (x0 : (⟨S64x256000, .f32⟩ : BufTy).Contents (Elt Ideal)) (x1 : (⟨S256x32000, .f32⟩ : BufTy).Contents (Elt Ideal))
  (x2 : (⟨S256, .f32⟩ : BufTy).Contents (Elt Ideal)) (x3 : (⟨S32000x256, .f32⟩ : BufTy).Contents (Elt Ideal))
  (x4 : (⟨S32000, .f32⟩ : BufTy).Contents (Elt Ideal))

/-- The mean over the eight context slices: their sum times one eighth. -/
theorem pooled_apply (b : Fin 64) (v : Fin 32000) :
    val_main_v3 (F := Ideal) x0 (ix2 b v) = Cert.Cbow.pooled x0 b v := by
  rw [val_main_v3_apply, val_main_v1_apply, val_main_v2_apply, val_main_cst_0_apply, val_main_cst_apply,
    Ideal.hostDivf_def, Ideal.ofBits_def, Ideal.ofBits_def, Cert.Consts.ofBits_zero, Cert.Consts.ofBits_eight, zero_add,
    Ideal.div_coe (by norm_num : (8 : ℝ) ≠ 0)]
  unfold Cert.Cbow.pooled Cert.Cbow.ctxSum Cert.Cbow.ctx
  refine congrArg (· * _) (Finset.sum_congr rfl fun j _ => ?_)
  rw [val_main_v0_apply, idx_ctx]

/-- The first linear layer plus its bias. -/
theorem hidden_apply (b : Fin 64) (d : Fin 256) :
    val_main_v7 (F := Ideal) x0 x1 x2 (ix2 b d) = Cert.Cbow.hidden x0 x1 x2 b d := by
  have hs : (∑ k : Fin 32000, val_main_v3 (F := Ideal) x0 (lidx_main_v4 (ix2 b d) k) * x1 (ridx_main_v4 (ix2 b d) k))
      = ∑ v : Fin 32000, Cert.Cbow.pooled x0 b v * x1 (ix2 d v) :=
    Finset.sum_congr rfl fun k _ => by rw [lidx_v4, ridx_v4, pooled_apply]
  unfold Cert.Cbow.hidden
  rw [val_main_v7_apply, val_main_v4_apply, val_main_v6_apply, val_main_v5_apply, Ideal.addf_def, idx_v5_v6, hs]

/-- The second linear layer plus its bias: the logits. -/
theorem logit_apply (b : Fin 64) (v : Fin 32000) :
    val_main_v11 (F := Ideal) x0 x1 x2 x3 x4 (ix2 b v) = Cert.Cbow.logit x0 x1 x2 x3 x4 b v := by
  have hs : (∑ k : Fin 256, val_main_v7 (F := Ideal) x0 x1 x2 (lidx_main_v8 (ix2 b v) k) * x3 (ridx_main_v8 (ix2 b v) k))
      = ∑ d : Fin 256, Cert.Cbow.hidden x0 x1 x2 b d * x3 (ix2 v d) :=
    Finset.sum_congr rfl fun k _ => by rw [lidx_v8, ridx_v8, hidden_apply]
  unfold Cert.Cbow.logit
  rw [val_main_v11_apply, val_main_v8_apply, val_main_v10_apply, val_main_v9_apply, Ideal.addf_def, idx_v9_v10, hs]

/-- The row maximum: the fold of the maximum from -∞ over the row of logits, joined once more with -∞. -/
theorem rowMax_apply (b : Fin 64) :
    val_main_call0_v2 (F := Ideal) x0 x1 x2 x3 x4 (ix1 b)
      = Cert.OnlineSoftmax.refMax (fun v' => Cert.Cbow.logit x0 x1 x2 x3 x4 b v') := by
  have h : S64x32000.Reduces [1] S64 := by decide
  rw [val_main_call0_v2_apply, val_main_call0_v1_apply, val_main_call0_cst_0_apply, Ideal.maximumf_def, Ideal.ofBits_def,
    Cert.Consts.ofBits_neg_inf]
  unfold Cert.OnlineSoftmax.refMax Cert.OnlineSoftmax.foldMax
  refine congrArg (max ⊥) ?_
  unfold val_main_call0_v0
  rw [Host.reduce_eq_fold_single (FloatOps.maximumf (F := Ideal) (φ := .f32)) (val_main_v11 (F := Ideal) x0 x1 x2 x3 x4) _
      reducesTo_S64x32000_S64_d1 h h_S_ (ix1 b), val_main_call0_cst_apply, Ideal.ofBits_def, Cert.Consts.ofBits_neg_inf]
  have hf : (val_main_v11 (F := Ideal) x0 x1 x2 x3 x4 ∘ h.lift (ix1 b))
      = fun v' : Fin 32000 => Cert.Cbow.logit x0 x1 x2 x3 x4 b v' := funext fun k =>
    (congrArg (val_main_v11 (F := Ideal) x0 x1 x2 x3 x4) (lift_row h b k)).trans
      (logit_apply x0 x1 x2 x3 x4 b ⟨k.val, k.isLt⟩)
  exact congrArg (fun f => Finset.fold max (⊥ : EReal) f (Finset.univ : Finset (Fin 32000))) hf

/-- The logits less the row maximum. -/
theorem shifted_apply (b : Fin 64) (v : Fin 32000) :
    val_main_call0_v5 (F := Ideal) x0 x1 x2 x3 x4 (ix2 b v)
      = Cert.Cbow.logit x0 x1 x2 x3 x4 b v - Cert.OnlineSoftmax.refMax (fun v' => Cert.Cbow.logit x0 x1 x2 x3 x4 b v') := by
  rw [val_main_call0_v5_apply, val_main_call0_v4_apply, val_main_call0_v3_apply, Ideal.subf_def, idx_c3_c4, logit_apply,
    rowMax_apply]

/-- The result: the shifted logit less the logarithm of the row's sum of exponentials of the shifted logits. -/
theorem value_apply (b : Fin 64) (v : Fin 32000) :
    val_main_v12 (F := Ideal) x0 x1 x2 x3 x4 (ix2 b v)
      = (Cert.Cbow.logit x0 x1 x2 x3 x4 b v - Cert.OnlineSoftmax.refMax (fun v' => Cert.Cbow.logit x0 x1 x2 x3 x4 b v'))
        - Ideal.log (0 + ∑ v' : Fin 32000, Ideal.exp (Cert.Cbow.logit x0 x1 x2 x3 x4 b v'
            - Cert.OnlineSoftmax.refMax (fun v'' => Cert.Cbow.logit x0 x1 x2 x3 x4 b v''))) := by
  rw [val_main_v12_apply, val_main_call0_v10_apply, val_main_call0_v9_apply, val_main_call0_v8_apply, val_main_call0_v7_apply,
    val_main_call0_cst_1_apply, Ideal.subf_def, Ideal.hostUnary_log_def, Ideal.ofBits_def, Cert.Consts.ofBits_zero, idx_c8_c10,
    shifted_apply]
  have hs : (∑ k : Fin 32000, val_main_call0_v6 (F := Ideal) x0 x1 x2 x3 x4 (idx_main_call0_v7 (ix1 b) k))
      = ∑ v' : Fin 32000, Ideal.exp (Cert.Cbow.logit x0 x1 x2 x3 x4 b v'
          - Cert.OnlineSoftmax.refMax (fun v'' => Cert.Cbow.logit x0 x1 x2 x3 x4 b v'')) :=
    Finset.sum_congr rfl fun k _ => by
      rw [val_main_call0_v6_apply, Ideal.hostUnary_exp_def, idx_c7, shifted_apply]
  rw [hs]

end Stages

/-- The reference's result at (b, v), from the launch contents of its five arguments. -/
theorem ref_apply (m : (ℓ : Loc nD τ sig) → Buf (Elt Ideal) ℓ) (c : Dev nD) (b : Fin 64) (v : Fin 32000) :
    Cert.ReferenceIdeal.ValueP.res_main_v12 (F := Ideal) m c (ix2 b v)
      = (Cert.Cbow.logit (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) b v
          - Cert.OnlineSoftmax.refMax (fun v' => Cert.Cbow.logit (m ((c.tc : Thread nD τ).loc main_arg0))
              (m ((c.tc : Thread nD τ).loc main_arg1)) (m ((c.tc : Thread nD τ).loc main_arg2))
              (m ((c.tc : Thread nD τ).loc main_arg3)) (m ((c.tc : Thread nD τ).loc main_arg4)) b v'))
        - Ideal.log (0 + ∑ v' : Fin 32000, Ideal.exp (Cert.Cbow.logit (m ((c.tc : Thread nD τ).loc main_arg0))
              (m ((c.tc : Thread nD τ).loc main_arg1)) (m ((c.tc : Thread nD τ).loc main_arg2))
              (m ((c.tc : Thread nD τ).loc main_arg3)) (m ((c.tc : Thread nD τ).loc main_arg4)) b v'
            - Cert.OnlineSoftmax.refMax (fun v'' => Cert.Cbow.logit (m ((c.tc : Thread nD τ).loc main_arg0))
                (m ((c.tc : Thread nD τ).loc main_arg1)) (m ((c.tc : Thread nD τ).loc main_arg2))
                (m ((c.tc : Thread nD τ).loc main_arg3)) (m ((c.tc : Thread nD τ).loc main_arg4)) b v''))) := by
  rw [ReadP.val_main_v12_eq]
  exact value_apply _ _ _ _ _ b v

end Cert.ReferenceIdeal.RefValue

end
-- ==== Proof.Finite.lean ====
/-
  Finiteness. The precondition says that every entry of each of the five argument arrays has absolute value below plus
  infinity; over the extended reals such an entry is a real number. Sums and products of real numbers are real numbers,
  so every logit is a real number.
-/
import proofs.«416662_j60241211293750_3_alg».proof.Defs
import proofs.«416662_j60241211293750_3_alg».proof.Proof.Gen.Pre_finite_inputs
import proofs.«416662_j60241211293750_3_alg».proof.Proof.Gen.KernelIdeal
import proofs.«416662_j60241211293750_3_alg».proof.Proof.Consts
import proofs.«416662_j60241211293750_3_alg».proof.Proof.Spec
import Idealize.ShloMosaic.Lib.ReduceAll
import Idealize.ShloMosaic.Lib.ValueIdx
import Idealize.ShloMosaic.PureOps.Ideal

set_option maxRecDepth 16384

noncomputable section

open scoped BigOperators

namespace Cert.Finite

open Idealize.ShloMosaic Idealize.SL.Sem
open Idealize.ShloMosaic.ValueIdx

/-- An extended real whose absolute value is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The printed comparison of an entry's absolute value against the word of plus infinity, read back. -/
theorem real_of_cmp (x : EReal)
    (h : Ideal.cmp .olt (max x (-x)) (Ideal.ofBits .f32 0x7F800000#32) = 1#1) : ∃ r : ℝ, x = (r : EReal) := by
  rw [Cert.Consts.ofBits_pos_inf] at h
  refine real_of_abs_lt_top x ?_
  have h1 : BitVec.ofBool (decide (max x (-x) < (⊤ : EReal))) = 1#1 := h
  by_contra hn
  rw [decide_eq_false hn] at h1
  exact absurd h1 (by decide)

instance : Subsingleton Cert.Pre_finite_inputs.S_.Idx := ⟨fun a b => funext fun d => d.elim0⟩

/-- The precondition's five conjuncts, each read at every index. -/
theorem fn_real (x0 : FVec Ideal Cert.Pre_finite_inputs.S64x256000 .f32) (x1 : FVec Ideal Cert.Pre_finite_inputs.S256x32000 .f32)
    (x2 : FVec Ideal Cert.Pre_finite_inputs.S256 .f32) (x3 : FVec Ideal Cert.Pre_finite_inputs.S32000x256 .f32)
    (x4 : FVec Ideal Cert.Pre_finite_inputs.S32000 .f32)
    (h : Cert.Pre_finite_inputs.fn (F := Ideal) x0 x1 x2 x3 x4 = (fun _ => 1#1)) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  refine ⟨fun i => ?_, fun i => ?_, fun i => ?_, fun i => ?_, fun i => ?_⟩
  · exact real_of_cmp _ (Host.reduce_andi_all _ _ _ _ _ e0 i)
  · exact real_of_cmp _ (Host.reduce_andi_all _ _ _ _ _ e1 i)
  · exact real_of_cmp _ (Host.reduce_andi_all _ _ _ _ _ e2 i)
  · exact real_of_cmp _ (Host.reduce_andi_all _ _ _ _ _ e3 i)
  · exact real_of_cmp _ (Host.reduce_andi_all _ _ _ _ _ e4 i)

/-- From the precondition: every entry of every argument is a real number. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread _ Cert.KernelIdeal.τ).loc Cert.KernelIdeal.main_arg0) : Cert.KernelIdeal.S64x256000.Idx → EReal) i = (r : EReal))
      ∧ (∀ i, ∃ r : ℝ, (m ((c.tc : Thread _ Cert.KernelIdeal.τ).loc Cert.KernelIdeal.main_arg1) : Cert.KernelIdeal.S256x32000.Idx → EReal) i = (r : EReal))
      ∧ (∀ i, ∃ r : ℝ, (m ((c.tc : Thread _ Cert.KernelIdeal.τ).loc Cert.KernelIdeal.main_arg2) : Cert.KernelIdeal.S256.Idx → EReal) i = (r : EReal))
      ∧ (∀ i, ∃ r : ℝ, (m ((c.tc : Thread _ Cert.KernelIdeal.τ).loc Cert.KernelIdeal.main_arg3) : Cert.KernelIdeal.S32000x256.Idx → EReal) i = (r : EReal))
      ∧ (∀ i, ∃ r : ℝ, (m ((c.tc : Thread _ Cert.KernelIdeal.τ).loc Cert.KernelIdeal.main_arg4) : Cert.KernelIdeal.S32000.Idx → EReal) i = (r : EReal)) :=
  fn_real _ _ _ _ _ (h c)

/-! ## Closure of "is a real number" -/

theorem real_add {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem real_sum {ι : Type} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a) ih

section Logit
variable (a0 : (⟨2, ![64, 256000]⟩ : Shape).Idx → EReal) (a1 : (⟨2, ![256, 32000]⟩ : Shape).Idx → EReal)
  (a2 : (⟨1, ![256]⟩ : Shape).Idx → EReal) (a3 : (⟨2, ![32000, 256]⟩ : Shape).Idx → EReal)
  (a4 : (⟨1, ![32000]⟩ : Shape).Idx → EReal)

theorem pooled_real (h0 : ∀ i, ∃ r : ℝ, a0 i = (r : EReal)) (b : Fin 64) (v : Fin 32000) :
    ∃ r : ℝ, Cert.Cbow.pooled a0 b v = (r : EReal) := by
  unfold Cert.Cbow.pooled Cert.Cbow.ctxSum Cert.Cbow.ctx
  exact real_mul (real_sum _ _ fun j => h0 _) ⟨_, rfl⟩

theorem hidden_real (h0 : ∀ i, ∃ r : ℝ, a0 i = (r : EReal)) (h1 : ∀ i, ∃ r : ℝ, a1 i = (r : EReal))
    (h2 : ∀ i, ∃ r : ℝ, a2 i = (r : EReal)) (b : Fin 64) (d : Fin 256) :
    ∃ r : ℝ, Cert.Cbow.hidden a0 a1 a2 b d = (r : EReal) := by
  unfold Cert.Cbow.hidden
  exact real_add (real_sum _ _ fun v => real_mul (pooled_real a0 h0 b v) (h1 _)) (h2 _)

/-- Every logit of finite arguments is a real number. -/
theorem logit_real (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) (h4 : ∀ i, ∃ r : ℝ, a4 i = (r : EReal))
    (b : Fin 64) (v : Fin 32000) : ∃ r : ℝ, Cert.Cbow.logit a0 a1 a2 a3 a4 b v = (r : EReal) := by
  unfold Cert.Cbow.logit
  exact real_add (real_sum _ _ fun d => real_mul (hidden_real a0 a1 a2 h0 h1 h2 b d) (h3 _)) (h4 _)

end Logit

end Cert.Finite

end
-- ==== Proof.lean ====
/-
  The kernel computes the log-softmax of a two-layer network on the mean of eight context slices, in three pallas_calls:
  the context mean and the first linear layer accumulated tile by tile over each half of the vocabulary; the second linear
  layer tile by tile with an online softmax per half (a running maximum started from a FINITE stand-in for minus infinity,
  and a running sum of exponentials rescaled to it); and the subtraction of the merged log-sum-exp. The reference takes the
  mean by a division by eight, contracts the whole vocabulary at once, and normalises with the row maximum.

  Over the extended reals, for finite inputs, the two agree entry by entry: a product with one eighth is the quotient by
  eight; a sum over the vocabulary is the sum over halves, tiles and lanes (addition is commutative and associative, no
  finiteness needed); and for finite logits m + log (∑ exp (z - m)) does not depend on the real number m, so the online
  recurrence, whatever finite number it starts its maximum from, and the reference's shift by the true row maximum both give
  z - log (∑ exp z). Finiteness of the logits follows from finiteness of the five arguments, which is the precondition.

  The three frames: both kernel programs by the run of their three regions (each region's body at every grid point, the
  accumulators carried between points in the region's invariant); the reference by its straight-line run.
-/
import proofs.«416662_j60241211293750_3_alg».proof.Defs
import proofs.«416662_j60241211293750_3_alg».proof.Proof.Gen.Kernel
import proofs.«416662_j60241211293750_3_alg».proof.Proof.Gen.KernelIdeal
import proofs.«416662_j60241211293750_3_alg».proof.Proof.Gen.ReferenceIdeal
import proofs.«416662_j60241211293750_3_alg».proof.Proof.Gen.Pre_finite_inputs
import proofs.«416662_j60241211293750_3_alg».proof.Proof.K.Run
import proofs.«416662_j60241211293750_3_alg».proof.Proof.KI.VAll
import proofs.«416662_j60241211293750_3_alg».proof.Proof.RefValue
import proofs.«416662_j60241211293750_3_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Entry by entry the reference's result is the kernel's: both are the logit minus the row's log-sum-exp. -/
theorem results_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.ValueP.res_main_v12 (F := Ideal) m' c
      = (Cert.KernelIdeal.Gen.dat2 (Cert.KernelIdeal.Gen.V5 m ρ) c).arrAt 2 Cert.KernelIdeal.cfg2.N := by
  funext i
  obtain ⟨b, v, rfl⟩ : ∃ (b : Fin 64) (v : Fin 32000), i = ix2 b v := ⟨i 0, i 1, eq_ix2 i⟩
  refine (Cert.ReferenceIdeal.RefValue.ref_apply m' c b v).trans ?_
  refine Eq.trans ?_ (Cert.KernelIdeal.Val.result_apply m ρ c b v).symm
  rw [h0, h1, h2, h3, h4]
  obtain ⟨r, hr⟩ := Cert.Consts.ofBits_neg_big
  obtain ⟨r0, r1, r2, r3, r4⟩ := Cert.Finite.args_real m hpre c
  have hreal : ∀ v' : Fin 32000, ∃ x : ℝ, Cert.KernelIdeal.Val.lrow m c b v' = (x : EReal) := fun v' =>
    Cert.Finite.logit_real _ _ _ _ _ r0 r1 r2 r3 r4 b v'
  have key := Cert.OnlineSoftmax.logSoftmax_online r (Cert.KernelIdeal.Val.lrow m c b) hreal v
  rw [← hr] at key
  exact key.symm

theorem algebraic : Cert.algebraic_KernelIdeal_ReferenceIdeal := by
  intro m ρ m' ρ' hpre hagree
  refine ⟨fun c => (Cert.KernelIdeal.Gen.dat2 (Cert.KernelIdeal.Gen.V5 m ρ) c).arrAt 2 Cert.KernelIdeal.cfg2.N,
    Cert.KernelIdeal.Gen.run_main m ρ, ?_⟩
  refine (θ_run Cert.ReferenceIdeal.defs _ _).mono (fun _ h c => ⟨(h c).1.trans ?_, (h c).2⟩)
    (Cert.ReferenceIdeal.ValueP.run (F := Ideal) m' ρ')
  exact results_agree m ρ m' hpre c (hagree c).1 (hagree c).2.1 (hagree c).2.2.1 (hagree c).2.2.2.1 (hagree c).2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
